-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S128x64 : Shape := ⟨2, ![128, 64]⟩
abbrev S128 : Shape := ⟨1, ![128]⟩
abbrev S64x128 : Shape := ⟨2, ![64, 128]⟩
abbrev S64 : Shape := ⟨1, ![64]⟩
abbrev S_ : Shape := ⟨0, ![]⟩
abbrev S1x800000 : Shape := ⟨2, ![1, 800000]⟩
abbrev S800000 : Shape := ⟨1, ![800000]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part2 {F : FTy → Type} [FloatOps F] (main_arg1 : IVec S2x800000 32) (main_v33 : IVec S_ 1) : IVec S_ 1 :=
  let main_v34 : IVec S1x800000 32 := (extractStridedSlice S1x800000 ![0, 0] · slices_S2x800000_S1x800000_0_0) main_arg1
  let main_v35 : IVec S800000 32 := shapeCast S800000 main_v34 shapeCasts_S1x800000_S800000
  let main_c_12 : IVec S_ 32 := constantI S_ 32 0#32
  let main_v36 : IVec S800000 32 := broadcastInDim S800000 ![] bcast_S_S800000 main_c_12
  let main_v37 : IVec S800000 1 := cmpi .sge main_v35 main_v36
  let main_v38 : IVec S1x800000 32 := (extractStridedSlice S1x800000 ![0, 0] · slices_S2x800000_S1x800000_0_0) main_arg1
  let main_v39 : IVec S800000 32 := shapeCast S800000 main_v38 shapeCasts_S1x800000_S800000
  let main_c_13 : IVec S_ 32 := constantI S_ 32 50000#32
  let main_v40 : IVec S800000 32 := broadcastInDim S800000 ![] bcast_S_S800000 main_c_13
  let main_v41 : IVec S800000 1 := cmpi .slt main_v39 main_v40
  let main_v42 : IVec S800000 1 := andi main_v37 main_v41
  let main_c_14 : IVec S_ 1 := constantI S_ 1 1#1
  let main_v43 : IVec S_ 1 := (fun x v => Host.reduce IntOp.andi x v reducesTo_S800000_S_d0 h_S_) main_v42 main_c_14
  let main_v44 : IVec S_ 1 := andi main_v33 main_v43
  main_v44

def fn_part1 {F : FTy → Type} [FloatOps F] (main_arg1 : IVec S2x800000 32) (main_arg5 : FVec F S64x128 .f32) (main_arg6 : FVec F S64 .f32) (main_arg7 : FVec F S64x128 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg1 main_v33

def fn {F : FTy → Type} [FloatOps F] (main_arg0 : FVec F S50000x64 .f32) (main_arg1 : IVec S2x800000 32) (main_arg2 : FVec F S128x64 .f32) (main_arg3 : FVec F S128 .f32) (main_arg4 : FVec F S128x64 .f32) (main_arg5 : FVec F S64x128 .f32) (main_arg6 : FVec F S64 .f32) (main_arg7 : FVec F S64x128 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg1 main_arg5 main_arg6 main_arg7 main_v13 main_v16
-- ==== Kernel.lean ====
abbrev S50000x64 : Shape := ⟨2, ![50000, 64]⟩
abbrev S2x800000 : Shape := ⟨2, ![2, 800000]⟩
abbrev S128x64 : Shape := ⟨2, ![128, 64]⟩
abbrev S128 : Shape := ⟨1, ![128]⟩
abbrev S64x128 : Shape := ⟨2, ![64, 128]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1 : Shape := ⟨1, ![1]⟩
abbrev S1x1 : Shape := ⟨2, ![1, 1]⟩
abbrev S800000x64 : Shape := ⟨2, ![800000, 64]⟩
abbrev S50000x128 : Shape := ⟨2, ![50000, 128]⟩
abbrev S5000x64 : Shape := ⟨2, ![5000, 64]⟩
abbrev S5000x128 : Shape := ⟨2, ![5000, 128]⟩
abbrev S1x128 : Shape := ⟨2, ![1, 128]⟩
abbrev S800000x128 : Shape := ⟨2, ![800000, 128]⟩
abbrev S1x64 : Shape := ⟨2, ![1, 64]⟩
abbrev S5000 : Shape := ⟨1, ![5000]⟩
abbrev S5000x1 : Shape := ⟨2, ![5000, 1]⟩

abbrev nBuf : Space → Nat
  | .hbm => 82
  | .vmem => 18
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S128x64, .f32⟩
  | .hbm, ⟨3, _⟩ => ⟨S128, .f32⟩
  | .hbm, ⟨4, _⟩ => ⟨S128x64, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000x1, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S1, .i32⟩
  | .hbm, ⟨31, _⟩ => ⟨S_, .i32⟩
  | .hbm, ⟨32, _⟩ => ⟨S800000x1, .i32⟩
  | .hbm, ⟨33, _⟩ => ⟨S800000x1, .i1⟩
  | .hbm, ⟨34, _⟩ => ⟨S1x1, .i32⟩
  | .hbm, ⟨35, _⟩ => ⟨S800000x1, .i32⟩
  | .hbm, ⟨36, _⟩ => ⟨S800000x1, .i1⟩
  | .hbm, ⟨37, _⟩ => ⟨S800000x1, .i1⟩
  | .hbm, ⟨38, _⟩ => ⟨S_, .i1⟩
  | .hbm, ⟨39, _⟩ => ⟨S800000, .i1⟩
  | .hbm, ⟨40, _⟩ => ⟨S800000x64, .f32⟩
  | .hbm, ⟨41, _⟩ => ⟨S800000x64, .i1⟩
  | .hbm, ⟨42, _⟩ => ⟨S_, .f32⟩
  | .hbm, ⟨43, _⟩ => ⟨S800000x64, .f32⟩
  | .hbm, ⟨44, _⟩ => ⟨S800000x64, .f32⟩
  | .hbm, ⟨45, _⟩ => ⟨S_, .f32⟩
  | .hbm, ⟨46, _⟩ => ⟨S50000x64, .f32⟩
  | .hbm, ⟨47, _⟩ => ⟨S800000x1, .i32⟩
  | .hbm, ⟨48, _⟩ => ⟨S50000x64, .f32⟩
  | .hbm, ⟨49, _⟩ => ⟨S50000x64, .f32⟩
  | .hbm, ⟨50, _⟩ => ⟨S50000x64, .f32⟩
  | .hbm, ⟨51, _⟩ => ⟨S50000x128, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S1, .i32⟩
  | .hbm, ⟨61, _⟩ => ⟨S_, .i32⟩
  | .hbm, ⟨62, _⟩ => ⟨S800000x1, .i32⟩
  | .hbm, ⟨63, _⟩ => ⟨S800000x1, .i1⟩
  | .hbm, ⟨64, _⟩ => ⟨S1x1, .i32⟩
  | .hbm, ⟨65, _⟩ => ⟨S800000x1, .i32⟩
  | .hbm, ⟨66, _⟩ => ⟨S800000x1, .i1⟩
  | .hbm, ⟨67, _⟩ => ⟨S800000x1, .i1⟩
  | .hbm, ⟨68, _⟩ => ⟨S_, .i1⟩
  | .hbm, ⟨69, _⟩ => ⟨S800000, .i1⟩
  | .hbm, ⟨70, _⟩ => ⟨S800000x128, .f32⟩
  | .hbm, ⟨71, _⟩ => ⟨S800000x128, .i1⟩
  | .hbm, ⟨72, _⟩ => ⟨S_, .f32⟩
  | .hbm, ⟨73, _⟩ => ⟨S800000x128, .f32⟩
  | .hbm, ⟨74, _⟩ => ⟨S800000x128, .f32⟩
  | .hbm, ⟨75, _⟩ => ⟨S_, .f32⟩
  | .hbm, ⟨76, _⟩ => ⟨S50000x128, .f32⟩
  | .hbm, ⟨77, _⟩ => ⟨S800000x1, .i32⟩
  | .hbm, ⟨78, _⟩ => ⟨S50000x128, .f32⟩
  | .hbm, ⟨79, _⟩ => ⟨S50000x128, .f32⟩
  | .hbm, ⟨80, _⟩ => ⟨S50000x128, .f32⟩
  | .hbm, ⟨81, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S128x64, .f32⟩
  | .local _ .vmem, ⟨5, _⟩ => ⟨S128, .f32⟩
  | .local _ .vmem, ⟨6, _⟩ => ⟨S128x64, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S64x128, .f32⟩
  | .local _ .vmem, ⟨14, _⟩ => ⟨S64, .f32⟩
  | .local _ .vmem, ⟨15, _⟩ => ⟨S64x128, .f32⟩
  | .local _ .vmem, ⟨16, _⟩ => ⟨S5000x64, .f32⟩
  | .local _ .vmem, ⟨17, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_cst : Ref sig .tc := ⟨.hbm, 42, rfl⟩
abbrev main_call0_v15 : Ref sig .tc := ⟨.hbm, 43, rfl⟩
abbrev main_v11 : Ref sig .tc := ⟨.hbm, 44, rfl⟩
abbrev main_cst_2 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_call1_c : Ref sig .tc := ⟨.hbm, 52, rfl⟩
abbrev main_call1_v0 : Ref sig .tc := ⟨.hbm, 53, rfl⟩
abbrev main_call1_v1 : Ref sig .tc := ⟨.hbm, 54, rfl⟩
abbrev main_call1_c_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_c_1 : Ref sig .tc := ⟨.hbm, 60, rfl⟩
abbrev main_call1_c_2 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_c_3 : Ref sig .tc := ⟨.hbm, 68, rfl⟩
abbrev main_call1_v12 : Ref sig .tc := ⟨.hbm, 69, rfl⟩
abbrev main_call1_v13 : Ref sig .tc := ⟨.hbm, 70, rfl⟩
abbrev main_call1_v14 : Ref sig .tc := ⟨.hbm, 71, rfl⟩
abbrev main_call1_cst : Ref sig .tc := ⟨.hbm, 72, rfl⟩
abbrev main_call1_v15 : Ref sig .tc := ⟨.hbm, 73, rfl⟩
abbrev main_v18 : Ref sig .tc := ⟨.hbm, 74, rfl⟩
abbrev main_cst_3 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S128_S128_0 : ∀ a, (![0] : Fin 1 → Nat) a + S128.size a ≤ S128.size a
  h_S128 : 0 < S128.numel
  transposes_S128x64_p1_0_S64x128 : S128x64.Transposes [1, 0] S64x128
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S5000x128_S5000x128 : S5000x128.ShapeCasts S5000x128
  inb_S64x128_S64x128_0_0 : ∀ a, (![0, 0] : Fin 2 → Nat) a + S64x128.size a ≤ S64x128.size a
  h_S64x128 : 0 < S64x128.numel
  inb_S64_S64_0 : ∀ a, (![0] : Fin 1 → Nat) a + S64.size a ≤ S64.size a
  h_S64 : 0 < S64.numel
  transposes_S64x128_p1_0_S128x64 : S64x128.Transposes [1, 0] S128x64
  shapeCasts_S64_S1x64 : S64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x128_S5000x128_1_0_0_1_n_n_wf : DotDims.WF S5000x64 S64x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x128.size a ≤ S64x128.size a
  hwx1_4 : ∀ i : grid1.Coords, EltTy.bits .f32 = 32 ∨ (Rect.block (s := S64x128) S64x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v16) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v23) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S128x64 : Shape := ⟨2, ![128, 64]⟩
abbrev S128 : Shape := ⟨1, ![128]⟩
abbrev S64x128 : Shape := ⟨2, ![64, 128]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000x1 : Shape := ⟨2, ![50000, 1]⟩
abbrev S50000x128 : Shape := ⟨2, ![50000, 128]⟩
abbrev S1x128 : Shape := ⟨2, ![1, 128]⟩
abbrev S800000x128 : Shape := ⟨2, ![800000, 128]⟩
abbrev S1x64 : Shape := ⟨2, ![1, 64]⟩
abbrev S50000 : Shape := ⟨1, ![50000]⟩

abbrev nBuf : Space → Nat
  | .hbm => 92
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S128x64, .f32⟩
  | .hbm, ⟨3, _⟩ => ⟨S128, .f32⟩
  | .hbm, ⟨4, _⟩ => ⟨S128x64, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x64, .f32⟩
  | .hbm, ⟨21, _⟩ => ⟨S_, .f32⟩
  | .hbm, ⟨22, _⟩ => ⟨S50000x64, .f32⟩
  | .hbm, ⟨23, _⟩ => ⟨S800000x1, .i32⟩
  | .hbm, ⟨24, _⟩ => ⟨S50000x64, .f32⟩
  | .hbm, ⟨25, _⟩ => ⟨S_, .f32⟩
  | .hbm, ⟨26, _⟩ => ⟨S800000x1, .f32⟩
  | .hbm, ⟨27, _⟩ => ⟨S_, .f32⟩
  | .hbm, ⟨28, _⟩ => ⟨S50000x1, .f32⟩
  | .hbm, ⟨29, _⟩ => ⟨S800000x1, .i32⟩
  | .hbm, ⟨30, _⟩ => ⟨S50000x1, .f32⟩
  | .hbm, ⟨31, _⟩ => ⟨S_, .f32⟩
  | .hbm, ⟨32, _⟩ => ⟨S50000x1, .f32⟩
  | .hbm, ⟨33, _⟩ => ⟨S50000x1, .f32⟩
  | .hbm, ⟨34, _⟩ => ⟨S50000x64, .f32⟩
  | .hbm, ⟨35, _⟩ => ⟨S50000x64, .f32⟩
  | .hbm, ⟨36, _⟩ => ⟨S64x128, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S64x128, .f32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x128, .f32⟩
  | .hbm, ⟨54, _⟩ => ⟨S_, .f32⟩
  | .hbm, ⟨55, _⟩ => ⟨S50000x128, .f32⟩
  | .hbm, ⟨56, _⟩ => ⟨S800000x1, .i32⟩
  | .hbm, ⟨57, _⟩ => ⟨S50000x128, .f32⟩
  | .hbm, ⟨58, _⟩ => ⟨S_, .f32⟩
  | .hbm, ⟨59, _⟩ => ⟨S800000x1, .f32⟩
  | .hbm, ⟨60, _⟩ => ⟨S_, .f32⟩
  | .hbm, ⟨61, _⟩ => ⟨S50000x1, .f32⟩
  | .hbm, ⟨62, _⟩ => ⟨S800000x1, .i32⟩
  | .hbm, ⟨63, _⟩ => ⟨S50000x1, .f32⟩
  | .hbm, ⟨64, _⟩ => ⟨S_, .f32⟩
  | .hbm, ⟨65, _⟩ => ⟨S50000x1, .f32⟩
  | .hbm, ⟨66, _⟩ => ⟨S50000x1, .f32⟩
  | .hbm, ⟨67, _⟩ => ⟨S50000x128, .f32⟩
  | .hbm, ⟨68, _⟩ => ⟨S50000x128, .f32⟩
  | .hbm, ⟨69, _⟩ => ⟨S128x64, .f32⟩
  | .hbm, ⟨70, _⟩ => ⟨S50000x64, .f32⟩
  | .hbm, ⟨71, _⟩ => ⟨S1x64, .f32⟩
  | .hbm, ⟨72, _⟩ => ⟨S50000x64, .f32⟩
  | .hbm, ⟨73, _⟩ => ⟨S50000x64, .f32⟩
  | .hbm, ⟨74, _⟩ => ⟨S128x64, .f32⟩
  | .hbm, ⟨75, _⟩ => ⟨S50000x64, .f32⟩
  | .hbm, ⟨76, _⟩ => ⟨S50000x64, .f32⟩
  | .hbm, ⟨77, _⟩ => ⟨S_, .f32⟩
  | .hbm, ⟨78, _⟩ => ⟨S50000, .f32⟩
  | .hbm, ⟨79, _⟩ => ⟨S_, .f32⟩
  | .hbm, ⟨80, _⟩ => ⟨S50000, .f32⟩
  | .hbm, ⟨81, _⟩ => ⟨S50000, .f32⟩
  | .hbm, ⟨82, _⟩ => ⟨S50000x1, .f32⟩
  | .hbm, ⟨83, _⟩ => ⟨S50000x64, .f32⟩
  | .hbm, ⟨84, _⟩ => ⟨S50000x64, .f32⟩
  | .hbm, ⟨85, _⟩ => ⟨S50000x64, .f32⟩
  | .hbm, ⟨86, _⟩ => ⟨S_, .f32⟩
  | .hbm, ⟨87, _⟩ => ⟨S50000, .f32⟩
  | .hbm, ⟨88, _⟩ => ⟨S50000x1, .f32⟩
  | .hbm, ⟨89, _⟩ => ⟨S50000x1, .f32⟩
  | .hbm, ⟨90, _⟩ => ⟨S50000x64, .f32⟩
  | .hbm, ⟨91, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_4 : Ref sig .tc := ⟨.hbm, 45, rfl⟩
abbrev main_v31 : Ref sig .tc := ⟨.hbm, 46, rfl⟩
abbrev main_v32 : Ref sig .tc := ⟨.hbm, 47, rfl⟩
abbrev main_c_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_call0_cst : Ref sig .tc := ⟨.hbm, 77, rfl⟩
abbrev main_call0_v0 : Ref sig .tc := ⟨.hbm, 78, rfl⟩
abbrev main_call0_cst_0 : Ref sig .tc := ⟨.hbm, 79, rfl⟩
abbrev main_call0_v1 : Ref sig .tc := ⟨.hbm, 80, rfl⟩
abbrev main_call0_v2 : Ref sig .tc := ⟨.hbm, 81, rfl⟩
abbrev main_call0_v3 : Ref sig .tc := ⟨.hbm, 82, rfl⟩
abbrev main_call0_v4 : Ref sig .tc := ⟨.hbm, 83, rfl⟩
abbrev main_call0_v5 : Ref sig .tc := ⟨.hbm, 84, rfl⟩
abbrev main_call0_v6 : Ref sig .tc := ⟨.hbm, 85, rfl⟩
abbrev main_call0_cst_1 : Ref sig .tc := ⟨.hbm, 86, rfl⟩
abbrev main_call0_v7 : Ref sig .tc := ⟨.hbm, 87, rfl⟩
abbrev main_call0_v8 : Ref sig .tc := ⟨.hbm, 88, rfl⟩
abbrev main_call0_v9 : Ref sig .tc := ⟨.hbm, 89, rfl⟩
abbrev main_call0_v10 : Ref sig .tc := ⟨.hbm, 90, rfl⟩
abbrev main_v57 : Ref sig .tc := ⟨.hbm, 91, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  transposes_S128x64_S64x128_1_0 : S128x64.Transposes [1, 0] S64x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000x1_S800000x1_S800000x1_1_0_0_1_wf : ScatterDims.WF S50000x1 S800000x1 S800000x1 [1] [0] [0] 1
  dot_S50000x64_S64x128_S50000x128_1_0_0_1_n_n_wf : DotDims.WF S50000x64 S64x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.RefEval.lean ====
/-
  The reference program's run: its 84 host operations folded from the launch memory leave, in the result buffer,
  the last stage's value of the arguments, and leave the arguments as they were.
  The operations are cut into eight stretches. For each stretch, from ANY contents that hold the arguments and the
  stages the stretch reads, the contents after it hold the arguments and the stages the later stretches read: the
  stretch's results are evaluated at those buffers, the contents it starts from rewritten to the stages, and each
  result is then its stage by unfolding the stage's definition. The last two stretches are the operations of the
  outlined log-softmax, whose buffers carry the type of their value: the transports between a buffer's own type
  and the carried type are removed by three lemmas proved once for any such buffer. The stretches are joined by the
  fold of a concatenation.
-/
import proofs.«426505_j87866440941609_1_alg».proof.Proof.RefRun
import proofs.«426505_j87866440941609_1_alg».proof.Proof.RefRead
import Idealize.ShloMosaic.Lib.StableHlo.Run

noncomputable section

namespace Cert.ReferenceIdeal.Eval

open Cert.ReferenceIdeal Cert.ReferenceIdeal.Gen Idealize.ShloMosaic Idealize.ShloMosaic.TcCoe Idealize.SL.Sem Idealize.ShloMosaic.StableHlo

variable {F : FTy → Type} [FloatOps F]

/-! Contents moved between a buffer's own type and the value type a typed reference carries: the identity, stated so
    that no step compares two terms through a transport. -/

/-- Stored at the value's type and read back at it: the value. -/
private theorem ofBuf_toBuf {T : BufTy} (X : TRef sig T) (v : T.Contents (Elt F)) : X.ofBuf (X.toBuf v) = v := by
  obtain ⟨r, hty, _, _⟩ := X
  subst hty
  rfl

/-- Contents of the buffer equal to a value of the carried type read at that type. -/
private theorem ofBuf_eq_of {T : BufTy} (X : TRef sig T) (u : X.ref.ty.Contents (Elt F)) (w : T.Contents (Elt F)) (h : HEq u w) :
    X.ofBuf u = w := by
  obtain ⟨r, hty, _, _⟩ := X
  subst hty
  exact eq_of_heq h

/-- A value of the carried type stored in the buffer, against contents of the buffer equal to it. -/
private theorem toBuf_eq_of {T : BufTy} (X : TRef sig T) (v : T.Contents (Elt F)) (w : X.ref.ty.Contents (Elt F)) (h : HEq v w) :
    X.toBuf v = w := by
  obtain ⟨r, hty, _, _⟩ := X
  subst hty
  exact eq_of_heq h

/-- Operations 1 to 13 of the 84. -/
abbrev c1 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) ]

/-- Operations 1 to 13, from any contents that hold the earlier stages: the later stages. -/
theorem eval1 (W : Valuation τ sig (Elt F)) (x0 : (⟨S50000x64, .f32⟩ : BufTy).Contents (Elt F)) (x1 : (⟨S2x800000, .i32⟩ : BufTy).Contents (Elt F)) (x2 : (⟨S128x64, .f32⟩ : BufTy).Contents (Elt F)) (x3 : (⟨S128, .f32⟩ : BufTy).Contents (Elt F)) (x4 : (⟨S128x64, .f32⟩ : BufTy).Contents (Elt F)) (x5 : (⟨S64x128, .f32⟩ : BufTy).Contents (Elt F)) (x6 : (⟨S64, .f32⟩ : BufTy).Contents (Elt F)) (x7 : (⟨S64x128, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7) :
    after (c1 (F := F)) W (Proc.devRef .tc main_arg0) = x0
      ∧ after (c1 (F := F)) W (Proc.devRef .tc main_arg1) = x1
      ∧ after (c1 (F := F)) W (Proc.devRef .tc main_arg2) = x2
      ∧ after (c1 (F := F)) W (Proc.devRef .tc main_arg3) = x3
      ∧ after (c1 (F := F)) W (Proc.devRef .tc main_arg4) = x4
      ∧ after (c1 (F := F)) W (Proc.devRef .tc main_arg5) = x5
      ∧ after (c1 (F := F)) W (Proc.devRef .tc main_arg6) = x6
      ∧ after (c1 (F := F)) W (Proc.devRef .tc main_arg7) = x7
      ∧ after (c1 (F := F)) W (Proc.devRef .tc main_v1) = (ReadP.val_main_v1 (F := F) x1)
      ∧ after (c1 (F := F)) W (Proc.devRef .tc main_v3) = (ReadP.val_main_v3 (F := F) x1)
      ∧ after (c1 (F := F)) W (Proc.devRef .tc main_v10) = (ReadP.val_main_v10 (F := F) x0 x1) := by
  refine ⟨?_, ?_, ?_, ?_, ?_, ?_, ?_, ?_, ?_, ?_, ?_⟩
  · after_results_simp; exact h_main_arg0
  · after_results_simp; exact h_main_arg1
  · after_results_simp; exact h_main_arg2
  · after_results_simp; exact h_main_arg3
  · after_results_simp; exact h_main_arg4
  · after_results_simp; exact h_main_arg5
  · after_results_simp; exact h_main_arg6
  · after_results_simp; exact h_main_arg7
  · after_results_simp
    (rw [h_main_arg1]) <;> rfl
  · after_results_simp
    (rw [h_main_arg1]) <;> rfl
  · after_results_simp
    (rw [h_main_arg0, h_main_arg1]) <;> rfl

/-- Operations 14 to 28 of the 84. -/
abbrev c2 : List (HloOp τ sig (Elt F)) :=
  [ nullary main_cst (constant S_ .f32 0x00000000#32),
    unary main_cst main_v11 (broadcastInDim S50000x64 ![] bcast_S_S50000x64 : (⟨S_, .f32⟩ : BufTy).Contents (Elt F) → (⟨S50000x64, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_cst_1 (constant S_ .f32 0x3F800000#32),
    unary main_cst_1 main_v14 (broadcastInDim S800000x1 ![] bcast_S_S800000x1 : (⟨S_, .f32⟩ : BufTy).Contents (Elt F) → (⟨S800000x1, .f32⟩ : BufTy).Contents (Elt F)),
    nullary main_cst_2 (constant S_ .f32 0x00000000#32),
    unary main_cst_2 main_v15 (broadcastInDim S50000x1 ![] bcast_S_S50000x1 : (⟨S_, .f32⟩ : BufTy).Contents (Elt F) → (⟨S50000x1, .f32⟩ : BufTy).Contents (Elt F)),
    unary main_v3 main_v16 (broadcastInDim S800000x1 ![0] bcast_S800000_S800000x1_0 : (⟨S800000, .i32⟩ : BufTy).Contents (Elt F) → (⟨S800000x1, .i32⟩ : BufTy).Contents (Elt F)),
    ternary main_v15 main_v16 main_v14 main_v17 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    nullary main_cst_3 (constant S_ .f32 0x3F800000#32),
    unary main_cst_3 main_v18 (broadcastInDim S50000x1 ![] bcast_S_S50000x1 : (⟨S_, .f32⟩ : BufTy).Contents (Elt F) → (⟨S50000x1, .f32⟩ : BufTy).Contents (Elt F)),
    binary main_v17 main_v18 main_v19 (maximumf : (⟨S50000x1, .f32⟩ : BufTy).Contents (Elt F) → (⟨S50000x1, .f32⟩ : BufTy).Contents (Elt F) → (⟨S50000x1, .f32⟩ : BufTy).Contents (Elt F)),
    unary main_v19 main_v20 (broadcastInDim S50000x64 ![0, 1] bcast_S50000x1_S50000x64_0_1 : (⟨S50000x1, .f32⟩ : BufTy).Contents (Elt F) → (⟨S50000x64, .f32⟩ : BufTy).Contents (Elt F)),
    binary main_v13 main_v20 main_v21 (Host.divf : (⟨S50000x64, .f32⟩ : BufTy).Contents (Elt F) → (⟨S50000x64, .f32⟩ : BufTy).Contents (Elt F) → (⟨S50000x64, .f32⟩ : BufTy).Contents (Elt F)) ]

/-- Operations 14 to 28, from any contents that hold the earlier stages: the later stages. -/
theorem eval2 (W : Valuation τ sig (Elt F)) (x0 : (⟨S50000x64, .f32⟩ : BufTy).Contents (Elt F)) (x1 : (⟨S2x800000, .i32⟩ : BufTy).Contents (Elt F)) (x2 : (⟨S128x64, .f32⟩ : BufTy).Contents (Elt F)) (x3 : (⟨S128, .f32⟩ : BufTy).Contents (Elt F)) (x4 : (⟨S128x64, .f32⟩ : BufTy).Contents (Elt F)) (x5 : (⟨S64x128, .f32⟩ : BufTy).Contents (Elt F)) (x6 : (⟨S64, .f32⟩ : BufTy).Contents (Elt F)) (x7 : (⟨S64x128, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_v1 : W (Proc.devRef .tc main_v1) = (ReadP.val_main_v1 (F := F) x1))
    (h_main_v3 : W (Proc.devRef .tc main_v3) = (ReadP.val_main_v3 (F := F) x1))
    (h_main_v10 : W (Proc.devRef .tc main_v10) = (ReadP.val_main_v10 (F := F) x0 x1)) :
    after (c2 (F := F)) W (Proc.devRef .tc main_arg0) = x0
      ∧ after (c2 (F := F)) W (Proc.devRef .tc main_arg1) = x1
      ∧ after (c2 (F := F)) W (Proc.devRef .tc main_arg2) = x2
      ∧ after (c2 (F := F)) W (Proc.devRef .tc main_arg3) = x3
      ∧ after (c2 (F := F)) W (Proc.devRef .tc main_arg4) = x4
      ∧ after (c2 (F := F)) W (Proc.devRef .tc main_arg5) = x5
      ∧ after (c2 (F := F)) W (Proc.devRef .tc main_arg6) = x6
      ∧ after (c2 (F := F)) W (Proc.devRef .tc main_arg7) = x7
      ∧ after (c2 (F := F)) W (Proc.devRef .tc main_v1) = (ReadP.val_main_v1 (F := F) x1)
      ∧ after (c2 (F := F)) W (Proc.devRef .tc main_v3) = (ReadP.val_main_v3 (F := F) x1)
      ∧ after (c2 (F := F)) W (Proc.devRef .tc main_v21) = (ReadP.val_main_v21 (F := F) x0 x1) := by
  refine ⟨?_, ?_, ?_, ?_, ?_, ?_, ?_, ?_, ?_, ?_, ?_⟩
  · after_results_simp; exact h_main_arg0
  · after_results_simp; exact h_main_arg1
  · after_results_simp; exact h_main_arg2
  · after_results_simp; exact h_main_arg3
  · after_results_simp; exact h_main_arg4
  · after_results_simp; exact h_main_arg5
  · after_results_simp; exact h_main_arg6
  · after_results_simp; exact h_main_arg7
  · after_results_simp; exact h_main_v1
  · after_results_simp; exact h_main_v3
  · after_results_simp
    (rw [h_main_v3, h_main_v10]) <;> rfl

/-- Operations 29 to 37 of the 84. -/
abbrev c3 : List (HloOp τ sig (Elt F)) :=
  [ unary main_arg2 main_v22 ((transpose S64x128 [1, 0] · transposes_S128x64_S64x128_1_0) : (⟨S128x64, .f32⟩ : BufTy).Contents (Elt F) → (⟨S64x128, .f32⟩ : BufTy).Contents (Elt F)),
    binary main_v21 main_v22 main_v23 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    unary main_arg3 main_v24 (broadcastInDim S1x128 ![1] bcast_S128_S1x128_1 : (⟨S128, .f32⟩ : BufTy).Contents (Elt F) → (⟨S1x128, .f32⟩ : BufTy).Contents (Elt F)),
    unary main_v24 main_v25 (broadcastInDim S50000x128 ![0, 1] bcast_S1x128_S50000x128_0_1 : (⟨S1x128, .f32⟩ : BufTy).Contents (Elt F) → (⟨S50000x128, .f32⟩ : BufTy).Contents (Elt F)),
    binary main_v23 main_v25 main_v26 (addf : (⟨S50000x128, .f32⟩ : BufTy).Contents (Elt F) → (⟨S50000x128, .f32⟩ : BufTy).Contents (Elt F) → (⟨S50000x128, .f32⟩ : BufTy).Contents (Elt F)),
    unary main_arg4 main_v27 ((transpose S64x128 [1, 0] · transposes_S128x64_S64x128_1_0) : (⟨S128x64, .f32⟩ : BufTy).Contents (Elt F) → (⟨S64x128, .f32⟩ : BufTy).Contents (Elt F)),
    binary main_arg0 main_v27 main_v28 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    binary main_v26 main_v28 main_v29 (addf : (⟨S50000x128, .f32⟩ : BufTy).Contents (Elt F) → (⟨S50000x128, .f32⟩ : BufTy).Contents (Elt F) → (⟨S50000x128, .f32⟩ : BufTy).Contents (Elt F)),
    unary main_v29 main_v30 (Host.tanh : (⟨S50000x128, .f32⟩ : BufTy).Contents (Elt F) → (⟨S50000x128, .f32⟩ : BufTy).Contents (Elt F)) ]

/-- Operations 29 to 37, from any contents that hold the earlier stages: the later stages. -/
theorem eval3 (W : Valuation τ sig (Elt F)) (x0 : (⟨S50000x64, .f32⟩ : BufTy).Contents (Elt F)) (x1 : (⟨S2x800000, .i32⟩ : BufTy).Contents (Elt F)) (x2 : (⟨S128x64, .f32⟩ : BufTy).Contents (Elt F)) (x3 : (⟨S128, .f32⟩ : BufTy).Contents (Elt F)) (x4 : (⟨S128x64, .f32⟩ : BufTy).Contents (Elt F)) (x5 : (⟨S64x128, .f32⟩ : BufTy).Contents (Elt F)) (x6 : (⟨S64, .f32⟩ : BufTy).Contents (Elt F)) (x7 : (⟨S64x128, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_v1 : W (Proc.devRef .tc main_v1) = (ReadP.val_main_v1 (F := F) x1))
    (h_main_v3 : W (Proc.devRef .tc main_v3) = (ReadP.val_main_v3 (F := F) x1))
    (h_main_v21 : W (Proc.devRef .tc main_v21) = (ReadP.val_main_v21 (F := F) x0 x1)) :
    after (c3 (F := F)) W (Proc.devRef .tc main_arg0) = x0
      ∧ after (c3 (F := F)) W (Proc.devRef .tc main_arg1) = x1
      ∧ after (c3 (F := F)) W (Proc.devRef .tc main_arg2) = x2
      ∧ after (c3 (F := F)) W (Proc.devRef .tc main_arg3) = x3
      ∧ after (c3 (F := F)) W (Proc.devRef .tc main_arg4) = x4
      ∧ after (c3 (F := F)) W (Proc.devRef .tc main_arg5) = x5
      ∧ after (c3 (F := F)) W (Proc.devRef .tc main_arg6) = x6
      ∧ after (c3 (F := F)) W (Proc.devRef .tc main_arg7) = x7
      ∧ after (c3 (F := F)) W (Proc.devRef .tc main_v1) = (ReadP.val_main_v1 (F := F) x1)
      ∧ after (c3 (F := F)) W (Proc.devRef .tc main_v3) = (ReadP.val_main_v3 (F := F) x1)
      ∧ after (c3 (F := F)) W (Proc.devRef .tc main_v30) = (ReadP.val_main_v30 (F := F) x0 x1 x2 x3 x4) := by
  refine ⟨?_, ?_, ?_, ?_, ?_, ?_, ?_, ?_, ?_, ?_, ?_⟩
  · after_results_simp; exact h_main_arg0
  · after_results_simp; exact h_main_arg1
  · after_results_simp; exact h_main_arg2
  · after_results_simp; exact h_main_arg3
  · after_results_simp; exact h_main_arg4
  · after_results_simp; exact h_main_arg5
  · after_results_simp; exact h_main_arg6
  · after_results_simp; exact h_main_arg7
  · after_results_simp; exact h_main_v1
  · after_results_simp; exact h_main_v3
  · after_results_simp
    (rw [h_main_v21, h_main_arg2, h_main_arg3, h_main_arg0, h_main_arg4]) <;> rfl

/-- Operations 38 to 50 of the 84. -/
abbrev c4 : List (HloOp τ sig (Elt F)) :=
  [ nullary main_c_4 (constantI S_ 32 0#32),
    unary main_c_4 main_v31 (broadcastInDim S800000 ![] bcast_S_S800000 : (⟨S_, .i32⟩ : BufTy).Contents (Elt F) → (⟨S800000, .i32⟩ : BufTy).Contents (Elt F)),
    binary main_v1 main_v31 main_v32 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v33 (broadcastInDim S800000 ![] bcast_S_S800000 : (⟨S_, .i32⟩ : BufTy).Contents (Elt F) → (⟨S800000, .i32⟩ : BufTy).Contents (Elt F)),
    binary main_v1 main_v33 main_v34 (addi : (⟨S800000, .i32⟩ : BufTy).Contents (Elt F) → (⟨S800000, .i32⟩ : BufTy).Contents (Elt F) → (⟨S800000, .i32⟩ : BufTy).Contents (Elt F)),
    ternary main_v32 main_v34 main_v1 main_v35 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v35 main_v36 (broadcastInDim S800000x1 ![0] bcast_S800000_S800000x1_0 : (⟨S800000, .i32⟩ : BufTy).Contents (Elt F) → (⟨S800000x1, .i32⟩ : BufTy).Contents (Elt F)),
    binary main_v30 main_v36 main_v37 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_6 (constant S_ .f32 0x00000000#32),
    unary main_cst_6 main_v38 (broadcastInDim S50000x128 ![] bcast_S_S50000x128 : (⟨S_, .f32⟩ : BufTy).Contents (Elt F) → (⟨S50000x128, .f32⟩ : BufTy).Contents (Elt F)),
    unary main_v3 main_v39 (broadcastInDim S800000x1 ![0] bcast_S800000_S800000x1_0 : (⟨S800000, .i32⟩ : BufTy).Contents (Elt F) → (⟨S800000x1, .i32⟩ : BufTy).Contents (Elt F)),
    ternary main_v38 main_v39 main_v37 main_v40 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]

/-- Operations 38 to 50, from any contents that hold the earlier stages: the later stages. -/
theorem eval4 (W : Valuation τ sig (Elt F)) (x0 : (⟨S50000x64, .f32⟩ : BufTy).Contents (Elt F)) (x1 : (⟨S2x800000, .i32⟩ : BufTy).Contents (Elt F)) (x2 : (⟨S128x64, .f32⟩ : BufTy).Contents (Elt F)) (x3 : (⟨S128, .f32⟩ : BufTy).Contents (Elt F)) (x4 : (⟨S128x64, .f32⟩ : BufTy).Contents (Elt F)) (x5 : (⟨S64x128, .f32⟩ : BufTy).Contents (Elt F)) (x6 : (⟨S64, .f32⟩ : BufTy).Contents (Elt F)) (x7 : (⟨S64x128, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_v1 : W (Proc.devRef .tc main_v1) = (ReadP.val_main_v1 (F := F) x1))
    (h_main_v3 : W (Proc.devRef .tc main_v3) = (ReadP.val_main_v3 (F := F) x1))
    (h_main_v30 : W (Proc.devRef .tc main_v30) = (ReadP.val_main_v30 (F := F) x0 x1 x2 x3 x4)) :
    after (c4 (F := F)) W (Proc.devRef .tc main_arg0) = x0
      ∧ after (c4 (F := F)) W (Proc.devRef .tc main_arg1) = x1
      ∧ after (c4 (F := F)) W (Proc.devRef .tc main_arg2) = x2
      ∧ after (c4 (F := F)) W (Proc.devRef .tc main_arg3) = x3
      ∧ after (c4 (F := F)) W (Proc.devRef .tc main_arg4) = x4
      ∧ after (c4 (F := F)) W (Proc.devRef .tc main_arg5) = x5
      ∧ after (c4 (F := F)) W (Proc.devRef .tc main_arg6) = x6
      ∧ after (c4 (F := F)) W (Proc.devRef .tc main_arg7) = x7
      ∧ after (c4 (F := F)) W (Proc.devRef .tc main_v3) = (ReadP.val_main_v3 (F := F) x1)
      ∧ after (c4 (F := F)) W (Proc.devRef .tc main_v30) = (ReadP.val_main_v30 (F := F) x0 x1 x2 x3 x4)
      ∧ after (c4 (F := F)) W (Proc.devRef .tc main_v40) = (ReadP.val_main_v40 (F := F) x0 x1 x2 x3 x4) := by
  refine ⟨?_, ?_, ?_, ?_, ?_, ?_, ?_, ?_, ?_, ?_, ?_⟩
  · after_results_simp; exact h_main_arg0
  · after_results_simp; exact h_main_arg1
  · after_results_simp; exact h_main_arg2
  · after_results_simp; exact h_main_arg3
  · after_results_simp; exact h_main_arg4
  · after_results_simp; exact h_main_arg5
  · after_results_simp; exact h_main_arg6
  · after_results_simp; exact h_main_arg7
  · after_results_simp; exact h_main_v3
  · after_results_simp; exact h_main_v30
  · after_results_simp
    (rw [h_main_v3, h_main_v30, h_main_v1]) <;> rfl

/-- Operations 51 to 61 of the 84. -/
abbrev c5 : List (HloOp τ sig (Elt F)) :=
  [ nullary main_cst_7 (constant S_ .f32 0x3F800000#32),
    unary main_cst_7 main_v41 (broadcastInDim S800000x1 ![] bcast_S_S800000x1 : (⟨S_, .f32⟩ : BufTy).Contents (Elt F) → (⟨S800000x1, .f32⟩ : BufTy).Contents (Elt F)),
    nullary main_cst_8 (constant S_ .f32 0x00000000#32),
    unary main_cst_8 main_v42 (broadcastInDim S50000x1 ![] bcast_S_S50000x1 : (⟨S_, .f32⟩ : BufTy).Contents (Elt F) → (⟨S50000x1, .f32⟩ : BufTy).Contents (Elt F)),
    unary main_v3 main_v43 (broadcastInDim S800000x1 ![0] bcast_S800000_S800000x1_0 : (⟨S800000, .i32⟩ : BufTy).Contents (Elt F) → (⟨S800000x1, .i32⟩ : BufTy).Contents (Elt F)),
    ternary main_v42 main_v43 main_v41 main_v44 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    nullary main_cst_9 (constant S_ .f32 0x3F800000#32),
    unary main_cst_9 main_v45 (broadcastInDim S50000x1 ![] bcast_S_S50000x1 : (⟨S_, .f32⟩ : BufTy).Contents (Elt F) → (⟨S50000x1, .f32⟩ : BufTy).Contents (Elt F)),
    binary main_v44 main_v45 main_v46 (maximumf : (⟨S50000x1, .f32⟩ : BufTy).Contents (Elt F) → (⟨S50000x1, .f32⟩ : BufTy).Contents (Elt F) → (⟨S50000x1, .f32⟩ : BufTy).Contents (Elt F)),
    unary main_v46 main_v47 (broadcastInDim S50000x128 ![0, 1] bcast_S50000x1_S50000x128_0_1 : (⟨S50000x1, .f32⟩ : BufTy).Contents (Elt F) → (⟨S50000x128, .f32⟩ : BufTy).Contents (Elt F)),
    binary main_v40 main_v47 main_v48 (Host.divf : (⟨S50000x128, .f32⟩ : BufTy).Contents (Elt F) → (⟨S50000x128, .f32⟩ : BufTy).Contents (Elt F) → (⟨S50000x128, .f32⟩ : BufTy).Contents (Elt F)) ]

/-- Operations 51 to 61, from any contents that hold the earlier stages: the later stages. -/
theorem eval5 (W : Valuation τ sig (Elt F)) (x0 : (⟨S50000x64, .f32⟩ : BufTy).Contents (Elt F)) (x1 : (⟨S2x800000, .i32⟩ : BufTy).Contents (Elt F)) (x2 : (⟨S128x64, .f32⟩ : BufTy).Contents (Elt F)) (x3 : (⟨S128, .f32⟩ : BufTy).Contents (Elt F)) (x4 : (⟨S128x64, .f32⟩ : BufTy).Contents (Elt F)) (x5 : (⟨S64x128, .f32⟩ : BufTy).Contents (Elt F)) (x6 : (⟨S64, .f32⟩ : BufTy).Contents (Elt F)) (x7 : (⟨S64x128, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_v3 : W (Proc.devRef .tc main_v3) = (ReadP.val_main_v3 (F := F) x1))
    (h_main_v30 : W (Proc.devRef .tc main_v30) = (ReadP.val_main_v30 (F := F) x0 x1 x2 x3 x4))
    (h_main_v40 : W (Proc.devRef .tc main_v40) = (ReadP.val_main_v40 (F := F) x0 x1 x2 x3 x4)) :
    after (c5 (F := F)) W (Proc.devRef .tc main_arg0) = x0
      ∧ after (c5 (F := F)) W (Proc.devRef .tc main_arg1) = x1
      ∧ after (c5 (F := F)) W (Proc.devRef .tc main_arg2) = x2
      ∧ after (c5 (F := F)) W (Proc.devRef .tc main_arg3) = x3
      ∧ after (c5 (F := F)) W (Proc.devRef .tc main_arg4) = x4
      ∧ after (c5 (F := F)) W (Proc.devRef .tc main_arg5) = x5
      ∧ after (c5 (F := F)) W (Proc.devRef .tc main_arg6) = x6
      ∧ after (c5 (F := F)) W (Proc.devRef .tc main_arg7) = x7
      ∧ after (c5 (F := F)) W (Proc.devRef .tc main_v30) = (ReadP.val_main_v30 (F := F) x0 x1 x2 x3 x4)
      ∧ after (c5 (F := F)) W (Proc.devRef .tc main_v48) = (ReadP.val_main_v48 (F := F) x0 x1 x2 x3 x4) := by
  refine ⟨?_, ?_, ?_, ?_, ?_, ?_, ?_, ?_, ?_, ?_⟩
  · after_results_simp; exact h_main_arg0
  · after_results_simp; exact h_main_arg1
  · after_results_simp; exact h_main_arg2
  · after_results_simp; exact h_main_arg3
  · after_results_simp; exact h_main_arg4
  · after_results_simp; exact h_main_arg5
  · after_results_simp; exact h_main_arg6
  · after_results_simp; exact h_main_arg7
  · after_results_simp; exact h_main_v30
  · after_results_simp
    (rw [h_main_v40, h_main_v3]) <;> rfl

/-- Operations 62 to 69 of the 84. -/
abbrev c6 : List (HloOp τ sig (Elt F)) :=
  [ unary main_arg5 main_v49 ((transpose S128x64 [1, 0] · transposes_S64x128_S128x64_1_0) : (⟨S64x128, .f32⟩ : BufTy).Contents (Elt F) → (⟨S128x64, .f32⟩ : BufTy).Contents (Elt F)),
    binary main_v48 main_v49 main_v50 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg6 main_v51 (broadcastInDim S1x64 ![1] bcast_S64_S1x64_1 : (⟨S64, .f32⟩ : BufTy).Contents (Elt F) → (⟨S1x64, .f32⟩ : BufTy).Contents (Elt F)),
    unary main_v51 main_v52 (broadcastInDim S50000x64 ![0, 1] bcast_S1x64_S50000x64_0_1 : (⟨S1x64, .f32⟩ : BufTy).Contents (Elt F) → (⟨S50000x64, .f32⟩ : BufTy).Contents (Elt F)),
    binary main_v50 main_v52 main_v53 (addf : (⟨S50000x64, .f32⟩ : BufTy).Contents (Elt F) → (⟨S50000x64, .f32⟩ : BufTy).Contents (Elt F) → (⟨S50000x64, .f32⟩ : BufTy).Contents (Elt F)),
    unary main_arg7 main_v54 ((transpose S128x64 [1, 0] · transposes_S64x128_S128x64_1_0) : (⟨S64x128, .f32⟩ : BufTy).Contents (Elt F) → (⟨S128x64, .f32⟩ : BufTy).Contents (Elt F)),
    binary main_v30 main_v54 main_v55 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    binary main_v53 main_v55 main_v56 (addf : (⟨S50000x64, .f32⟩ : BufTy).Contents (Elt F) → (⟨S50000x64, .f32⟩ : BufTy).Contents (Elt F) → (⟨S50000x64, .f32⟩ : BufTy).Contents (Elt F)) ]

/-- Operations 62 to 69, from any contents that hold the earlier stages: the later stages. -/
theorem eval6 (W : Valuation τ sig (Elt F)) (x0 : (⟨S50000x64, .f32⟩ : BufTy).Contents (Elt F)) (x1 : (⟨S2x800000, .i32⟩ : BufTy).Contents (Elt F)) (x2 : (⟨S128x64, .f32⟩ : BufTy).Contents (Elt F)) (x3 : (⟨S128, .f32⟩ : BufTy).Contents (Elt F)) (x4 : (⟨S128x64, .f32⟩ : BufTy).Contents (Elt F)) (x5 : (⟨S64x128, .f32⟩ : BufTy).Contents (Elt F)) (x6 : (⟨S64, .f32⟩ : BufTy).Contents (Elt F)) (x7 : (⟨S64x128, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_v30 : W (Proc.devRef .tc main_v30) = (ReadP.val_main_v30 (F := F) x0 x1 x2 x3 x4))
    (h_main_v48 : W (Proc.devRef .tc main_v48) = (ReadP.val_main_v48 (F := F) x0 x1 x2 x3 x4)) :
    after (c6 (F := F)) W (Proc.devRef .tc main_arg0) = x0
      ∧ after (c6 (F := F)) W (Proc.devRef .tc main_arg1) = x1
      ∧ after (c6 (F := F)) W (Proc.devRef .tc main_arg2) = x2
      ∧ after (c6 (F := F)) W (Proc.devRef .tc main_arg3) = x3
      ∧ after (c6 (F := F)) W (Proc.devRef .tc main_arg4) = x4
      ∧ after (c6 (F := F)) W (Proc.devRef .tc main_arg5) = x5
      ∧ after (c6 (F := F)) W (Proc.devRef .tc main_arg6) = x6
      ∧ after (c6 (F := F)) W (Proc.devRef .tc main_arg7) = x7
      ∧ after (c6 (F := F)) W (Proc.devRef .tc main_v56) = (ReadP.val_main_v56 (F := F) x0 x1 x2 x3 x4 x5 x6 x7) := by
  refine ⟨?_, ?_, ?_, ?_, ?_, ?_, ?_, ?_, ?_⟩
  · after_results_simp; exact h_main_arg0
  · after_results_simp; exact h_main_arg1
  · after_results_simp; exact h_main_arg2
  · after_results_simp; exact h_main_arg3
  · after_results_simp; exact h_main_arg4
  · after_results_simp; exact h_main_arg5
  · after_results_simp; exact h_main_arg6
  · after_results_simp; exact h_main_arg7
  · after_results_simp
    (rw [h_main_v48, h_main_arg5, h_main_arg6, h_main_v30, h_main_arg7]) <;> rfl

/-- Operations 70 to 77 of the 84. -/
abbrev c7 : List (HloOp τ sig (Elt F)) :=
  [ TRef.nullary (TRef.of (T := ⟨S_, .f32⟩) main_call0_cst) (constant S_ .f32 0xFF800000#32),
    TRef.binary (TRef.of (T := ⟨S50000x64, .f32⟩) main_v56) (TRef.of (T := ⟨S_, .f32⟩) main_call0_cst) (TRef.of (T := ⟨S50000, .f32⟩) main_call0_v0) (fun x v => Host.reduce FloatOps.maximumf x v reducesTo_S50000x64_S50000_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S50000, .f32⟩) main_call0_v1) (broadcastInDim S50000 ![] bcast_S_S50000),
    TRef.binary (TRef.of (T := ⟨S50000, .f32⟩) main_call0_v1) (TRef.of (T := ⟨S50000, .f32⟩) main_call0_v0) (TRef.of (T := ⟨S50000, .f32⟩) main_call0_v2) maximumf,
    TRef.unary (TRef.of (T := ⟨S50000, .f32⟩) main_call0_v2) (TRef.of (T := ⟨S50000x1, .f32⟩) main_call0_v3) (broadcastInDim S50000x1 ![0] bcast_S50000_S50000x1_0),
    TRef.unary (TRef.of (T := ⟨S50000x1, .f32⟩) main_call0_v3) (TRef.of (T := ⟨S50000x64, .f32⟩) main_call0_v4) (broadcastInDim S50000x64 ![0, 1] bcast_S50000x1_S50000x64_0_1),
    TRef.binary (TRef.of (T := ⟨S50000x64, .f32⟩) main_v56) (TRef.of (T := ⟨S50000x64, .f32⟩) main_call0_v4) (TRef.of (T := ⟨S50000x64, .f32⟩) main_call0_v5) subf ]

/-- Operations 70 to 77, from any contents that hold the earlier stages: the later stages. -/
theorem eval7 (W : Valuation τ sig (Elt F)) (x0 : (⟨S50000x64, .f32⟩ : BufTy).Contents (Elt F)) (x1 : (⟨S2x800000, .i32⟩ : BufTy).Contents (Elt F)) (x2 : (⟨S128x64, .f32⟩ : BufTy).Contents (Elt F)) (x3 : (⟨S128, .f32⟩ : BufTy).Contents (Elt F)) (x4 : (⟨S128x64, .f32⟩ : BufTy).Contents (Elt F)) (x5 : (⟨S64x128, .f32⟩ : BufTy).Contents (Elt F)) (x6 : (⟨S64, .f32⟩ : BufTy).Contents (Elt F)) (x7 : (⟨S64x128, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_v56 : W (Proc.devRef .tc main_v56) = (ReadP.val_main_v56 (F := F) x0 x1 x2 x3 x4 x5 x6 x7)) :
    after (c7 (F := F)) W (Proc.devRef .tc main_arg0) = x0
      ∧ after (c7 (F := F)) W (Proc.devRef .tc main_arg1) = x1
      ∧ after (c7 (F := F)) W (Proc.devRef .tc main_arg2) = x2
      ∧ after (c7 (F := F)) W (Proc.devRef .tc main_arg3) = x3
      ∧ after (c7 (F := F)) W (Proc.devRef .tc main_arg4) = x4
      ∧ after (c7 (F := F)) W (Proc.devRef .tc main_arg5) = x5
      ∧ after (c7 (F := F)) W (Proc.devRef .tc main_arg6) = x6
      ∧ after (c7 (F := F)) W (Proc.devRef .tc main_arg7) = x7
      ∧ after (c7 (F := F)) W (Proc.devRef .tc main_call0_v5) = (ReadP.val_main_call0_v5 (F := F) x0 x1 x2 x3 x4 x5 x6 x7) := by
  refine ⟨?_, ?_, ?_, ?_, ?_, ?_, ?_, ?_, ?_⟩
  · after_results_simp; exact h_main_arg0
  · after_results_simp; exact h_main_arg1
  · after_results_simp; exact h_main_arg2
  · after_results_simp; exact h_main_arg3
  · after_results_simp; exact h_main_arg4
  · after_results_simp; exact h_main_arg5
  · after_results_simp; exact h_main_arg6
  · after_results_simp; exact h_main_arg7
  · have t_main_v56 := ofBuf_eq_of (F := F) (TRef.of (T := ⟨S50000x64, .f32⟩) main_v56) _ _ (heq_of_eq h_main_v56)
    after_results_simp
    simp only [ofBuf_toBuf]
    rw [t_main_v56]
    exact toBuf_eq_of _ _ _ (heq_of_eq rfl)

/-- Operations 78 to 84 of the 84. -/
abbrev c8 : List (HloOp τ sig (Elt F)) :=
  [ TRef.unary (TRef.of (T := ⟨S50000x64, .f32⟩) main_call0_v5) (TRef.of (T := ⟨S50000x64, .f32⟩) main_call0_v6) Host.exp,
    TRef.nullary (TRef.of (T := ⟨S_, .f32⟩) main_call0_cst_1) (constant S_ .f32 0x00000000#32),
    TRef.binary (TRef.of (T := ⟨S50000x64, .f32⟩) main_call0_v6) (TRef.of (T := ⟨S_, .f32⟩) main_call0_cst_1) (TRef.of (T := ⟨S50000, .f32⟩) main_call0_v7) (fun x v => Host.reduceAdd x v reducesTo_S50000x64_S50000_d1 h_S_),
    TRef.unary (TRef.of (T := ⟨S50000, .f32⟩) main_call0_v7) (TRef.of (T := ⟨S50000x1, .f32⟩) main_call0_v8) (broadcastInDim S50000x1 ![0] bcast_S50000_S50000x1_0),
    TRef.unary (TRef.of (T := ⟨S50000x1, .f32⟩) main_call0_v8) (TRef.of (T := ⟨S50000x1, .f32⟩) main_call0_v9) Host.log,
    TRef.unary (TRef.of (T := ⟨S50000x1, .f32⟩) main_call0_v9) (TRef.of (T := ⟨S50000x64, .f32⟩) main_call0_v10) (broadcastInDim S50000x64 ![0, 1] bcast_S50000x1_S50000x64_0_1),
    TRef.binary (TRef.of (T := ⟨S50000x64, .f32⟩) main_call0_v5) (TRef.of (T := ⟨S50000x64, .f32⟩) main_call0_v10) (TRef.of (T := ⟨S50000x64, .f32⟩) main_v57) subf ]

/-- Operations 78 to 84, from any contents that hold the earlier stages: the later stages. -/
theorem eval8 (W : Valuation τ sig (Elt F)) (x0 : (⟨S50000x64, .f32⟩ : BufTy).Contents (Elt F)) (x1 : (⟨S2x800000, .i32⟩ : BufTy).Contents (Elt F)) (x2 : (⟨S128x64, .f32⟩ : BufTy).Contents (Elt F)) (x3 : (⟨S128, .f32⟩ : BufTy).Contents (Elt F)) (x4 : (⟨S128x64, .f32⟩ : BufTy).Contents (Elt F)) (x5 : (⟨S64x128, .f32⟩ : BufTy).Contents (Elt F)) (x6 : (⟨S64, .f32⟩ : BufTy).Contents (Elt F)) (x7 : (⟨S64x128, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_call0_v5 : W (Proc.devRef .tc main_call0_v5) = (ReadP.val_main_call0_v5 (F := F) x0 x1 x2 x3 x4 x5 x6 x7)) :
    after (c8 (F := F)) W (Proc.devRef .tc main_arg0) = x0
      ∧ after (c8 (F := F)) W (Proc.devRef .tc main_arg1) = x1
      ∧ after (c8 (F := F)) W (Proc.devRef .tc main_arg2) = x2
      ∧ after (c8 (F := F)) W (Proc.devRef .tc main_arg3) = x3
      ∧ after (c8 (F := F)) W (Proc.devRef .tc main_arg4) = x4
      ∧ after (c8 (F := F)) W (Proc.devRef .tc main_arg5) = x5
      ∧ after (c8 (F := F)) W (Proc.devRef .tc main_arg6) = x6
      ∧ after (c8 (F := F)) W (Proc.devRef .tc main_arg7) = x7
      ∧ after (c8 (F := F)) W (Proc.devRef .tc main_v57) = (ReadP.val_main_v57 (F := F) x0 x1 x2 x3 x4 x5 x6 x7) := by
  refine ⟨?_, ?_, ?_, ?_, ?_, ?_, ?_, ?_, ?_⟩
  · after_results_simp; exact h_main_arg0
  · after_results_simp; exact h_main_arg1
  · after_results_simp; exact h_main_arg2
  · after_results_simp; exact h_main_arg3
  · after_results_simp; exact h_main_arg4
  · after_results_simp; exact h_main_arg5
  · after_results_simp; exact h_main_arg6
  · after_results_simp; exact h_main_arg7
  · have t_main_call0_v5 := ofBuf_eq_of (F := F) (TRef.of (T := ⟨S50000x64, .f32⟩) main_call0_v5) _ _ (heq_of_eq h_main_call0_v5)
    after_results_simp
    simp only [ofBuf_toBuf]
    rw [t_main_call0_v5]
    exact toBuf_eq_of _ _ _ (heq_of_eq rfl)

/-- A fold over two lists in a row is the fold over the second from the fold over the first. -/
private theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

set_option maxRecDepth 8192 in
set_option maxHeartbeats 4000000 in
/-- The 84 operations are the 8 stretches in a row. -/
theorem ops_eq : (Cert.ReferenceIdeal.ValueP.ops (F := F)) = c1 ++ (c2 ++ (c3 ++ (c4 ++ (c5 ++ (c6 ++ (c7 ++ (c8))))))) := rfl

/-- The whole fold from the launch memory: the result buffer holds the last stage's value of the arguments, and each
    argument buffer what it held. Each stretch is run from the contents the stretches before it leave, of which only the
    stages it reads are used. -/
theorem fold_eq (m : (ℓ : Loc nD τ sig) → Buf (Elt F) ℓ) (c : Dev nD) :
    after (Cert.ReferenceIdeal.ValueP.ops (F := F)) (launchContents m c) (Proc.devRef .tc main_v57)
        = Cert.ReferenceIdeal.ReadP.val_main_v57 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ after (Cert.ReferenceIdeal.ValueP.ops (F := F)) (launchContents m c) (Proc.devRef .tc main_arg0) = m ((c.tc : Thread nD τ).loc main_arg0)
      ∧ after (Cert.ReferenceIdeal.ValueP.ops (F := F)) (launchContents m c) (Proc.devRef .tc main_arg1) = m ((c.tc : Thread nD τ).loc main_arg1)
      ∧ after (Cert.ReferenceIdeal.ValueP.ops (F := F)) (launchContents m c) (Proc.devRef .tc main_arg2) = m ((c.tc : Thread nD τ).loc main_arg2)
      ∧ after (Cert.ReferenceIdeal.ValueP.ops (F := F)) (launchContents m c) (Proc.devRef .tc main_arg3) = m ((c.tc : Thread nD τ).loc main_arg3)
      ∧ after (Cert.ReferenceIdeal.ValueP.ops (F := F)) (launchContents m c) (Proc.devRef .tc main_arg4) = m ((c.tc : Thread nD τ).loc main_arg4)
      ∧ after (Cert.ReferenceIdeal.ValueP.ops (F := F)) (launchContents m c) (Proc.devRef .tc main_arg5) = m ((c.tc : Thread nD τ).loc main_arg5)
      ∧ after (Cert.ReferenceIdeal.ValueP.ops (F := F)) (launchContents m c) (Proc.devRef .tc main_arg6) = m ((c.tc : Thread nD τ).loc main_arg6)
      ∧ after (Cert.ReferenceIdeal.ValueP.ops (F := F)) (launchContents m c) (Proc.devRef .tc main_arg7) = m ((c.tc : Thread nD τ).loc main_arg7) := by
  obtain ⟨e1_main_arg0, e1_main_arg1, e1_main_arg2, e1_main_arg3, e1_main_arg4, e1_main_arg5, e1_main_arg6, e1_main_arg7, e1_main_v1, e1_main_v3, e1_main_v10⟩ :=
    eval1 (launchContents m c)
      (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      rfl rfl rfl rfl rfl rfl rfl rfl
  obtain ⟨e2_main_arg0, e2_main_arg1, e2_main_arg2, e2_main_arg3, e2_main_arg4, e2_main_arg5, e2_main_arg6, e2_main_arg7, e2_main_v1, e2_main_v3, e2_main_v21⟩ :=
    eval2 (after c1 (launchContents m c)) _ _ _ _ _ _ _ _ e1_main_arg0 e1_main_arg1 e1_main_arg2 e1_main_arg3 e1_main_arg4 e1_main_arg5 e1_main_arg6 e1_main_arg7 e1_main_v1 e1_main_v3 e1_main_v10
  obtain ⟨e3_main_arg0, e3_main_arg1, e3_main_arg2, e3_main_arg3, e3_main_arg4, e3_main_arg5, e3_main_arg6, e3_main_arg7, e3_main_v1, e3_main_v3, e3_main_v30⟩ :=
    eval3 (after c2 (after c1 (launchContents m c))) _ _ _ _ _ _ _ _ e2_main_arg0 e2_main_arg1 e2_main_arg2 e2_main_arg3 e2_main_arg4 e2_main_arg5 e2_main_arg6 e2_main_arg7 e2_main_v1 e2_main_v3 e2_main_v21
  obtain ⟨e4_main_arg0, e4_main_arg1, e4_main_arg2, e4_main_arg3, e4_main_arg4, e4_main_arg5, e4_main_arg6, e4_main_arg7, e4_main_v3, e4_main_v30, e4_main_v40⟩ :=
    eval4 (after c3 (after c2 (after c1 (launchContents m c)))) _ _ _ _ _ _ _ _ e3_main_arg0 e3_main_arg1 e3_main_arg2 e3_main_arg3 e3_main_arg4 e3_main_arg5 e3_main_arg6 e3_main_arg7 e3_main_v1 e3_main_v3 e3_main_v30
  obtain ⟨e5_main_arg0, e5_main_arg1, e5_main_arg2, e5_main_arg3, e5_main_arg4, e5_main_arg5, e5_main_arg6, e5_main_arg7, e5_main_v30, e5_main_v48⟩ :=
    eval5 (after c4 (after c3 (after c2 (after c1 (launchContents m c))))) _ _ _ _ _ _ _ _ e4_main_arg0 e4_main_arg1 e4_main_arg2 e4_main_arg3 e4_main_arg4 e4_main_arg5 e4_main_arg6 e4_main_arg7 e4_main_v3 e4_main_v30 e4_main_v40
  obtain ⟨e6_main_arg0, e6_main_arg1, e6_main_arg2, e6_main_arg3, e6_main_arg4, e6_main_arg5, e6_main_arg6, e6_main_arg7, e6_main_v56⟩ :=
    eval6 (after c5 (after c4 (after c3 (after c2 (after c1 (launchContents m c)))))) _ _ _ _ _ _ _ _ e5_main_arg0 e5_main_arg1 e5_main_arg2 e5_main_arg3 e5_main_arg4 e5_main_arg5 e5_main_arg6 e5_main_arg7 e5_main_v30 e5_main_v48
  obtain ⟨e7_main_arg0, e7_main_arg1, e7_main_arg2, e7_main_arg3, e7_main_arg4, e7_main_arg5, e7_main_arg6, e7_main_arg7, e7_main_call0_v5⟩ :=
    eval7 (after c6 (after c5 (after c4 (after c3 (after c2 (after c1 (launchContents m c))))))) _ _ _ _ _ _ _ _ e6_main_arg0 e6_main_arg1 e6_main_arg2 e6_main_arg3 e6_main_arg4 e6_main_arg5 e6_main_arg6 e6_main_arg7 e6_main_v56
  obtain ⟨e8_main_arg0, e8_main_arg1, e8_main_arg2, e8_main_arg3, e8_main_arg4, e8_main_arg5, e8_main_arg6, e8_main_arg7, e8_main_v57⟩ :=
    eval8 (after c7 (after c6 (after c5 (after c4 (after c3 (after c2 (after c1 (launchContents m c)))))))) _ _ _ _ _ _ _ _ e7_main_arg0 e7_main_arg1 e7_main_arg2 e7_main_arg3 e7_main_arg4 e7_main_arg5 e7_main_arg6 e7_main_arg7 e7_main_call0_v5
  rw [ops_eq, after_app, after_app, after_app, after_app, after_app, after_app, after_app]
  exact ⟨e8_main_v57, e8_main_arg0, e8_main_arg1, e8_main_arg2, e8_main_arg3, e8_main_arg4, e8_main_arg5, e8_main_arg6, e8_main_arg7⟩

/-- The result buffer after the operations holds the last stage's value of the launch arguments. -/
theorem result_eq (m : (ℓ : Loc nD τ sig) → Buf (Elt F) ℓ) (c : Dev nD) :
    StableHlo.after (Cert.ReferenceIdeal.ValueP.ops (F := F)) (launchContents m c) (Proc.devRef .tc main_v57)
      = Cert.ReferenceIdeal.ReadP.val_main_v57 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (fold_eq m c).1

/-- Every weakly fair execution of the reference terminates with the result at the last stage's value of the
    arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v57) = Cert.ReferenceIdeal.ReadP.val_main_v57 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
      ⟨(h c main_v57).trans (fold_eq m c).1,
        (h c main_arg0).trans (fold_eq m c).2.1,
        (h c main_arg1).trans (fold_eq m c).2.2.1,
        (h c main_arg2).trans (fold_eq m c).2.2.2.1,
        (h c main_arg3).trans (fold_eq m c).2.2.2.2.1,
        (h c main_arg4).trans (fold_eq m c).2.2.2.2.2.1,
        (h c main_arg5).trans (fold_eq m c).2.2.2.2.2.2.1,
        (h c main_arg6).trans (fold_eq m c).2.2.2.2.2.2.2.1,
        (h c main_arg7).trans (fold_eq m c).2.2.2.2.2.2.2.2⟩)
    (run_seq Cert.ReferenceIdeal.ValueP.scopedRefs_eq Cert.ReferenceIdeal.ValueP.scopedSems_eq defs main
      (fun _ => Cert.ReferenceIdeal.ValueP.ops) Cert.ReferenceIdeal.ValueP.main_eq (fun _ => Cert.ReferenceIdeal.ValueP.ops_sub) m ρ)

end Cert.ReferenceIdeal.Eval

end
-- ==== Proof.KStage.lean ====
/-
  The host-side stages of the two-layer message-passing program, each as ONE function of the arrays it reads,
  at any float family. From the edge list (a [2, E] integer array): the source row numbers and the target row
  numbers; a node's degree (the number of edges into it, at least 1) as an [N, 1] column; a row gather of the
  source rows that fills with a fixed pattern where the (wrapped) row number is outside [0, N − 1]; and the mean
  aggregation: the gathered rows summed into their targets' rows, divided by the degree.
-/
import proofs.«426505_j87866440941609_1_alg».proof.KernelIdeal

noncomputable section

namespace Cert.KernelIdeal.Stage

open Idealize.ShloMosaic Cert.KernelIdeal Cert.KernelIdeal.Facts₀ Cert.KernelIdeal.Facts

variable [Cert.KernelIdeal.Facts] {F : FTy → Type} [FloatOps F]

/-- Row 0 of the edge list: the source row numbers. -/
def src (ei : IVec S2x800000 32) : IVec S800000 32 :=
  shapeCast S800000 (extractStridedSlice S1x800000 ![0, 0] ei slices_S2x800000_S1x800000_0_0) shapeCasts_S1x800000_S800000

/-- Row 1 of the edge list: the target row numbers. -/
def dst (ei : IVec S2x800000 32) : IVec S800000 32 :=
  shapeCast S800000 (extractStridedSlice S1x800000 ![1, 0] ei slices_S2x800000_S1x800000_1_0) shapeCasts_S1x800000_S800000

/-- The degree column: ones summed into their targets from zero, at least one, as [N, 1]. -/
def deg (d : IVec S800000 32) : FVec F S50000x1 .f32 :=
  broadcastInDim S50000x1 ![0] bcast_S50000_S50000x1_0
    (maximumf
      (Host.scatterAdd scatter_S50000_S800000x1_S800000_n_0_0_1
        (broadcastInDim S50000 ![] bcast_S_S50000 (constant S_ .f32 0x00000000#32))
        (broadcastInDim S800000x1 ![0] bcast_S800000_S800000x1_0 d)
        (broadcastInDim S800000 ![] bcast_S_S800000 (constant S_ .f32 0x3F800000#32)))
      (broadcastInDim S50000 ![] bcast_S_S50000 (constant S_ .f32 0x3F800000#32)))

/-- The row numbers as the gather takes them: a negative one moved up by N, then held as an [E, 1] column. -/
def wrapCol (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- Per edge: is the wrapped row number inside [0, N − 1]? -/
def inRange (idx : IVec S800000x1 32) : IVec S800000 1 :=
  Host.reduce IntOp.andi
    (andi (cmpi .sge idx (broadcastInDim S800000x1 ![] bcast_S_S800000x1 (constantI S_ 32 0#32)))
      (cmpi .sle idx (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The row gather with fill, 64 columns. -/
def take64 (x : FVec F S50000x64 .f32) (s : IVec S800000 32) : FVec F S800000x64 .f32 :=
  select (broadcastInDim S800000x64 ![0] bcast_S800000_S800000x64_0 (inRange (wrapCol s)))
    (Host.gather gather_S50000x64_S800000x1_S800000x64_1_0_n_n_0_1_164 x (wrapCol s))
    (broadcastInDim S800000x64 ![] bcast_S_S800000x64 (constant S_ .f32 0x7FC00000#32))

/-- The row gather with fill, 128 columns. -/
def take128 (x : FVec F S50000x128 .f32) (s : IVec S800000 32) : FVec F S800000x128 .f32 :=
  select (broadcastInDim S800000x128 ![0] bcast_S800000_S800000x128_0 (inRange (wrapCol s)))
    (Host.gather gather_S50000x128_S800000x1_S800000x128_1_0_n_n_0_1_1128 x (wrapCol s))
    (broadcastInDim S800000x128 ![] bcast_S_S800000x128 (constant S_ .f32 0x7FC00000#32))

/-- The mean aggregation, 64 columns: gathered rows summed into their targets from zero, over the degree. -/
def agg64 (d : IVec S800000 32) (t : FVec F S800000x64 .f32) (g : FVec F S50000x1 .f32) : FVec F S50000x64 .f32 :=
  Host.divf
    (Host.scatterAdd scatter_S50000x64_S800000x1_S800000x64_1_0_0_1
      (broadcastInDim S50000x64 ![] bcast_S_S50000x64 (constant S_ .f32 0x00000000#32))
      (broadcastInDim S800000x1 ![0] bcast_S800000_S800000x1_0 d) t)
    (broadcastInDim S50000x64 ![0, 1] bcast_S50000x1_S50000x64_0_1 g)

/-- The mean aggregation, 128 columns. -/
def agg128 (d : IVec S800000 32) (t : FVec F S800000x128 .f32) (g : FVec F S50000x1 .f32) : FVec F S50000x128 .f32 :=
  Host.divf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 d) t)
    (broadcastInDim S50000x128 ![0, 1] bcast_S50000x1_S50000x128_0_1 g)

end Cert.KernelIdeal.Stage

end
-- ==== Proof.KHost.lean ====
/-
  The kernel program's host operations, stretch by stretch. Each stretch is evaluated over an ARBITRARY incoming
  buffer valuation: the first leaves the source and target row numbers and the degree column, the second the
  gathered rows of the input, the third their mean aggregation; after the first launch the same three steps are
  done on the hidden layer.
-/
import proofs.«426505_j87866440941609_1_alg».proof.Proof.Gen.KernelIdeal.Frame
import proofs.«426505_j87866440941609_1_alg».proof.Proof.KStage
import Idealize.ShloMosaic.Lib.StableHlo.Run

noncomputable section

namespace Cert.KernelIdeal.Host

open Cert.KernelIdeal Cert.KernelIdeal.Gen Cert.KernelIdeal.Stage
open Idealize.ShloMosaic Idealize.ShloMosaic.TcCoe Idealize.ShloMosaic.StableHlo Idealize.SL.Sem

variable {F : FTy → Type} [FloatOps F]

/-! ## The first stretch: row numbers and degree -/

theorem s0_src (V : Valuation τ sig (Elt F)) :
    StableHlo.after (hostOps0 (F := F)) V (Proc.devRef .tc main_v1) = src (V (Proc.devRef .tc main_arg1)) := by
  after_results
  rfl

theorem s0_dst (V : Valuation τ sig (Elt F)) :
    StableHlo.after (hostOps0 (F := F)) V (Proc.devRef .tc main_v3) = dst (V (Proc.devRef .tc main_arg1)) := by
  after_results
  rfl

theorem s0_deg (V : Valuation τ sig (Elt F)) :
    StableHlo.after (hostOps0 (F := F)) V (Proc.devRef .tc main_v10) = deg (F := F) (dst (V (Proc.devRef .tc main_arg1))) := by
  after_results
  rfl

/-! ## The gathers -/

set_option maxHeartbeats 8000000 in
theorem s1_take (V : Valuation τ sig (Elt F)) :
    StableHlo.after (hostOps0_1 (F := F)) V (Proc.devRef .tc main_v11)
      = take64 (V (Proc.devRef .tc main_arg0)) (V (Proc.devRef .tc main_v1)) := by
  after_results_simp
  simp only [TRef.ofBuf, TRef.toBuf, cast_eq]
  rfl

set_option maxHeartbeats 8000000 in
theorem s3_take (V : Valuation τ sig (Elt F)) :
    StableHlo.after (hostOps1 (F := F)) V (Proc.devRef .tc main_v18)
      = take128 (V (Proc.devRef .tc main_v17)) (V (Proc.devRef .tc main_v1)) := by
  after_results_simp
  simp only [TRef.ofBuf, TRef.toBuf, cast_eq]
  rfl

/-! ## The aggregations -/

theorem s2_agg (V : Valuation τ sig (Elt F)) :
    StableHlo.after (hostOps0_2 (F := F)) V (Proc.devRef .tc main_v16)
      = agg64 (V (Proc.devRef .tc main_v3)) (V (Proc.devRef .tc main_v11)) (V (Proc.devRef .tc main_v10)) := by
  after_results
  rfl

theorem s4_agg (V : Valuation τ sig (Elt F)) :
    StableHlo.after (hostOps1_1 (F := F)) V (Proc.devRef .tc main_v23)
      = agg128 (V (Proc.devRef .tc main_v3)) (V (Proc.devRef .tc main_v18)) (V (Proc.devRef .tc main_v10)) := by
  after_results
  rfl

end Cert.KernelIdeal.Host

end
-- ==== Proof.KChain.lean ====
/-
  The kernel program's buffer contents at the boundaries between its host stretches and its two launches, as
  functions of the launch arguments: at the first launch's entry its row-blocked operand is the mean aggregation
  of the gathered input rows and its other operands are arguments; at the second launch's entry its row-blocked
  operands are the mean aggregation of the gathered hidden rows and the hidden layer itself (what the first launch
  left), its other operands arguments. The row numbers and the degree column, computed once, are read by both
  aggregations: no operation in between writes them.
-/
import proofs.«426505_j87866440941609_1_alg».proof.Proof.KHost

noncomputable section

namespace Cert.KernelIdeal.Chain

open Cert.KernelIdeal Cert.KernelIdeal.Gen Cert.KernelIdeal.Stage Cert.KernelIdeal.Host
open Idealize.ShloMosaic Idealize.ShloMosaic.TcCoe Idealize.ShloMosaic.StableHlo Idealize.SL.Sem

variable {F : FTy → Type} [FloatOps F]
variable (m : (ℓ : Loc nD τ sig) → Buf (Elt F) ℓ) (ρ : Dev nD → PrngReg) (c : Dev nD)

/-- No operation of a stretch writes the buffer asked about (decided operation by operation). -/
macro "writes_none " ops:ident : tactic =>
  `(tactic| (simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]; (repeat' apply And.intro); all_goals exact StableHlo.devRef_ne_of_ne (by decide)))

/-- A stretch that writes no such buffer leaves it as it was. -/
macro "keeps " ops:ident : tactic =>
  `(tactic| exact StableHlo.after_of_forall_not_mem _ _ (List.forall_iff_forall_mem.mp (by writes_none $ops:ident)))

/-! ## After the first stretch -/

theorem W1_src : W1 m ρ c (Proc.devRef .tc main_v1) = src (m ((c : Thread nD τ).loc main_arg1)) := s0_src _
theorem W1_dst : W1 m ρ c (Proc.devRef .tc main_v3) = dst (m ((c : Thread nD τ).loc main_arg1)) := s0_dst _
theorem W1_deg : W1 m ρ c (Proc.devRef .tc main_v10) = deg (F := F) (dst (m ((c : Thread nD τ).loc main_arg1))) := s0_deg _
theorem W1_arg0 : W1 m ρ c (Proc.devRef .tc main_arg0) = (m ((c : Thread nD τ).loc main_arg0)) := by
  show StableHlo.after hostOps0 (W0 m ρ c) (Proc.devRef .tc main_arg0) = _
  keeps hostOps0

/-! ## After the first gather -/

theorem W2_take : W2 m ρ c (Proc.devRef .tc main_v11) = take64 (m ((c : Thread nD τ).loc main_arg0)) (src (m ((c : Thread nD τ).loc main_arg1))) := by
  show StableHlo.after hostOps0_1 (W1 m ρ c) (Proc.devRef .tc main_v11) = _
  rw [s1_take, W1_arg0, W1_src]
theorem W2_src : W2 m ρ c (Proc.devRef .tc main_v1) = src (m ((c : Thread nD τ).loc main_arg1)) := by
  refine Eq.trans ?_ (W1_src m ρ c)
  show StableHlo.after hostOps0_1 (W1 m ρ c) (Proc.devRef .tc main_v1) = _
  keeps hostOps0_1
theorem W2_dst : W2 m ρ c (Proc.devRef .tc main_v3) = dst (m ((c : Thread nD τ).loc main_arg1)) := by
  refine Eq.trans ?_ (W1_dst m ρ c)
  show StableHlo.after hostOps0_1 (W1 m ρ c) (Proc.devRef .tc main_v3) = _
  keeps hostOps0_1
theorem W2_deg : W2 m ρ c (Proc.devRef .tc main_v10) = deg (F := F) (dst (m ((c : Thread nD τ).loc main_arg1))) := by
  refine Eq.trans ?_ (W1_deg m ρ c)
  show StableHlo.after hostOps0_1 (W1 m ρ c) (Proc.devRef .tc main_v10) = _
  keeps hostOps0_1

/-! ## At the first launch's entry -/

/-- The first launch's row-blocked operand: the mean aggregation of the gathered input rows. -/
theorem V3_agg : V3 m ρ c main_v16 = agg64 (dst (m ((c : Thread nD τ).loc main_arg1))) (take64 (m ((c : Thread nD τ).loc main_arg0)) (src (m ((c : Thread nD τ).loc main_arg1)))) (deg (F := F) (dst (m ((c : Thread nD τ).loc main_arg1)))) := by
  show StableHlo.after hostOps0_2 (W2 m ρ c) (Proc.devRef .tc main_v16) = _
  rw [s2_agg, W2_dst, W2_take, W2_deg]

theorem W3_src : W3 m ρ c (Proc.devRef .tc main_v1) = src (m ((c : Thread nD τ).loc main_arg1)) := by
  refine Eq.trans ?_ (W2_src m ρ c)
  show StableHlo.after hostOps0_2 (W2 m ρ c) (Proc.devRef .tc main_v1) = _
  keeps hostOps0_2
theorem W3_dst : W3 m ρ c (Proc.devRef .tc main_v3) = dst (m ((c : Thread nD τ).loc main_arg1)) := by
  refine Eq.trans ?_ (W2_dst m ρ c)
  show StableHlo.after hostOps0_2 (W2 m ρ c) (Proc.devRef .tc main_v3) = _
  keeps hostOps0_2
theorem W3_deg : W3 m ρ c (Proc.devRef .tc main_v10) = deg (F := F) (dst (m ((c : Thread nD τ).loc main_arg1))) := by
  refine Eq.trans ?_ (W2_deg m ρ c)
  show StableHlo.after hostOps0_2 (W2 m ρ c) (Proc.devRef .tc main_v10) = _
  keeps hostOps0_2

/-- An argument no stretch before the first launch writes. -/
theorem W3_arg (b : Ref sig .tc)
    (h0 : (hostOps0 (F := F)).Forall fun op => Proc.devRef .tc b ∉ op.writes)
    (h1 : (hostOps0_1 (F := F)).Forall fun op => Proc.devRef .tc b ∉ op.writes)
    (h2 : (hostOps0_2 (F := F)).Forall fun op => Proc.devRef .tc b ∉ op.writes) :
    W3 m ρ c (Proc.devRef .tc b) = m ((c : Thread nD τ).loc b) :=
  (StableHlo.after_of_forall_not_mem _ _ (List.forall_iff_forall_mem.mp h2)).trans
    ((StableHlo.after_of_forall_not_mem _ _ (List.forall_iff_forall_mem.mp h1)).trans
      (StableHlo.after_of_forall_not_mem _ _ (List.forall_iff_forall_mem.mp h0)))

theorem V3_arg0 : V3 m ρ c main_arg0 = (m ((c : Thread nD τ).loc main_arg0)) :=
  W3_arg m ρ c main_arg0 (by writes_none hostOps0) (by writes_none hostOps0_1) (by writes_none hostOps0_2)
theorem V3_arg2 : V3 m ρ c main_arg2 = (m ((c : Thread nD τ).loc main_arg2)) :=
  W3_arg m ρ c main_arg2 (by writes_none hostOps0) (by writes_none hostOps0_1) (by writes_none hostOps0_2)
theorem V3_arg3 : V3 m ρ c main_arg3 = (m ((c : Thread nD τ).loc main_arg3)) :=
  W3_arg m ρ c main_arg3 (by writes_none hostOps0) (by writes_none hostOps0_1) (by writes_none hostOps0_2)
theorem V3_arg4 : V3 m ρ c main_arg4 = (m ((c : Thread nD τ).loc main_arg4)) :=
  W3_arg m ρ c main_arg4 (by writes_none hostOps0) (by writes_none hostOps0_1) (by writes_none hostOps0_2)

/-! ## After the first launch -/

/-- The hidden layer: what the first launch leaves in its output array. -/
theorem W4_hidden : W4 m ρ c (Proc.devRef .tc main_v17) = (dat0 (V3 m ρ) c).arrAt 5 cfg0.N := W4_arr m ρ c 5

theorem W4_src : W4 m ρ c (Proc.devRef .tc main_v1) = src (m ((c : Thread nD τ).loc main_arg1)) :=
  (W4_of_ne m ρ c main_v1 (by decide)).trans (W3_src m ρ c)
theorem W4_dst : W4 m ρ c (Proc.devRef .tc main_v3) = dst (m ((c : Thread nD τ).loc main_arg1)) :=
  (W4_of_ne m ρ c main_v3 (by decide)).trans (W3_dst m ρ c)
theorem W4_deg : W4 m ρ c (Proc.devRef .tc main_v10) = deg (F := F) (dst (m ((c : Thread nD τ).loc main_arg1))) :=
  (W4_of_ne m ρ c main_v10 (by decide)).trans (W3_deg m ρ c)

/-! ## After the second gather -/

theorem W5_take : W5 m ρ c (Proc.devRef .tc main_v18)
    = take128 (W4 m ρ c (Proc.devRef .tc main_v17)) (src (m ((c : Thread nD τ).loc main_arg1))) := by
  show StableHlo.after hostOps1 (W4 m ρ c) (Proc.devRef .tc main_v18) = _
  rw [s3_take, W4_src]
theorem W5_dst : W5 m ρ c (Proc.devRef .tc main_v3) = dst (m ((c : Thread nD τ).loc main_arg1)) := by
  refine Eq.trans ?_ (W4_dst m ρ c)
  show StableHlo.after hostOps1 (W4 m ρ c) (Proc.devRef .tc main_v3) = _
  keeps hostOps1
theorem W5_deg : W5 m ρ c (Proc.devRef .tc main_v10) = deg (F := F) (dst (m ((c : Thread nD τ).loc main_arg1))) := by
  refine Eq.trans ?_ (W4_deg m ρ c)
  show StableHlo.after hostOps1 (W4 m ρ c) (Proc.devRef .tc main_v10) = _
  keeps hostOps1
theorem W5_hidden : W5 m ρ c (Proc.devRef .tc main_v17) = W4 m ρ c (Proc.devRef .tc main_v17) := by
  show StableHlo.after hostOps1 (W4 m ρ c) (Proc.devRef .tc main_v17) = _
  keeps hostOps1

/-! ## At the second launch's entry -/

/-- The second launch's first row-blocked operand: the mean aggregation of the gathered hidden rows. -/
theorem V6_agg : V6 m ρ c main_v23
    = agg128 (dst (m ((c : Thread nD τ).loc main_arg1))) (take128 (W4 m ρ c (Proc.devRef .tc main_v17)) (src (m ((c : Thread nD τ).loc main_arg1)))) (deg (F := F) (dst (m ((c : Thread nD τ).loc main_arg1)))) := by
  show StableHlo.after hostOps1_1 (W5 m ρ c) (Proc.devRef .tc main_v23) = _
  rw [s4_agg, W5_dst, W5_take, W5_deg]

/-- The second launch's second row-blocked operand: the hidden layer. -/
theorem V6_hidden : V6 m ρ c main_v17 = W4 m ρ c (Proc.devRef .tc main_v17) := by
  refine Eq.trans ?_ (W5_hidden m ρ c)
  show StableHlo.after hostOps1_1 (W5 m ρ c) (Proc.devRef .tc main_v17) = _
  keeps hostOps1_1

/-- An argument that no stretch writes and that is not an array of the first launch. -/
theorem W6_arg (b : Ref sig .tc) (hne : ∀ w, Pipeline.arrRef spec0 w ≠ b)
    (h0 : (hostOps0 (F := F)).Forall fun op => Proc.devRef .tc b ∉ op.writes)
    (h1 : (hostOps0_1 (F := F)).Forall fun op => Proc.devRef .tc b ∉ op.writes)
    (h2 : (hostOps0_2 (F := F)).Forall fun op => Proc.devRef .tc b ∉ op.writes)
    (h3 : (hostOps1 (F := F)).Forall fun op => Proc.devRef .tc b ∉ op.writes)
    (h4 : (hostOps1_1 (F := F)).Forall fun op => Proc.devRef .tc b ∉ op.writes) :
    W6 m ρ c (Proc.devRef .tc b) = m ((c : Thread nD τ).loc b) :=
  (StableHlo.after_of_forall_not_mem _ _ (List.forall_iff_forall_mem.mp h4)).trans
    ((StableHlo.after_of_forall_not_mem _ _ (List.forall_iff_forall_mem.mp h3)).trans
      ((W4_of_ne m ρ c b hne).trans (W3_arg m ρ c b h0 h1 h2)))

theorem V6_arg5 : V6 m ρ c main_arg5 = (m ((c : Thread nD τ).loc main_arg5)) :=
  W6_arg m ρ c main_arg5 (by decide) (by writes_none hostOps0) (by writes_none hostOps0_1) (by writes_none hostOps0_2)
    (by writes_none hostOps1) (by writes_none hostOps1_1)
theorem V6_arg6 : V6 m ρ c main_arg6 = (m ((c : Thread nD τ).loc main_arg6)) :=
  W6_arg m ρ c main_arg6 (by decide) (by writes_none hostOps0) (by writes_none hostOps0_1) (by writes_none hostOps0_2)
    (by writes_none hostOps1) (by writes_none hostOps1_1)
theorem V6_arg7 : V6 m ρ c main_arg7 = (m ((c : Thread nD τ).loc main_arg7)) :=
  W6_arg m ρ c main_arg7 (by decide) (by writes_none hostOps0) (by writes_none hostOps0_1) (by writes_none hostOps0_2)
    (by writes_none hostOps1) (by writes_none hostOps1_1)

/-! ## After the second launch -/

/-- The result: what the second launch leaves in its output array. -/
theorem W7_result : W7 m ρ c (Proc.devRef .tc main_v24) = (dat1 (V6 m ρ) c).arrAt 5 cfg1.N := W7_arr m ρ c 5

end Cert.KernelIdeal.Chain

end
-- ==== Proof.Spec.lean ====
/-
  The two programs compute, per node n, a dense combine of the node's aggregated neighbour row and its own row,
  and (second layer) a row-wise log-softmax of it. This file names one ENTRY of each, in the two orders of
  operations the two programs use, over plain finite index types and extended reals:

  * a combine entry is  Σ_k a_k·wl_k  +  Σ_k x_k·wr_k  +  b, with the bias added last (one program) or
    between the two sums (the other);
  * a log-softmax entry of a row z is  z_j − (M + log Σ_j' exp(z_j' − M))  (one program) or
    (z_j − M) − log Σ_j' exp(z_j' − M)  (the other), M the row's maximum.
-/
import Idealize.ShloMosaic.PureOps.Ideal

noncomputable section

open scoped BigOperators

namespace Cert.Sage

open Idealize.ShloMosaic

/-- A combine entry, the bias added after both sums. -/
def combK {D : ℕ} (a x wl wr : Fin D → EReal) (b : EReal) : EReal :=
  ((∑ k, a k * wl k) + (∑ k, x k * wr k)) + b

/-- A combine entry, the bias added between the two sums. -/
def combR {D : ℕ} (a x wl wr : Fin D → EReal) (b : EReal) : EReal :=
  ((∑ k, a k * wl k) + b) + (∑ k, x k * wr k)

/-- A row's maximum, as the fold of `max` from −∞. -/
def rowMax {C : ℕ} (z : Fin C → EReal) : EReal := Finset.univ.fold max ⊥ z

/-- A log-softmax entry: the entry minus (the maximum plus the log of the shifted exponentials' sum). -/
def lsmK {C : ℕ} (z : Fin C → EReal) (j : Fin C) : EReal :=
  z j - (rowMax z + Ideal.log (∑ j', Ideal.exp (z j' - rowMax z)))

/-- A log-softmax entry: the shifted entry minus the log of the shifted exponentials' sum. -/
def lsmR {C : ℕ} (z : Fin C → EReal) (j : Fin C) : EReal :=
  (z j - rowMax z) - Ideal.log (∑ j', Ideal.exp (z j' - rowMax z))

end Cert.Sage

end
-- ==== Proof.KRegion0.lean ====
/-
  What the FIRST kernel launch leaves in its output array, entry by entry, at the ideal values, as a function of
  the arrays the launch finds: node n lies in block n / 5000 at row n % 5000, and the entry (n, j) is tanh of a
  combine entry of rows n of the launch's two row-blocked operands, row j of each weight matrix, and the bias at j.
  In three steps. (1) The payload of the launch's one store at row p, column j of a block: each matrix product
  into the zero accumulator is the sum over the 64 contracted coordinates of the left operand's (p, k) entry times
  the transposed weight's (k, j) entry, that is the weight's (j, k) entry; the bias row is broadcast over the rows;
  the narrowing to bf16 is the identity on extended reals. (2) At any grid point t the block written back is block
  t of ONE whole-array function: the two row-blocked operands' blocks are rows 5000 t … 5000 t + 4999 of their
  arrays, the weights' and the bias's blocks are their whole arrays. (3) Row r of the output lies in the block of
  point r / 5000, so the blocks cover the array, which therefore ends holding that function.
-/
import proofs.«426505_j87866440941609_1_alg».proof.Proof.Gen.KernelIdeal.Frame
import proofs.«426505_j87866440941609_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Region

open Cert.KernelIdeal Cert.KernelIdeal.Gen Idealize.ShloMosaic Idealize.ShloMosaic.TcCoe Idealize.ShloMosaic.ValueIdx Idealize.SL.Sem Cert.Sage

namespace Launch0

/-! ## The kernel's matrix product at an index -/

theorem lhs_mm_0 (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem lhs_mm_1 (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q
theorem rhs_mm_0 (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q
theorem rhs_mm_1 (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- A product of a [5000,64] operand with the transpose of a [128,64] one into the zero accumulator, at (p, j):
    the sum over k of the left operand's (p, k) entry times the right operand's (j, k) entry. -/
theorem mm_apply (u : FVec Ideal S5000x64 .bf16) (w : FVec Ideal S128x64 .bf16) (p : Fin 5000) (j : Fin 128) :
    matmul dot_S5000x64_S64x128_S5000x128_1_0_0_1_n_n none u (transpose S64x128 [1, 0] w transposes_S128x64_p1_0_S64x128)
        (constant (F := Ideal) S5000x128 .f32 0x00000000#32) (ix2 p j)
      = ∑ k : Fin 64, u (ix2 p k) * w (ix2 j k) := by
  show FloatOps.matmul dot_S5000x64_S64x128_S5000x128_1_0_0_1_n_n none u _ _ (ix2 p j) = _
  rw [Ideal.matmul_constant_zero_apply, ← Equiv.sum_comp (contrEquiv1 dot_S5000x64_S64x128_S5000x128_1_0_0_1_n_n 64 rfl rfl).symm]
  refine Finset.sum_congr rfl fun k _ => ?_
  have hk := contrEquiv1_symm_val dot_S5000x64_S64x128_S5000x128_1_0_0_1_n_n 64 rfl rfl k
  have el : dot_S5000x64_S64x128_S5000x128_1_0_0_1_n_n.lhsIdx (ix2 p j) ((contrEquiv1 dot_S5000x64_S64x128_S5000x128_1_0_0_1_n_n 64 rfl rfl).symm k) = ix2 p k := funext fun a => Fin.ext (by
    match a with
    | ⟨0, _⟩ => exact lhs_mm_0 _ _
    | ⟨1, _⟩ => exact (lhs_mm_1 _ _).trans hk)
  have er : dot_S5000x64_S64x128_S5000x128_1_0_0_1_n_n.rhsIdx (ix2 p j) ((contrEquiv1 dot_S5000x64_S64x128_S5000x128_1_0_0_1_n_n 64 rfl rfl).symm k) = ix2 k j := funext fun a => Fin.ext (by
    match a with
    | ⟨0, _⟩ => exact (rhs_mm_0 _ _).trans hk
    | ⟨1, _⟩ => exact rhs_mm_1 _ _)
  rw [el, er]
  exact congrArg (u (ix2 p k) * ·) (transpose_apply [1, 0] w transposes_S128x64_p1_0_S64x128 (ix2 k j) (ix2 j k) (fun b => match b with
    | ⟨0, _⟩ => rfl
    | ⟨1, _⟩ => rfl))

/-- The bias row broadcast over the rows, at (p, j): the bias at j. -/
theorem bias_apply (b : FVec Ideal S128 .f32) (p : Fin 5000) (j : Fin 128) :
    broadcastTo S5000x128 (shapeCast S1x128 b shapeCasts_S128_S1x128) broadcasts_S1x128_S5000x128 (ix2 p j) = b (ix1 j) := by
  refine (broadcastTo_apply _ broadcasts_S1x128_S5000x128 (ix2 p j) (ix2 (⟨0, Nat.one_pos⟩ : Fin 1) j) (fun a => match a with
    | ⟨0, _⟩ => by show 0 = if (1 : Nat) = 1 then 0 else _; rw [if_pos rfl]
    | ⟨1, _⟩ => by show j.val = if (128 : Nat) = 1 then 0 else j.val; rw [if_neg (by decide)])).trans ?_
  refine (shapeCast_apply b shapeCasts_S128_S1x128 (ix2 (⟨0, Nat.one_pos⟩ : Fin 1) j) (ix1 j) ?_)
  rw [Shape.rowMajor_val_one, Shape.rowMajor_val_two]
  show j.val = 0 * 128 + j.val
  omega

/-- The payload of the launch's one store at (p, j). -/
theorem k0_pay1_apply (a x : Vec Ideal S5000x64 .f32) (wl wr : Vec Ideal S128x64 .f32) (b : Vec Ideal S128 .f32)
    (p : Fin 5000) (j : Fin 128) :
    k0_pay1 (F := Ideal) a x wl wr b (ix2 p j)
      = Ideal.tanh (((∑ k : Fin 64, a (ix2 p k) * wl (ix2 j k)) + (∑ k : Fin 64, x (ix2 p k) * wr (ix2 j k))) + b (ix1 j)) := by
  unfold k0_pay1
  dsimp only
  rw [shapeCast_self]
  show Ideal.tanh ((_ + _) + _) = _
  refine congrArg Ideal.tanh ?_
  refine congrArg₂ (· + ·) (congrArg₂ (· + ·) ?_ ?_) ?_
  · exact mm_apply _ _ p j
  · exact mm_apply _ _ p j
  · exact bias_apply b p j

/-! ## From blocks to the array -/

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- The whole output array as one function of the five arrays the launch reads. -/
abbrev G0 (A X : Vec Ideal S50000x64 .f32) (WL WR : Vec Ideal S128x64 .f32) (B : Vec Ideal S128 .f32) : Vec Ideal S50000x128 .f32 :=
  fun i => Ideal.tanh (((∑ k : Fin 64, A (ix2 (i 0) k) * WL (ix2 (i 1) k)) + (∑ k : Fin 64, X (ix2 (i 0) k) * WR (ix2 (i 1) k))) + B (ix1 (i 1)))

/-- The index maps, decided over the grid: the two row-blocked operands and the output sit at block row t, the
    weights and the bias at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Window 0's block at point t is rows 5000 t … 5000 t + 4999 of its array. -/
theorem iblk0_0_apply (c : Dev nD) (t : Fin cfg0.N) (z : S5000x64.Idx) (i : S50000x64.Idx)
    (h0 : (i 0).val = t.val * 5000 + (z 0).val) (h1 : (i 1).val = (z 1).val) :
    (iblk0 V c 0 t : Vec Ideal S5000x64 .f32) z = (V c main_v16 : S50000x64.Idx → EReal) i := by
  obtain ⟨e0, e1, -⟩ := idx_facts t
  unfold iblk0
  rw [View.read_apply]
  show V c main_v16 _ = V c main_v16 _
  congr 1
  funext a
  apply Fin.ext
  match a with
  | ⟨0, _⟩ => show win0_0.index t 0 * 5000 + 1 * (z 0).val = (i 0).val; rw [e0, h0]; omega
  | ⟨1, _⟩ => show win0_0.index t 1 * 64 + 1 * (z 1).val = (i 1).val; rw [e1, h1]; omega

/-- Window 1's block at point t is rows 5000 t … 5000 t + 4999 of its array. -/
theorem iblk0_1_apply (c : Dev nD) (t : Fin cfg0.N) (z : S5000x64.Idx) (i : S50000x64.Idx)
    (h0 : (i 0).val = t.val * 5000 + (z 0).val) (h1 : (i 1).val = (z 1).val) :
    (iblk0 V c 1 t : Vec Ideal S5000x64 .f32) z = (V c main_arg0 : S50000x64.Idx → EReal) i := by
  obtain ⟨-, -, e0, e1, -⟩ := idx_facts t
  unfold iblk0
  rw [View.read_apply]
  show V c main_arg0 _ = V c main_arg0 _
  congr 1
  funext a
  apply Fin.ext
  match a with
  | ⟨0, _⟩ => show win0_1.index t 0 * 5000 + 1 * (z 0).val = (i 0).val; rw [e0, h0]; omega
  | ⟨1, _⟩ => show win0_1.index t 1 * 64 + 1 * (z 1).val = (i 1).val; rw [e1, h1]; omega

/-- Window 2's block at every point is its whole array. -/
theorem iblk0_2_apply (c : Dev nD) (t : Fin cfg0.N) (z : S128x64.Idx) :
    (iblk0 V c 2 t : Vec Ideal S128x64 .f32) z = (V c main_arg2 : S128x64.Idx → EReal) z := by
  obtain ⟨-, -, -, -, e0, e1, -⟩ := idx_facts t
  unfold iblk0
  rw [View.read_apply]
  show V c main_arg2 _ = V c main_arg2 _
  congr 1
  funext a
  apply Fin.ext
  match a with
  | ⟨0, _⟩ => show win0_2.index t 0 * 128 + 1 * (z 0).val = (z 0).val; rw [e0]; omega
  | ⟨1, _⟩ => show win0_2.index t 1 * 64 + 1 * (z 1).val = (z 1).val; rw [e1]; omega

/-- Window 3's block at every point is its whole array. -/
theorem iblk0_3_apply (c : Dev nD) (t : Fin cfg0.N) (z : S128.Idx) :
    (iblk0 V c 3 t : Vec Ideal S128 .f32) z = (V c main_arg3 : S128.Idx → EReal) z := by
  obtain ⟨-, -, -, -, -, -, e0, -⟩ := idx_facts t
  unfold iblk0
  rw [View.read_apply]
  show V c main_arg3 _ = V c main_arg3 _
  congr 1
  funext a
  apply Fin.ext
  match a with
  | ⟨0, _⟩ => show win0_3.index t 0 * 128 + 1 * (z 0).val = (z 0).val; rw [e0]; omega

/-- Window 4's block at every point is its whole array. -/
theorem iblk0_4_apply (c : Dev nD) (t : Fin cfg0.N) (z : S128x64.Idx) :
    (iblk0 V c 4 t : Vec Ideal S128x64 .f32) z = (V c main_arg4 : S128x64.Idx → EReal) z := by
  obtain ⟨-, -, -, -, -, -, -, e0, e1, -⟩ := idx_facts t
  unfold iblk0
  rw [View.read_apply]
  show V c main_arg4 _ = V c main_arg4 _
  congr 1
  funext a
  apply Fin.ext
  match a with
  | ⟨0, _⟩ => show win0_4.index t 0 * 128 + 1 * (z 0).val = (z 0).val; rw [e0]; omega
  | ⟨1, _⟩ => show win0_4.index t 1 * 64 + 1 * (z 1).val = (z 1).val; rw [e1]; omega

/-- What point t leaves at row p, column q of the output block is the whole-array function at row 5000 t + p. -/
theorem point_eq (c : Dev nD) (t : Fin cfg0.N) (p : Fin 5000) (q : Fin 128) (n : Fin 50000) (hn : n.val = t.val * 5000 + p.val) :
    k0_pay1 (F := Ideal) (iblk0 V c 0 t) (iblk0 V c 1 t) (iblk0 V c 2 t) (iblk0 V c 4 t) (iblk0 V c 3 t) (ix2 p q)
      = G0 (V c main_v16) (V c main_arg0) (V c main_arg2) (V c main_arg4) (V c main_arg3) (ix2 n q) := by
  refine (k0_pay1_apply (iblk0 V c 0 t) (iblk0 V c 1 t) (iblk0 V c 2 t) (iblk0 V c 4 t) (iblk0 V c 3 t) p q).trans ?_
  show Ideal.tanh _ = Ideal.tanh _
  refine congrArg Ideal.tanh ?_
  refine congrArg₂ (· + ·) (congrArg₂ (· + ·) ?_ ?_) ?_
  · refine Finset.sum_congr rfl fun k _ => ?_
    exact congrArg₂ (· * ·) (iblk0_0_apply V c t (ix2 p k) (ix2 n k) hn rfl) (iblk0_2_apply V c t (ix2 q k))
  · refine Finset.sum_congr rfl fun k _ => ?_
    exact congrArg₂ (· * ·) (iblk0_1_apply V c t (ix2 p k) (ix2 n k) hn rfl) (iblk0_4_apply V c t (ix2 q k))
  · exact iblk0_3_apply V c t (ix1 q)

/-- WHAT POINT t WRITES BACK is block t of the whole-array function. -/
theorem flushed_eq (c : Dev nD) (t : Fin cfg0.N) :
    (dat0 (F := Ideal) V c).flushed 5 t = ((cfg0.win 5).blk t).view.read (Elt Ideal) (G0 (V c main_v16) (V c main_arg0) (V c main_arg2) (V c main_arg4) (V c main_arg3)) := by
  show (cfg0.win 5).cut (grid0.coords t) ((dat0 V c).after 5 t) = _
  rw [after0_5]
  unfold out0_5
  rw [View.canon_unit_zero zero2]
  simp only [View.ld_unit_zero (S := S5000x64) zero2, View.ld_unit_zero (S := S128x64) zero2, View.ld_unit_zero (S := S128) zero1]
  obtain ⟨-, -, -, -, -, -, -, -, -, e0, e1⟩ := idx_facts t
  funext y
  obtain ⟨p, q, rfl⟩ : ∃ (p : Fin 5000) (q : Fin 128), y = ix2 p q := ⟨y 0, y 1, eq_ix2 (n0 := 5000) (n1 := 128) y⟩
  have hp : p.val < 5000 := p.isLt
  have ht : t.val < 10 := lt_of_lt_of_eq t.isLt N_0
  rw [View.read_apply]
  show k0_pay1 (F := Ideal) (iblk0 V c 0 t) (iblk0 V c 1 t) (iblk0 V c 2 t) (iblk0 V c 4 t) (iblk0 V c 3 t) (ix2 p q) = _
  refine (point_eq V c t p q ⟨t.val * 5000 + p.val, by omega⟩ rfl).trans ?_
  refine congrArg (G0 (V c main_v16) (V c main_arg0) (V c main_arg2) (V c main_arg4) (V c main_arg3)) ?_
  funext a
  apply Fin.ext
  match a with
  | ⟨0, _⟩ => show t.val * 5000 + p.val = win0_5.index t 0 * 5000 + 1 * p.val; rw [e0]; omega
  | ⟨1, _⟩ => show q.val = win0_5.index t 1 * 128 + 1 * q.val; rw [e1]; omega

/-- An index of the array is in point t's block iff each coordinate is in the block's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v17).slice (win0_5.rect t)).set ↔ _
  rw [View.set_slice_whole, Rect.mem_set_unit]
  exact Iff.rfl

/-- Row r of the array is in the block of point r / 5000. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, by rw [show cfg0.N = 10 from N_0]; omega⟩, rfl⟩
  obtain ⟨-, -, -, -, -, -, -, -, -, e0, e1⟩ := idx_facts t
  refine ⟨t, flush0_5 t, ?_⟩
  rw [mem_blk]
  intro a
  match a with
  | ⟨0, _⟩ => show win0_5.index t 0 * 5000 ≤ (i 0).val ∧ (i 0).val < win0_5.index t 0 * 5000 + 5000; rw [e0, ht]; omega
  | ⟨1, _⟩ => show win0_5.index t 1 * 128 ≤ (i 1).val ∧ (i 1).val < win0_5.index t 1 * 128 + 128; rw [e1]; omega

/-- THE ARRAY after the launch: the whole-array function of the arrays the launch finds. -/
theorem final (c : Dev nD) :
    (dat0 (F := Ideal) V c).arrAt 5 cfg0.N = G0 (V c main_v16) (V c main_arg0) (V c main_arg2) (V c main_arg4) (V c main_arg3) :=
  (dat0 V c).arrAt_eq_of_cover 5 (G0 (V c main_v16) (V c main_arg0) (V c main_arg2) (V c main_arg4) (V c main_arg3))
    (fun t _ => flushed_eq V c t) cover

end Launch0

open Launch0

variable (V : (c : Dev nD) → (b : Ref sig .tc) → Buf (Elt Ideal) ((c : Thread nD τ).loc b))

/-- The first launch's output array at (n, j). -/
theorem region0_value (c : Dev nD) (n : Fin 50000) (j : Fin 128) :
    ((dat0 (F := Ideal) V c).arrAt 5 cfg0.N : S50000x128.Idx → EReal) (ix2 n j)
      = Ideal.tanh (combK (fun k : Fin 64 => (V c main_v16 : S50000x64.Idx → EReal) (ix2 n k))
          (fun k : Fin 64 => (V c main_arg0 : S50000x64.Idx → EReal) (ix2 n k))
          (fun k : Fin 64 => (V c main_arg2 : S128x64.Idx → EReal) (ix2 j k))
          (fun k : Fin 64 => (V c main_arg4 : S128x64.Idx → EReal) (ix2 j k))
          ((V c main_arg3 : S128.Idx → EReal) (ix1 j))) := by
  rw [final V c]
  rfl

end Cert.KernelIdeal.Region

end
-- ==== Proof.Consts.lean ====
/-
  The float constants the two programs and the precondition spell, as the extended reals their patterns denote at
  the ideal values: +0.0 is 0, 1.0 is 1, the two infinities are ⊤ and ⊥. Stated once, here; the other modules
  cite these and do not unfold the pattern reading themselves.
-/
import Idealize.ShloMosaic.PureOps.Ideal

noncomputable section

namespace Cert.Consts

open Idealize.ShloMosaic

/-- `+0.0` denotes `0`. -/
theorem ofBits_zero : Ideal.ofBits .f32 0x00000000#32 = 0 := by
  simp [Ideal.ofBits, Ideal.ieee]

/-- `1.0` denotes `1`. -/
theorem ofBits_one : Ideal.ofBits .f32 0x3F800000#32 = 1 := by
  simp [Ideal.ofBits, Ideal.ieee, -EReal.coe_mul]; norm_num

/-- `+inf` denotes `⊤`. -/
theorem ofBits_inf : Ideal.ofBits .f32 0x7F800000#32 = ⊤ := by
  simp [Ideal.ofBits, Ideal.ieee]

/-- `-inf` denotes `⊥`. -/
theorem ofBits_neg_inf : Ideal.ofBits .f32 0xFF800000#32 = ⊥ := by
  simp [Ideal.ofBits, Ideal.ieee]

end Cert.Consts

end
-- ==== Proof.KRegion1.lean ====
/-
  What the SECOND kernel launch leaves in its output array, entry by entry, at the ideal values, as a function of
  the arrays the launch finds: node n lies in block n / 5000 at row n % 5000, and the entry (n, j) is the
  log-softmax entry j of the row of combine entries of rows n of the launch's two row-blocked operands.

  The body's stored value at row p and lane j of a block: the two products read as sums over the shared axis of
  128 (the transposes and the narrowing format changes read through), the bias row broadcast over the rows, the
  row's maximum from −∞ and the row's sum of shifted exponentials from 0 as lane reductions kept as columns and
  broadcast back over the lanes. Each operand block read where the output block sits: the two row-blocked operands
  at row 5000 t + p at point t, the two weight arrays and the bias whole. The ten blocks of 5000 rows cover the
  50000 rows, so the array after the launch is one function of the operand arrays, index by index.
-/
import proofs.«426505_j87866440941609_1_alg».proof.Proof.Gen.KernelIdeal.Frame
import proofs.«426505_j87866440941609_1_alg».proof.Proof.Spec
import proofs.«426505_j87866440941609_1_alg».proof.Proof.Consts
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Region

open Cert.KernelIdeal Cert.KernelIdeal.Gen Idealize.ShloMosaic Idealize.ShloMosaic.TcCoe Idealize.ShloMosaic.ValueIdx Idealize.SL.Sem Cert.Sage
open scoped BigOperators

variable (V : (c : Dev nD) → (b : Ref sig .tc) → Buf (Elt Ideal) ((c : Thread nD τ).loc b))

namespace Launch1

/-! ## The payload at an index -/

theorem lhs_mm1_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_mm1_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_mm1_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_mm1_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The kernel's product of a row block with a transposed weight block, into the zero accumulator, at (p, j): the
    sum over the shared axis. -/
theorem mm1_apply {φ₁ φ₂ : FTy} (l : FVec Ideal S5000x128 φ₁) (r : FVec Ideal S128x64 φ₂) (p : Fin 5000) (j : Fin 64) :
    matmul dot_S5000x128_S128x64_S5000x64_1_0_0_1_n_n none l r (constant (F := Ideal) S5000x64 .f32 0x00000000#32) (ix2 p j)
      = ∑ k : Fin 128, l (ix2 p k) * r (ix2 k j) := by
  simp only [matmul]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p j) ((ValueIdx.contrEquiv1 dot_S5000x128_S128x64_S5000x64_1_0_0_1_n_n 128 rfl rfl).symm k) = ix2 p k := funext fun a => Fin.ext (by
    match a with
    | ⟨0, _⟩ => exact lhs_mm1_0 _ _
    | ⟨1, _⟩ => exact (lhs_mm1_1 _ _).trans hk)
  have er : dot_S5000x128_S128x64_S5000x64_1_0_0_1_n_n.rhsIdx (ix2 p j) ((ValueIdx.contrEquiv1 dot_S5000x128_S128x64_S5000x64_1_0_0_1_n_n 128 rfl rfl).symm k) = ix2 k j := funext fun a => Fin.ext (by
    match a with
    | ⟨0, _⟩ => exact (rhs_mm1_0 _ _).trans hk
    | ⟨1, _⟩ => exact rhs_mm1_1 _ _)
  rw [el, er]

/-- A vector cast to a column reads, at (i, u), the vector at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast over the lanes reads, at (p, c), the column at p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A weight block transposed reads, at (k, j), the block at (j, k). -/
theorem tr1_apply {α : Type} (w : S64x128.Idx → α) (k : Fin 128) (j : Fin 64) :
    transpose S128x64 [1, 0] w transposes_S64x128_p1_0_S128x64 (ix2 k j) = w (ix2 j k) :=
  transpose_ix2_apply w transposes_S64x128_p1_0_S128x64 k j

/-- The index a lane reduction reads: the row with the lane put back. -/
theorem lift1_eq (p : Fin 5000) (k : Fin 64) : reduces_S5000x64_S5000.lift (ix1 p) k = ix2 p k :=
  funext fun a => Fin.ext (by
    match a with
    | ⟨0, _⟩ => rfl
    | ⟨1, _⟩ => rfl)

/-- The lane maximum from −∞ at row p: the row's maximum. -/
theorem rowMax1_apply (z : FVec Ideal S5000x64 .f32) (p : Fin 5000) :
    multiReduction (F := Ideal) .maximumf [1] S5000 z 0xFF800000#32 reduces_S5000x64_S5000 (.inl rfl) rfl (ix1 p)
      = rowMax (fun j' : Fin 64 => z (ix2 p j')) := by
  refine (Ideal.multiReduction_maximumf_single z 0xFF800000#32 reduces_S5000x64_S5000 (.inl rfl) rfl (ix1 p)).trans ?_
  have hb : FloatOps.ofBits (F := Ideal) .f32 0xFF800000#32 = (⊥ : EReal) := Cert.Consts.ofBits_neg_inf
  rw [hb]
  unfold rowMax
  show (Finset.univ : Finset (Fin 64)).fold max ⊥ (fun k : Fin 64 => z (reduces_S5000x64_S5000.lift (ix1 p) k)) = _
  exact congrArg (fun f : Fin 64 → EReal => (Finset.univ : Finset (Fin 64)).fold max ⊥ f) (funext fun k => congrArg z (lift1_eq p k))

/-- The lane sum from 0 at row p: the row's sum. -/
theorem rowSum1_apply (z : FVec Ideal S5000x64 .f32) (p : Fin 5000) :
    multiReduction (F := Ideal) .add [1] S5000 z 0x00000000#32 reduces_S5000x64_S5000 (.inl rfl) rfl (ix1 p)
      = ∑ j' : Fin 64, z (ix2 p j') := by
  refine (Ideal.multiReduction_add_single z 0x00000000#32 reduces_S5000x64_S5000 (.inl rfl) rfl (ix1 p)).trans ?_
  show ∑ k : Fin 64, z (reduces_S5000x64_S5000.lift (ix1 p) k) = _
  exact Finset.sum_congr rfl fun k _ => congrArg z (lift1_eq p k)

/-- The rows' maxima as a column. -/
def mxK (z : FVec Ideal S5000x64 .f32) : FVec Ideal S5000x1 .f32 :=
  shapeCast S5000x1 (multiReduction (F := Ideal) .maximumf [1] S5000 z 0xFF800000#32 reduces_S5000x64_S5000 (.inl rfl) rfl) shapeCasts_S5000_S5000x1

/-- The kernel's log-softmax of a block of rows. -/
def lsmT (z : FVec Ideal S5000x64 .f32) : FVec Ideal S5000x64 .f32 :=
  subf z (broadcastTo S5000x64 (addf (mxK z) (log (shapeCast S5000x1
    (multiReduction (F := Ideal) .add [1] S5000 (exp (subf z (broadcastTo S5000x64 (mxK z) broadcasts_S5000x1_S5000x64))) 0x00000000#32 reduces_S5000x64_S5000 (.inl rfl) rfl)
    shapeCasts_S5000_S5000x1))) broadcasts_S5000x1_S5000x64)

/-- The kernel's combine of two blocks of rows with the two weight blocks and the bias. -/
def zK (a x : FVec Ideal S5000x128 .f32) (wl wr : FVec Ideal S64x128 .f32) (b : FVec Ideal S64 .f32) : FVec Ideal S5000x64 .f32 :=
  addf (addf
      (matmul dot_S5000x128_S128x64_S5000x64_1_0_0_1_n_n none (truncf .bf16 (shapeCast S5000x128 a shapeCasts_S5000x128_S5000x128) bitsLt_bf16_f32)
        (transpose S128x64 [1, 0] (truncf .bf16 wl bitsLt_bf16_f32) transposes_S64x128_p1_0_S128x64) (constant (F := Ideal) S5000x64 .f32 0x00000000#32))
      (matmul dot_S5000x128_S128x64_S5000x64_1_0_0_1_n_n none (truncf .bf16 (shapeCast S5000x128 x shapeCasts_S5000x128_S5000x128) bitsLt_bf16_f32)
        (transpose S128x64 [1, 0] (truncf .bf16 wr bitsLt_bf16_f32) transposes_S64x128_p1_0_S128x64) (constant (F := Ideal) S5000x64 .f32 0x00000000#32)))
    (broadcastTo S5000x64 (shapeCast S1x64 b shapeCasts_S64_S1x64) broadcasts_S1x64_S5000x64)

/-- The payload is the log-softmax of the combine. -/
theorem pay1_eq (a x : Vec Ideal S5000x128 .f32) (wl wr : Vec Ideal S64x128 .f32) (b : Vec Ideal S64 .f32) :
    k1_pay1 (F := Ideal) a x wl wr b = lsmT (zK a x wl wr b) := rfl

theorem mxK_apply (z : FVec Ideal S5000x64 .f32) (p : Fin 5000) (u : Fin 1) :
    mxK z (ix2 p u) = rowMax (fun j' : Fin 64 => z (ix2 p j')) :=
  (shapeCast_a_a1_apply _ shapeCasts_S5000_S5000x1 p u).trans (rowMax1_apply z p)

/-- An exponential of a vector at an index. -/
theorem exp_apply {s : Shape} {φ : FTy} (v : FVec Ideal s φ) (i : s.Idx) : exp v i = Ideal.exp (v i) := rfl
/-- A logarithm of a vector at an index. -/
theorem log_apply {s : Shape} {φ : FTy} (v : FVec Ideal s φ) (i : s.Idx) : log v i = Ideal.log (v i) := rfl

theorem lsmT_apply (z : FVec Ideal S5000x64 .f32) (p : Fin 5000) (j : Fin 64) :
    lsmT z (ix2 p j) = lsmK (fun j' : Fin 64 => z (ix2 p j')) j := by
  unfold lsmT lsmK
  rw [subf_apply, broadcastTo_a1_ab_apply, addf_apply, log_apply, mxK_apply, shapeCast_a_a1_apply, rowSum1_apply]
  simp only [exp_apply, subf_apply, broadcastTo_a1_ab_apply, mxK_apply]

theorem zK_apply (a x : FVec Ideal S5000x128 .f32) (wl wr : FVec Ideal S64x128 .f32) (b : FVec Ideal S64 .f32) (p : Fin 5000) (j : Fin 64) :
    zK a x wl wr b (ix2 p j) = ((∑ k : Fin 128, a (ix2 p k) * wl (ix2 j k)) + (∑ k : Fin 128, x (ix2 p k) * wr (ix2 j k))) + b (ix1 j) := by
  show (matmul dot_S5000x128_S128x64_S5000x64_1_0_0_1_n_n none _ _ _ (ix2 p j) + matmul dot_S5000x128_S128x64_S5000x64_1_0_0_1_n_n none _ _ _ (ix2 p j))
    + broadcastTo S5000x64 _ broadcasts_S1x64_S5000x64 (ix2 p j) = _
  rw [mm1_apply, mm1_apply, broadcastTo_1b_ab_apply, shapeCast_a_1a_apply]
  simp only [shapeCast_self]
  refine congrArg (· + b (ix1 j)) (congrArg₂ (· + ·) (Finset.sum_congr rfl fun k _ => ?_) (Finset.sum_congr rfl fun k _ => ?_))
  · rw [tr1_apply]; rfl
  · rw [tr1_apply]; rfl

/-- THE PAYLOAD AT (p, j): the log-softmax entry j of row p's combine entries. -/
theorem pay1_apply (a x : Vec Ideal S5000x128 .f32) (wl wr : Vec Ideal S64x128 .f32) (b : Vec Ideal S64 .f32) (p : Fin 5000) (j : Fin 64) :
    k1_pay1 (F := Ideal) a x wl wr b (ix2 p j)
      = lsmK (fun j' : Fin 64 => ((∑ k : Fin 128, a (ix2 p k) * wl (ix2 j' k)) + (∑ k : Fin 128, x (ix2 p k) * wr (ix2 j' k))) + b (ix1 j')) j := by
  rw [pay1_eq, lsmT_apply]
  exact congrArg (fun f => lsmK f j) (funext fun j' => zK_apply a x wl wr b p j')

/-! ## From blocks to the array -/

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the grid: the row-blocked windows sit at the point's number on the rows'
    axis and at 0 on the lanes' axis; the whole-array windows at 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of the first operand's block at point t is row 5000 t + p of the array. -/
theorem blk1_0_apply (c : Dev nD) (t : Fin cfg1.N) (p : Fin 5000) (r : Fin 50000) (hr : r.val = t.val * 5000 + p.val) (k : Fin 128) :
    (iblk1 (F := Ideal) V c 0 t : Vec Ideal S5000x128 .f32) (ix2 p k) = (V c main_v23 : S50000x128.Idx → EReal) (ix2 r k) := by
  obtain ⟨e0, e1, -⟩ := idx_facts1 t
  unfold iblk1
  rw [View.read_apply]
  show V c main_v23 _ = V c main_v23 _
  congr 1
  funext a; apply Fin.ext
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- Row p of the second operand's block at point t is row 5000 t + p of the array. -/
theorem blk1_1_apply (c : Dev nD) (t : Fin cfg1.N) (p : Fin 5000) (r : Fin 50000) (hr : r.val = t.val * 5000 + p.val) (k : Fin 128) :
    (iblk1 (F := Ideal) V c 1 t : Vec Ideal S5000x128 .f32) (ix2 p k) = (V c main_v17 : S50000x128.Idx → EReal) (ix2 r k) := by
  obtain ⟨-, -, e0, e1, -⟩ := idx_facts1 t
  unfold iblk1
  rw [View.read_apply]
  show V c main_v17 _ = V c main_v17 _
  congr 1
  funext a; apply Fin.ext
  match a with
  | ⟨0, _⟩ => show win1_1.index t (0 : Fin 2) * 5000 + 1 * p.val = r.val; rw [e0, hr]; omega
  | ⟨1, _⟩ => show win1_1.index t (1 : Fin 2) * 128 + 1 * k.val = k.val; rw [e1]; omega

/-- The first weight window's block at any point is the whole array. -/
theorem blk1_2_apply (c : Dev nD) (t : Fin cfg1.N) (j : Fin 64) (k : Fin 128) :
    (iblk1 (F := Ideal) V c 2 t : Vec Ideal S64x128 .f32) (ix2 j k) = (V c main_arg5 : S64x128.Idx → EReal) (ix2 j k) := by
  obtain ⟨-, -, -, -, e0, e1, -⟩ := idx_facts1 t
  unfold iblk1
  rw [View.read_apply]
  show V c main_arg5 _ = V c main_arg5 _
  congr 1
  funext a; apply Fin.ext
  match a with
  | ⟨0, _⟩ => show win1_2.index t (0 : Fin 2) * 64 + 1 * j.val = j.val; rw [e0]; omega
  | ⟨1, _⟩ => show win1_2.index t (1 : Fin 2) * 128 + 1 * k.val = k.val; rw [e1]; omega

/-- The bias window's block at any point is the whole array. -/
theorem blk1_3_apply (c : Dev nD) (t : Fin cfg1.N) (j : Fin 64) :
    (iblk1 (F := Ideal) V c 3 t : Vec Ideal S64 .f32) (ix1 j) = (V c main_arg6 : S64.Idx → EReal) (ix1 j) := by
  obtain ⟨-, -, -, -, -, -, e0, -⟩ := idx_facts1 t
  unfold iblk1
  rw [View.read_apply]
  show V c main_arg6 _ = V c main_arg6 _
  congr 1
  funext a; apply Fin.ext
  match a with
  | ⟨0, _⟩ => show win1_3.index t (0 : Fin 1) * 64 + 1 * j.val = j.val; rw [e0]; omega

/-- The second weight window's block at any point is the whole array. -/
theorem blk1_4_apply (c : Dev nD) (t : Fin cfg1.N) (j : Fin 64) (k : Fin 128) :
    (iblk1 (F := Ideal) V c 4 t : Vec Ideal S64x128 .f32) (ix2 j k) = (V c main_arg7 : S64x128.Idx → EReal) (ix2 j k) := by
  obtain ⟨-, -, -, -, -, -, -, e0, e1, -⟩ := idx_facts1 t
  unfold iblk1
  rw [View.read_apply]
  show V c main_arg7 _ = V c main_arg7 _
  congr 1
  funext a; apply Fin.ext
  match a with
  | ⟨0, _⟩ => show win1_4.index t (0 : Fin 2) * 64 + 1 * j.val = j.val; rw [e0]; omega
  | ⟨1, _⟩ => show win1_4.index t (1 : Fin 2) * 128 + 1 * k.val = k.val; rw [e1]; omega

/-- What the output array ends holding: entry (n, j) is the log-softmax entry j of the combine entries of rows n of
    the two row-blocked operands. -/
def G1 (c : Dev nD) : S50000x64.Idx → EReal := fun i =>
  lsmK (fun j' : Fin 64 => combK
      (fun k : Fin 128 => (V c main_v23 : S50000x128.Idx → EReal) (ix2 (⟨(i 0).val, idx2_lt0 i⟩ : Fin 50000) k))
      (fun k : Fin 128 => (V c main_v17 : S50000x128.Idx → EReal) (ix2 (⟨(i 0).val, idx2_lt0 i⟩ : Fin 50000) k))
      (fun k : Fin 128 => (V c main_arg5 : S64x128.Idx → EReal) (ix2 j' k))
      (fun k : Fin 128 => (V c main_arg7 : S64x128.Idx → EReal) (ix2 j' k))
      ((V c main_arg6 : S64.Idx → EReal) (ix1 j'))) (⟨(i 1).val, idx2_lt1 i⟩ : Fin 64)

/-- `G1` at an index of given coordinates. -/
theorem G1_apply (c : Dev nD) (i : S50000x64.Idx) (r : Fin 50000) (q : Fin 64) (h0 : (i 0).val = r.val) (h1 : (i 1).val = q.val) :
    G1 V c i = lsmK (fun j' : Fin 64 => combK
      (fun k : Fin 128 => (V c main_v23 : S50000x128.Idx → EReal) (ix2 r k))
      (fun k : Fin 128 => (V c main_v17 : S50000x128.Idx → EReal) (ix2 r k))
      (fun k : Fin 128 => (V c main_arg5 : S64x128.Idx → EReal) (ix2 j' k))
      (fun k : Fin 128 => (V c main_arg7 : S64x128.Idx → EReal) (ix2 j' k))
      ((V c main_arg6 : S64.Idx → EReal) (ix1 j'))) q := by
  have er : (⟨(i 0).val, idx2_lt0 i⟩ : Fin 50000) = r := Fin.ext h0
  have eq : (⟨(i 1).val, idx2_lt1 i⟩ : Fin 64) = q := Fin.ext h1
  unfold G1
  rw [er, eq]

/-- WHAT POINT t WRITES BACK is block t of `G1`. -/
theorem flushed1_eq (c : Dev nD) (t : Fin cfg1.N) :
    (dat1 (F := Ideal) V c).flushed 5 t = ((cfg1.win 5).blk t).view.read (Elt Ideal) (G1 V c) := by
  show (cfg1.win 5).cut (grid1.coords t) ((dat1 V c).after 5 t) = _
  rw [after1_5]
  unfold out1_5
  rw [View.canon_unit_zero hz2]
  simp only [View.ld_unit_zero (S := S5000x128) hz2, View.ld_unit_zero (S := S64x128) hz2, View.ld_unit_zero (S := S64) hz1]
  obtain ⟨-, -, -, -, -, -, -, -, -, e0, e1⟩ := idx_facts1 t
  have ht : t.val < 10 := lt_of_lt_of_eq t.isLt N_1
  funext y
  obtain ⟨p, q, rfl⟩ : ∃ (p : Fin 5000) (q : Fin 64), y = ix2 p q := ⟨y 0, y 1, eq_ix2 y⟩
  have hp : p.val < 5000 := p.isLt
  refine (pay1_apply (iblk1 V c 0 t) (iblk1 V c 1 t) (iblk1 V c 2 t) (iblk1 V c 4 t) (iblk1 V c 3 t) p q).trans ?_
  rw [View.read_apply]
  refine Eq.trans ?_ (G1_apply V c _ ⟨t.val * 5000 + p.val, by omega⟩ q ?_ ?_).symm
  · simp only [blk1_0_apply V c t p ⟨t.val * 5000 + p.val, by omega⟩ rfl, blk1_1_apply V c t p ⟨t.val * 5000 + p.val, by omega⟩ rfl,
      blk1_2_apply V c t, blk1_3_apply V c t, blk1_4_apply V c t]
    rfl
  · show win1_5.index t (0 : Fin 2) * 5000 + 1 * p.val = t.val * 5000 + p.val; rw [e0]; omega
  · show win1_5.index t (1 : Fin 2) * 64 + 1 * q.val = q.val; rw [e1]; omega

/-- An index of the array is in point t's block iff each coordinate is in the block's range on its axis. -/
theorem mem_blk1 (t : Fin cfg1.N) (i : S50000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v24).slice (win1_5.rect t)).set ↔ _
  rw [View.set_slice_whole, Rect.mem_set_unit]
  exact Iff.rfl

/-- Every index of the array is in the block of the point its row falls in. -/
theorem cover1 (i : S50000x64.Idx) : ∃ t : Fin cfg1.N, (cfg1.win 5).flush t = true ∧ i ∈ ((cfg1.win 5).blk t).view.set := by
  have hi0 : (i 0).val < 50000 := idx2_lt0 i
  have hi1 : (i 1).val < 64 := idx2_lt1 i
  have hN : cfg1.N = 10 := N_1
  refine ⟨⟨(i 0).val / 5000, by rw [hN]; omega⟩, flush1_5 _, ?_⟩
  obtain ⟨-, -, -, -, -, -, -, -, -, e0, e1⟩ := idx_facts1 ⟨(i 0).val / 5000, by rw [hN]; omega⟩
  rw [mem_blk1]
  intro a
  match a with
  | ⟨0, _⟩ =>
    show win1_5.index _ (0 : Fin 2) * 5000 ≤ (i 0).val ∧ (i 0).val < win1_5.index _ (0 : Fin 2) * 5000 + 5000
    rw [e0]; show (i 0).val / 5000 * 5000 ≤ (i 0).val ∧ (i 0).val < (i 0).val / 5000 * 5000 + 5000; omega
  | ⟨1, _⟩ =>
    show win1_5.index _ (1 : Fin 2) * 64 ≤ (i 1).val ∧ (i 1).val < win1_5.index _ (1 : Fin 2) * 64 + 64
    rw [e1]; omega

/-- THE ARRAY after the launch is `G1`. -/
theorem final1 (c : Dev nD) : (dat1 (F := Ideal) V c).arrAt 5 cfg1.N = G1 V c :=
  (dat1 V c).arrAt_eq_of_cover 5 (G1 V c) (fun t _ => flushed1_eq V c t) cover1

end Launch1

/-- The second launch's output array at (n, j). -/
theorem region1_value (c : Dev nD) (n : Fin 50000) (j : Fin 64) :
    ((dat1 (F := Ideal) V c).arrAt 5 cfg1.N : S50000x64.Idx → EReal) (ix2 n j)
      = lsmK (fun j' : Fin 64 => combK (fun k : Fin 128 => (V c main_v23 : S50000x128.Idx → EReal) (ix2 n k))
          (fun k : Fin 128 => (V c main_v17 : S50000x128.Idx → EReal) (ix2 n k))
          (fun k : Fin 128 => (V c main_arg5 : S64x128.Idx → EReal) (ix2 j' k))
          (fun k : Fin 128 => (V c main_arg7 : S64x128.Idx → EReal) (ix2 j' k))
          ((V c main_arg6 : S64.Idx → EReal) (ix1 j'))) j := by
  rw [Launch1.final1]
  exact Launch1.G1_apply V c (ix2 n j) n j rfl rfl

end Cert.KernelIdeal.Region

end
-- ==== Proof.RefIndex.lean ====
/-
  The reference's stages read at an index, at the ideal values: the hidden layer's entry (n, j) is tanh of a
  combine entry of the first aggregation's row n and the input's row n; the second layer's pre-activation entry
  (n, j) is a combine entry of the second aggregation's row n and the hidden layer's row n; the result's entry
  (n, j) is the log-softmax entry j of the pre-activation's row n.
  Each reading chains the per-operation readings: a contraction against a transposed weight W[j, k] read as
  Wᵀ[k, j] is the sum over k of the row's entry k times W[j, k]; a bias broadcast twice is the bias at j; the
  maximum-reduce of a row from −∞, joined with −∞ once more, is the row's maximum; the sum-reduce from 0 is the sum.
-/
import proofs.«426505_j87866440941609_1_alg».proof.Proof.RefRead
import proofs.«426505_j87866440941609_1_alg».proof.Proof.Spec
import proofs.«426505_j87866440941609_1_alg».proof.Proof.Consts
import Idealize.ShloMosaic.Lib.ValueIdx
import Idealize.ShloMosaic.PureOps.Ideal.Laws
import Idealize.ShloMosaic.PureOps.Reduce

noncomputable section

namespace Cert.ReferenceIdeal.Index

open Cert.ReferenceIdeal Cert.ReferenceIdeal.Gen Cert.ReferenceIdeal.ReadP Idealize.ShloMosaic Idealize.ShloMosaic.ValueIdx Cert.Sage

variable (x0 : FVec Ideal S50000x64 .f32) (x1 : IVec S2x800000 32) (x2 : FVec Ideal S128x64 .f32) (x3 : FVec Ideal S128 .f32)
  (x4 : FVec Ideal S128x64 .f32) (x5 : FVec Ideal S64x128 .f32) (x6 : FVec Ideal S64 .f32) (x7 : FVec Ideal S64x128 .f32)

/-! ## The first layer's index maps, at (n, j) -/

/-- The left operand of the first contraction is read at (n, k). -/
private theorem lidx23 (n : Fin 50000) (j : Fin 128) (k : Fin 64) : lidx_main_v23 (ix2 n j) k = ix2 n k :=
  funext fun a => Fin.ext (by match a with | ⟨0, _⟩ => rfl | ⟨1, _⟩ => rfl)
/-- The right operand of the first contraction is read at (k, j). -/
private theorem ridx23 (n : Fin 50000) (j : Fin 128) (k : Fin 64) : ridx_main_v23 (ix2 n j) k = ix2 k j :=
  funext fun a => Fin.ext (by match a with | ⟨0, _⟩ => rfl | ⟨1, _⟩ => rfl)
/-- The transpose at (k, j) reads the weight at (j, k). -/
private theorem idx22 (k : Fin 64) (j : Fin 128) : idx_main_v22 (ix2 k j) = ix2 j k :=
  funext fun a => Fin.ext (by match a with | ⟨0, _⟩ => rfl | ⟨1, _⟩ => rfl)
/-- The left operand of the second contraction is read at (n, k). -/
private theorem lidx28 (n : Fin 50000) (j : Fin 128) (k : Fin 64) : lidx_main_v28 (ix2 n j) k = ix2 n k :=
  funext fun a => Fin.ext (by match a with | ⟨0, _⟩ => rfl | ⟨1, _⟩ => rfl)
/-- The right operand of the second contraction is read at (k, j). -/
private theorem ridx28 (n : Fin 50000) (j : Fin 128) (k : Fin 64) : ridx_main_v28 (ix2 n j) k = ix2 k j :=
  funext fun a => Fin.ext (by match a with | ⟨0, _⟩ => rfl | ⟨1, _⟩ => rfl)
/-- The transpose at (k, j) reads the weight at (j, k). -/
private theorem idx27 (k : Fin 64) (j : Fin 128) : idx_main_v27 (ix2 k j) = ix2 j k :=
  funext fun a => Fin.ext (by match a with | ⟨0, _⟩ => rfl | ⟨1, _⟩ => rfl)
/-- The twice-broadcast bias at (n, j) is the bias at j. -/
private theorem idx2524 (n : Fin 50000) (j : Fin 128) : idx_main_v24 (idx_main_v25 (ix2 n j)) = ix1 j :=
  funext fun a => Fin.ext (by match a with | ⟨0, _⟩ => rfl)

/-- The hidden layer at (n, j). -/
theorem hidden_apply (n : Fin 50000) (j : Fin 128) :
    val_main_v30 (F := Ideal) x0 x1 x2 x3 x4 (ix2 n j)
      = Ideal.tanh (combR (fun k : Fin 64 => val_main_v21 (F := Ideal) x0 x1 (ix2 n k)) (fun k : Fin 64 => x0 (ix2 n k))
          (fun k : Fin 64 => x2 (ix2 j k)) (fun k : Fin 64 => x4 (ix2 j k)) (x3 (ix1 j))) := by
  rw [val_main_v30_apply, val_main_v29_apply, val_main_v26_apply, val_main_v23_apply, val_main_v25_apply, val_main_v24_apply,
    val_main_v28_apply]
  simp only [val_main_v22_apply, val_main_v27_apply, lidx23, ridx23, idx22, lidx28, ridx28, idx27, idx2524,
    Ideal.addf_def, Ideal.hostUnary_tanh_def]
  unfold combR
  rfl

/-! ## The second layer's index maps, at (n, j) -/

/-- The left operand of the first contraction is read at (n, k). -/
private theorem lidx50 (n : Fin 50000) (j : Fin 64) (k : Fin 128) : lidx_main_v50 (ix2 n j) k = ix2 n k :=
  funext fun a => Fin.ext (by match a with | ⟨0, _⟩ => rfl | ⟨1, _⟩ => rfl)
/-- The right operand of the first contraction is read at (k, j). -/
private theorem ridx50 (n : Fin 50000) (j : Fin 64) (k : Fin 128) : ridx_main_v50 (ix2 n j) k = ix2 k j :=
  funext fun a => Fin.ext (by match a with | ⟨0, _⟩ => rfl | ⟨1, _⟩ => rfl)
/-- The transpose at (k, j) reads the weight at (j, k). -/
private theorem idx49 (k : Fin 128) (j : Fin 64) : idx_main_v49 (ix2 k j) = ix2 j k :=
  funext fun a => Fin.ext (by match a with | ⟨0, _⟩ => rfl | ⟨1, _⟩ => rfl)
/-- The left operand of the second contraction is read at (n, k). -/
private theorem lidx55 (n : Fin 50000) (j : Fin 64) (k : Fin 128) : lidx_main_v55 (ix2 n j) k = ix2 n k :=
  funext fun a => Fin.ext (by match a with | ⟨0, _⟩ => rfl | ⟨1, _⟩ => rfl)
/-- The right operand of the second contraction is read at (k, j). -/
private theorem ridx55 (n : Fin 50000) (j : Fin 64) (k : Fin 128) : ridx_main_v55 (ix2 n j) k = ix2 k j :=
  funext fun a => Fin.ext (by match a with | ⟨0, _⟩ => rfl | ⟨1, _⟩ => rfl)
/-- The transpose at (k, j) reads the weight at (j, k). -/
private theorem idx54 (k : Fin 128) (j : Fin 64) : idx_main_v54 (ix2 k j) = ix2 j k :=
  funext fun a => Fin.ext (by match a with | ⟨0, _⟩ => rfl | ⟨1, _⟩ => rfl)
/-- The twice-broadcast bias at (n, j) is the bias at j. -/
private theorem idx5251 (n : Fin 50000) (j : Fin 64) : idx_main_v51 (idx_main_v52 (ix2 n j)) = ix1 j :=
  funext fun a => Fin.ext (by match a with | ⟨0, _⟩ => rfl)

/-- The second layer's pre-activation at (n, j). -/
theorem pre_apply (n : Fin 50000) (j : Fin 64) :
    val_main_v56 (F := Ideal) x0 x1 x2 x3 x4 x5 x6 x7 (ix2 n j)
      = combR (fun k : Fin 128 => val_main_v48 (F := Ideal) x0 x1 x2 x3 x4 (ix2 n k)) (fun k : Fin 128 => val_main_v30 (F := Ideal) x0 x1 x2 x3 x4 (ix2 n k))
          (fun k : Fin 128 => x5 (ix2 j k)) (fun k : Fin 128 => x7 (ix2 j k)) (x6 (ix1 j)) := by
  rw [val_main_v56_apply, val_main_v53_apply, val_main_v50_apply, val_main_v52_apply, val_main_v51_apply, val_main_v55_apply]
  simp only [val_main_v49_apply, val_main_v54_apply, lidx50, ridx50, idx49, lidx55, ridx55, idx54, idx5251, Ideal.addf_def]
  unfold combR
  rfl

/-! ## The row-wise log-softmax -/

/-- The reduced index n with column k put back is (n, k). -/
private theorem lift_row (h : S50000x64.Reduces [1] S50000) (n : Fin 50000) (k : Fin (S50000x64.size 1)) :
    h.lift (ix1 n) k = ix2 n (⟨k.val, k.isLt⟩ : Fin 64) :=
  funext fun a => Fin.ext (by match a with | ⟨0, _⟩ => rfl | ⟨1, _⟩ => rfl)

/-- The twice-broadcast row maximum at (n, j) is read at n. -/
private theorem idx43 (n : Fin 50000) (j : Fin 64) : idx_main_call0_v3 (idx_main_call0_v4 (ix2 n j)) = ix1 n :=
  funext fun a => Fin.ext (by match a with | ⟨0, _⟩ => rfl)
/-- The twice-broadcast row sum at (n, j) is read at n. -/
private theorem idx108 (n : Fin 50000) (j : Fin 64) : idx_main_call0_v8 (idx_main_call0_v10 (ix2 n j)) = ix1 n :=
  funext fun a => Fin.ext (by match a with | ⟨0, _⟩ => rfl)
/-- The sum-reduce at n reads its operand at (n, k). -/
private theorem idx7 (n : Fin 50000) (k : Fin 64) : idx_main_call0_v7 (ix1 n) k = ix2 n k :=
  funext fun a => Fin.ext (by match a with | ⟨0, _⟩ => rfl | ⟨1, _⟩ => rfl)

/-- From −∞ the maximum-reduce of row n of any array z, joined with −∞ again, is the row's maximum. -/
private theorem reduce_row (z : FVec Ideal S50000x64 .f32) (n : Fin 50000) :
    FloatOps.maximumf (F := Ideal) (FloatOps.ofBits .f32 0xFF800000#32)
        (Host.reduce FloatOps.maximumf z (val_main_call0_cst (F := Ideal)) reducesTo_S50000x64_S50000_d1 h_S_ (ix1 n))
      = rowMax (fun j' : Fin 64 => z (ix2 n j')) := by
  rw [Host.reduce_eq_fold_single FloatOps.maximumf _ _ reducesTo_S50000x64_S50000_d1 (by decide) h_S_, val_main_call0_cst_apply]
  simp only [Ideal.ofBits_def, Ideal.maximumf_def, Cert.Consts.ofBits_neg_inf]
  rw [max_eq_right bot_le]
  simp only [Function.comp, lift_row]
  unfold rowMax
  rfl

/-- The row maximum the reference subtracts at (n, j) is the maximum of the pre-activation's row n. -/
private theorem rowmax_apply (n : Fin 50000) (j : Fin 64) :
    val_main_call0_v4 (F := Ideal) x0 x1 x2 x3 x4 x5 x6 x7 (ix2 n j)
      = rowMax (fun j' : Fin 64 => val_main_v56 (F := Ideal) x0 x1 x2 x3 x4 x5 x6 x7 (ix2 n j')) := by
  rw [val_main_call0_v4_apply, val_main_call0_v3_apply, idx43, val_main_call0_v2_apply, val_main_call0_v1_apply,
    val_main_call0_cst_0_apply]
  unfold val_main_call0_v0
  exact reduce_row _ n

/-- The shifted pre-activation at (n, j): the entry minus its row's maximum. -/
private theorem shift_apply (n : Fin 50000) (j : Fin 64) :
    val_main_call0_v5 (F := Ideal) x0 x1 x2 x3 x4 x5 x6 x7 (ix2 n j)
      = val_main_v56 (F := Ideal) x0 x1 x2 x3 x4 x5 x6 x7 (ix2 n j)
          - rowMax (fun j' : Fin 64 => val_main_v56 (F := Ideal) x0 x1 x2 x3 x4 x5 x6 x7 (ix2 n j')) := by
  rw [val_main_call0_v5_apply, rowmax_apply, Ideal.subf_def]

/-- The sum-reduce from 0 at n: the sum of row n's shifted exponentials. -/
private theorem sum_apply (n : Fin 50000) :
    val_main_call0_v7 (F := Ideal) x0 x1 x2 x3 x4 x5 x6 x7 (ix1 n)
      = ∑ k : Fin 64, Ideal.exp (val_main_v56 (F := Ideal) x0 x1 x2 x3 x4 x5 x6 x7 (ix2 n k)
          - rowMax (fun j' : Fin 64 => val_main_v56 (F := Ideal) x0 x1 x2 x3 x4 x5 x6 x7 (ix2 n j'))) := by
  rw [val_main_call0_v7_apply, val_main_call0_cst_1_apply, Ideal.ofBits_def, Ideal.ofBits_zero_f32, zero_add]
  refine Finset.sum_congr rfl fun k _ => ?_
  rw [idx7, val_main_call0_v6_apply, shift_apply, Ideal.hostUnary_exp_def]

/-- The result at (n, j). -/
theorem out_apply (n : Fin 50000) (j : Fin 64) :
    val_main_v57 (F := Ideal) x0 x1 x2 x3 x4 x5 x6 x7 (ix2 n j)
      = lsmR (fun j' : Fin 64 => val_main_v56 (F := Ideal) x0 x1 x2 x3 x4 x5 x6 x7 (ix2 n j')) j := by
  rw [val_main_v57_apply, shift_apply, val_main_call0_v10_apply, val_main_call0_v9_apply, val_main_call0_v8_apply, idx108,
    sum_apply, Ideal.subf_def, Ideal.hostUnary_log_def]
  generalize val_main_v56 (F := Ideal) x0 x1 x2 x3 x4 x5 x6 x7 = z
  unfold lsmR
  rfl

end Cert.ReferenceIdeal.Index

end
-- ==== Proof.DenseMath.lean ====
/-
  Laws on the extended reals that join the two forms of a combine entry and of a log-softmax entry (Spec.lean),
  and the closure of "is a real number" under the operations the second layer applies.

  The combine law is commutativity and associativity of addition. The log-softmax law holds on a nonempty row of
  real numbers: the row's maximum is then a real number, every shifted entry is a real number, the sum of their
  exponentials is a positive real number, its logarithm is a real number, and x − (M + L) = (x − M) − L is an
  identity of real numbers.
-/
import proofs.«426505_j87866440941609_1_alg».proof.Proof.Spec

noncomputable section

open scoped BigOperators

namespace Cert.Sage

open Idealize.ShloMosaic

/-- The embedding of the reals in the extended reals carries a finite sum to the finite sum. -/
private theorem coe_finset_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The fold of `max` from −∞ over a nonempty finite family of real numbers is a real number. -/
private theorem fold_max_real {ι : Type} (f : ι → EReal) (hf : ∀ i, ∃ r : ℝ, f i = (r : EReal)) (s : Finset ι) :
    s = ∅ ∨ ∃ r : ℝ, s.fold max ⊥ f = (r : EReal) := by
  classical
  induction s using Finset.induction_on with
  | empty => exact Or.inl rfl
  | insert a s ha ih =>
    right
    obtain ⟨ra, hra⟩ := hf a
    rw [Finset.fold_insert ha, hra]
    rcases ih with rfl | ⟨r, hr⟩
    · exact ⟨ra, by simp⟩
    · rcases le_total ra r with h | h
      · exact ⟨r, by rw [hr, max_eq_right (EReal.coe_le_coe_iff.mpr h)]⟩
      · exact ⟨ra, by rw [hr, max_eq_left (EReal.coe_le_coe_iff.mpr h)]⟩

/-- Addition on the extended reals is commutative and associative: the bias may be added between the sums. -/
theorem combK_eq_combR {D : ℕ} (a x wl wr : Fin D → EReal) (b : EReal) :
    combK a x wl wr b = combR a x wl wr b := by
  unfold combK combR
  exact add_right_comm _ _ _

/-- On a row of real numbers the two log-softmax forms agree: x − (M + L) = (x − M) − L for reals. -/
theorem lsmK_eq_lsmR {C : ℕ} (hC : 0 < C) (z : Fin C → EReal) (hz : ∀ j, ∃ r : ℝ, z j = (r : EReal)) (j : Fin C) :
    lsmK z j = lsmR z j := by
  have hne : (Finset.univ : Finset (Fin C)).Nonempty := ⟨⟨0, hC⟩, Finset.mem_univ _⟩
  obtain ⟨m, hm⟩ : ∃ m : ℝ, rowMax z = (m : EReal) := by
    rcases fold_max_real z hz Finset.univ with h | h
    · exact absurd h hne.ne_empty
    · exact h
  choose r hr using hz
  have hsum : (∑ j', Ideal.exp (z j' - rowMax z)) = ((∑ j', Real.exp (r j' - m) : ℝ) : EReal) := by
    rw [coe_finset_sum]
    refine Finset.sum_congr rfl fun j' _ => ?_
    rw [hm, hr j', ← EReal.coe_sub, Ideal.exp_coe]
  have hpos : 0 < ∑ j', Real.exp (r j' - m) := Finset.sum_pos (fun _ _ => Real.exp_pos _) hne
  unfold lsmK lsmR
  rw [hsum, Ideal.log_coe, if_neg (not_le.mpr hpos), hm, hr j, ← EReal.coe_add, ← EReal.coe_sub, ← EReal.coe_sub,
    ← EReal.coe_sub]
  congr 1
  ring

/-- tanh of any extended real is a real number. -/
theorem tanh_real (t : EReal) : ∃ r : ℝ, Ideal.tanh t = (r : EReal) := by
  induction t using EReal.rec with
  | bot => exact ⟨-1, by rw [Ideal.tanh_bot, EReal.coe_neg, EReal.coe_one]⟩
  | coe r => exact ⟨Real.tanh r, Ideal.tanh_coe r⟩
  | top => exact ⟨1, by rw [Ideal.tanh_top, EReal.coe_one]⟩

/-- A finite sum of real numbers is a real number. -/
theorem sum_real {ι : Type} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨ra, hra⟩ := h a (Finset.mem_insert_self a s)
    obtain ⟨rs, hrs⟩ := ih fun i hi => h i (Finset.mem_insert_of_mem hi)
    exact ⟨ra + rs, by rw [Finset.sum_insert ha, hra, hrs, EReal.coe_add]⟩

/-- A real number divided by a real number that is at least 1 is a real number. -/
theorem div_real (x y : EReal) (hx : ∃ r : ℝ, x = (r : EReal)) (hy : ∃ r : ℝ, y = (r : EReal) ∧ 1 ≤ r) :
    ∃ r : ℝ, Ideal.div x y = (r : EReal) := by
  obtain ⟨a, rfl⟩ := hx
  obtain ⟨b, rfl, hb⟩ := hy
  have hb0 : b ≠ 0 := (lt_of_lt_of_le one_pos hb).ne'
  exact ⟨a * (1 / b), by rw [Ideal.div_coe hb0, EReal.coe_mul]⟩

/-- A combine entry of real numbers is a real number. -/
theorem combR_real {D : ℕ} (a x wl wr : Fin D → EReal) (b : EReal)
    (ha : ∀ k, ∃ r : ℝ, a k = (r : EReal)) (hx : ∀ k, ∃ r : ℝ, x k = (r : EReal))
    (hwl : ∀ k, ∃ r : ℝ, wl k = (r : EReal)) (hwr : ∀ k, ∃ r : ℝ, wr k = (r : EReal))
    (hb : ∃ r : ℝ, b = (r : EReal)) : ∃ r : ℝ, combR a x wl wr b = (r : EReal) := by
  have hmul : ∀ (u v : Fin D → EReal), (∀ k, ∃ r : ℝ, u k = (r : EReal)) → (∀ k, ∃ r : ℝ, v k = (r : EReal)) →
      ∃ r : ℝ, ∑ k, u k * v k = (r : EReal) := by
    intro u v hu hv
    refine sum_real _ _ fun k _ => ?_
    obtain ⟨p, hp⟩ := hu k
    obtain ⟨q, hq⟩ := hv k
    exact ⟨p * q, by rw [hp, hq, EReal.coe_mul]⟩
  obtain ⟨s₁, h₁⟩ := hmul a wl ha hwl
  obtain ⟨s₂, h₂⟩ := hmul x wr hx hwr
  obtain ⟨rb, hrb⟩ := hb
  exact ⟨s₁ + rb + s₂, by unfold combR; rw [h₁, h₂, hrb, EReal.coe_add, EReal.coe_add]⟩

end Cert.Sage

end
-- ==== Proof.LibRows.lean ====
/-
  General lemmas for ROW indexing by an integer list, as `x[idx]` and `zeros.at[idx].add(u)` lower for a
  rank-2 array and a rank-1 list of row numbers (held as an `[E, 1]` column):

  * a row gather — operand `[N, C]`, start indices `[E, 1]`, result `[E, C]`, the row axis collapsed —
    read at `(e, c)` is the operand at row `idx[e, 0]` (read signed, clamped into `[0, N − 1]`), column `c`;
  * at the ideal values a row scatter-add — operand `[N, C]`, scatter indices `[E, 1]`, updates `[E, C]` —
    read at `(n, c)` is the operand's entry plus the sum, over the list positions `e` whose row number
    `idx[e, 0]` (read signed, not clamped) is `n`, of the updates' entries `(e, c)`.
-/
import Idealize.ShloMosaic.Lib.ValueIdx
import Idealize.ShloMosaic.Lib.Pipeline.Value
import Idealize.ShloMosaic.PureOps.Ideal.Laws

noncomputable section

open scoped BigOperators

namespace Idealize.ShloMosaic.ValueIdx

open Idealize.ShloMosaic

/-- The dimension numbers of a row gather: operand `[N, C]`, start indices `[E, 1]`, result `[E, C]`. -/
abbrev rowGatherDims (N E C : ℕ)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `idx[e, 0]`, read signed and clamped into
    `[0, N − 1]`, column `c`. -/
theorem rowGather_apply {α : Type} {N E C w : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = c.val
    rw [GatherDims.batchCoord_eq_zero _ _ _ List.not_mem_nil]
    have hs : (rowGatherDims N E C wf).start (ix2 e c) idx 1 = 0 := by
      unfold GatherDims.start
      rw [dif_neg (show (1 : Fin 2) ∉ (rowGatherDims N E C wf).startIndexMap by simp)]
    rw [hs]
    have hk : (rowGatherDims N E C wf).sKept = [(1 : Fin 2)] := rfl
    unfold GatherDims.offCoord
    rw [dif_pos (show (1 : Fin 2) ∈ (rowGatherDims N E C wf).sKept from by rw [hk]; exact List.mem_singleton.mpr rfl)]
    have hi : List.idxOf (1 : Fin 2) (rowGatherDims N E C wf).sKept = 0 := by rw [hk]; exact List.idxOf_cons_self
    simp only [hi, Nat.zero_add]
    rfl

/-- The dimension numbers of a row scatter: operand `[N, C]`, scatter indices `[E, 1]`, updates `[E, C]`. -/
abbrev rowScatterDims (N E C : ℕ)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Where the update at `(e, c')` lands: at `(n, c)` exactly when the row number at `e` is `n` and `c' = c`. -/
private theorem rowScatter_resultIdx {N E C w : ℕ}
    (wf : ScatterDims.WF ⟨2, ![N, C]⟩ ⟨2, ![E, 1]⟩ ⟨2, ![E, C]⟩ [1] [0] [0] 1)
    (idx : IVec ⟨2, ![E, 1]⟩ w) (e : Fin E) (c' : Fin C) (n : Fin N) (c : Fin C) :
    (rowScatterDims N E C wf).resultIdx? (ix2 e c') idx = some (ix2 n c)
      ↔ (idx (ix2 e (0 : Fin 1))).toInt = (n.val : ℤ) ∧ c' = c := by
  have hs0 : (rowScatterDims N E C wf).start (ix2 e c') idx (0 : Fin 2) = (idx (ix2 e (0 : Fin 1))).toInt := by
    unfold ScatterDims.start
    rw [dif_pos (show (0 : Fin 2) ∈ (rowScatterDims N E C wf).scatterDimsToOperandDims from List.mem_singleton.mpr rfl)]
    have hsi : (rowScatterDims N E C wf).siIdx (ix2 e c') ⟨List.idxOf (0 : Fin 2) (rowScatterDims N E C wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (rowScatterDims N E C wf).start (ix2 e c') idx (1 : Fin 2) = 0 := by
    unfold ScatterDims.start
    rw [dif_neg (show (1 : Fin 2) ∉ (rowScatterDims N E C wf).scatterDimsToOperandDims by simp)]
  have hk : (rowScatterDims N E C wf).sKept = [(1 : Fin 2)] := rfl
  have hw0 : (rowScatterDims N E C wf).window (ix2 e c') (0 : Fin 2) = 0 := by
    unfold ScatterDims.window
    rw [dif_neg (show (0 : Fin 2) ∉ (rowScatterDims N E C wf).sKept by rw [hk]; simp)]
  have hw1 : (rowScatterDims N E C wf).window (ix2 e c') (1 : Fin 2) = c'.val := by
    unfold ScatterDims.window
    rw [dif_pos (show (1 : Fin 2) ∈ (rowScatterDims N E C wf).sKept from by rw [hk]; exact List.mem_singleton.mpr rfl)]
    have hi : List.idxOf (1 : Fin 2) (rowScatterDims N E C wf).sKept = 0 := by rw [hk]; exact List.idxOf_cons_self
    simp only [hi]
    rfl
  constructor
  · intro h
    unfold ScatterDims.resultIdx? at h
    split at h
    · rename_i hb
      have h' := Option.some.inj h
      have h0 : ((rowScatterDims N E C wf).start (ix2 e c') idx (0 : Fin 2) + ((rowScatterDims N E C wf).window (ix2 e c') (0 : Fin 2) : ℤ)).toNat = n.val :=
        congrArg (fun f : (⟨2, ![N, C]⟩ : Shape).Idx => (f 0).val) h'
      have h1 : ((rowScatterDims N E C wf).start (ix2 e c') idx (1 : Fin 2) + ((rowScatterDims N E C wf).window (ix2 e c') (1 : Fin 2) : ℤ)).toNat = c.val :=
        congrArg (fun f : (⟨2, ![N, C]⟩ : Shape).Idx => (f 1).val) h'
      have hb0 := (hb 0).1
      have hb1 := (hb 1).1
      rw [hs0, hw0] at h0 hb0
      rw [hs1, hw1] at h1 hb1
      exact ⟨by omega, Fin.ext (by omega)⟩
    · exact absurd h (by simp)
  · rintro ⟨hrow, rfl⟩
    unfold ScatterDims.resultIdx?
    have hb : ∀ a : Fin 2, 0 ≤ (rowScatterDims N E C wf).start (ix2 e c') idx a + ((rowScatterDims N E C wf).window (ix2 e c') a : ℤ)
        ∧ (rowScatterDims N E C wf).start (ix2 e c') idx a + ((rowScatterDims N E C wf).window (ix2 e c') a : ℤ) < ((⟨2, ![N, C]⟩ : Shape).size a : ℤ) := by
      intro a
      match a with
      | ⟨0, _⟩ =>
        show 0 ≤ (rowScatterDims N E C wf).start (ix2 e c') idx (0 : Fin 2) + ((rowScatterDims N E C wf).window (ix2 e c') (0 : Fin 2) : ℤ)
          ∧ (rowScatterDims N E C wf).start (ix2 e c') idx (0 : Fin 2) + ((rowScatterDims N E C wf).window (ix2 e c') (0 : Fin 2) : ℤ) < (N : ℤ)
        rw [hs0, hw0, hrow]
        have := n.isLt
        omega
      | ⟨1, _⟩ =>
        show 0 ≤ (rowScatterDims N E C wf).start (ix2 e c') idx (1 : Fin 2) + ((rowScatterDims N E C wf).window (ix2 e c') (1 : Fin 2) : ℤ)
          ∧ (rowScatterDims N E C wf).start (ix2 e c') idx (1 : Fin 2) + ((rowScatterDims N E C wf).window (ix2 e c') (1 : Fin 2) : ℤ) < (C : ℤ)
        rw [hs1, hw1]
        have := c'.isLt
        omega
    rw [dif_pos hb]
    congr 1
    funext a
    refine Fin.ext ?_
    match a with
    | ⟨0, _⟩ =>
      show ((rowScatterDims N E C wf).start (ix2 e c') idx (0 : Fin 2) + ((rowScatterDims N E C wf).window (ix2 e c') (0 : Fin 2) : ℤ)).toNat = n.val
      rw [hs0, hw0, hrow]
      omega
    | ⟨1, _⟩ =>
      show ((rowScatterDims N E C wf).start (ix2 e c') idx (1 : Fin 2) + ((rowScatterDims N E C wf).window (ix2 e c') (1 : Fin 2) : ℤ)).toNat = c'.val
      rw [hs1, hw1]
      omega

/-- THE ROW SCATTER-ADD READ AT `(n, c)`, at the ideal values: the operand's entry plus the sum of the
    updates' entries `(e, c)` over the positions `e` whose row number is `n`. -/
theorem rowScatterAdd_apply {N E C w : ℕ}
    (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w) (upd : FVec Ideal ⟨2, ![E, C]⟩ .f32)
    (n : Fin N) (c : Fin C) :
    Host.scatterAdd (F := Ideal) (rowScatterDims N E C wf) x idx upd (ix2 n c)
      = x (ix2 n c) + ∑ e ∈ Finset.univ.filter (fun e : Fin E => (idx (ix2 e (0 : Fin 1))).toInt = (n.val : ℤ)),
          upd (ix2 e c) := by
  show Ideal.hostScatterAdd (rowScatterDims N E C wf) x idx upd (ix2 n c) = _
  unfold Ideal.hostScatterAdd
  congr 1
  rw [Finset.sum_filter, sum_idx2, Finset.sum_filter]
  refine Finset.sum_congr rfl fun e _ => ?_
  simp only [rowScatter_resultIdx]
  by_cases hrow : (idx (ix2 e (0 : Fin 1))).toInt = (n.val : ℤ)
  · simp only [hrow, true_and, if_true]
    rw [Finset.sum_ite_eq' Finset.univ c (fun c' => upd (ix2 e c'))]
    simp only [Finset.mem_univ, if_true]
  · simp only [hrow, false_and, if_false, Finset.sum_const_zero]

end Idealize.ShloMosaic.ValueIdx

end
-- ==== Proof.LibScatter1.lean ====
/-
  A general lemma for LIST indexing by an integer list, as `zeros.at[idx].add(u)` lowers for a rank-1 array
  and a rank-1 list of positions (held as an `[E, 1]` column):

  * at the ideal values a list scatter-add — operand `[N]`, scatter indices `[E, 1]`, updates `[E]`, no window
    axis, the operand's one axis inserted — read at `n` is the operand's entry plus the sum, over the list
    positions `e` whose position number `idx[e, 0]` (read signed, not clamped) is `n`, of the updates' entries `e`.
-/
import Idealize.ShloMosaic.Lib.ValueIdx
import Idealize.ShloMosaic.Lib.ValueIdxRank1
import Idealize.ShloMosaic.Lib.Pipeline.Value
import Idealize.ShloMosaic.PureOps.Ideal.Laws

noncomputable section

open scoped BigOperators

namespace Idealize.ShloMosaic.ValueIdx

open Idealize.ShloMosaic

/-- The dimension numbers of a list scatter: operand `[N]`, scatter indices `[E, 1]`, updates `[E]`. -/
abbrev listScatterDims (N E : ℕ)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Where the update at `e` lands: at `n` exactly when the position number at `e` is `n`. -/
private theorem listScatter_resultIdx {N E w : ℕ}
    (wf : ScatterDims.WF ⟨1, ![N]⟩ ⟨2, ![E, 1]⟩ ⟨1, ![E]⟩ [] [0] [0] 1)
    (idx : IVec ⟨2, ![E, 1]⟩ w) (e : Fin E) (n : Fin N) :
    (listScatterDims N E wf).resultIdx? (ix1 e) idx = some (ix1 n)
      ↔ (idx (ix2 e (0 : Fin 1))).toInt = (n.val : ℤ) := by
  have hs0 : (listScatterDims N E wf).start (ix1 e) idx (0 : Fin 1) = (idx (ix2 e (0 : Fin 1))).toInt := by
    unfold ScatterDims.start
    rw [dif_pos (show (0 : Fin 1) ∈ (listScatterDims N E wf).scatterDimsToOperandDims from List.mem_singleton.mpr rfl)]
    have hsi : (listScatterDims N E wf).siIdx (ix1 e) ⟨List.idxOf (0 : Fin 1) (listScatterDims N E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hk : (listScatterDims N E wf).sKept = [] := rfl
  have hw0 : (listScatterDims N E wf).window (ix1 e) (0 : Fin 1) = 0 := by
    unfold ScatterDims.window
    rw [dif_neg (show (0 : Fin 1) ∉ (listScatterDims N E wf).sKept by rw [hk]; simp)]
  constructor
  · intro h
    unfold ScatterDims.resultIdx? at h
    split at h
    · rename_i hb
      have h' := Option.some.inj h
      have h0 : ((listScatterDims N E wf).start (ix1 e) idx (0 : Fin 1) + ((listScatterDims N E wf).window (ix1 e) (0 : Fin 1) : ℤ)).toNat = n.val :=
        congrArg (fun f : (⟨1, ![N]⟩ : Shape).Idx => (f 0).val) h'
      have hb0 := (hb 0).1
      rw [hs0, hw0] at h0 hb0
      omega
    · exact absurd h (by simp)
  · intro hrow
    unfold ScatterDims.resultIdx?
    have hb : ∀ a : Fin 1, 0 ≤ (listScatterDims N E wf).start (ix1 e) idx a + ((listScatterDims N E wf).window (ix1 e) a : ℤ)
        ∧ (listScatterDims N E wf).start (ix1 e) idx a + ((listScatterDims N E wf).window (ix1 e) a : ℤ) < ((⟨1, ![N]⟩ : Shape).size a : ℤ) := by
      intro a
      match a with
      | ⟨0, _⟩ =>
        show 0 ≤ (listScatterDims N E wf).start (ix1 e) idx (0 : Fin 1) + ((listScatterDims N E wf).window (ix1 e) (0 : Fin 1) : ℤ)
          ∧ (listScatterDims N E wf).start (ix1 e) idx (0 : Fin 1) + ((listScatterDims N E wf).window (ix1 e) (0 : Fin 1) : ℤ) < (N : ℤ)
        rw [hs0, hw0, hrow]
        have := n.isLt
        omega
    rw [dif_pos hb]
    congr 1
    funext a
    refine Fin.ext ?_
    match a with
    | ⟨0, _⟩ =>
      show ((listScatterDims N E wf).start (ix1 e) idx (0 : Fin 1) + ((listScatterDims N E wf).window (ix1 e) (0 : Fin 1) : ℤ)).toNat = n.val
      rw [hs0, hw0, hrow]
      omega

/-- THE LIST SCATTER-ADD READ AT `n`, at the ideal values: the operand's entry plus the sum of the updates'
    entries `e` over the positions `e` whose position number is `n`. -/
theorem listScatterAdd_apply {N E w : ℕ}
    (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32)
    (n : Fin N) :
    Host.scatterAdd (F := Ideal) (listScatterDims N E wf) x idx upd (ix1 n)
      = x (ix1 n) + ∑ e ∈ Finset.univ.filter (fun e : Fin E => (idx (ix2 e (0 : Fin 1))).toInt = (n.val : ℤ)),
          upd (ix1 e) := by
  show Ideal.hostScatterAdd (listScatterDims N E wf) x idx upd (ix1 n) = _
  unfold Ideal.hostScatterAdd
  congr 1
  rw [Finset.sum_filter, ← Equiv.sum_comp (idxEquiv1 (n := E)).symm, Finset.sum_filter]
  refine Finset.sum_congr rfl fun e _ => ?_
  show (if (listScatterDims N E wf).resultIdx? (ix1 e) idx = some (ix1 n) then upd (ix1 e) else 0) = _
  simp only [listScatter_resultIdx]

end Idealize.ShloMosaic.ValueIdx

end
-- ==== Proof.Degree.lean ====
/-
  The degree column. One program sums ones into a rank-1 array of N zeros and reshapes to [N, 1]; the other sums
  a column of ones into an [N, 1] array of zeros. Both count, per node, the edges whose target row number is that
  node, and take the maximum with 1: the same [N, 1] column, every entry a real number that is at least 1.
  Each side is read at (n, 0) as max(0 + Σ over the edges whose target row number is n of 1, 1): the rank-1 sum by
  the list scatter-add's read, the column sum by the row scatter-add's read at one column; the sum of ones over
  a finite set is its number of elements, a natural number.
-/
import proofs.«426505_j87866440941609_1_alg».proof.Proof.KStage
import proofs.«426505_j87866440941609_1_alg».proof.Proof.RefRead
import proofs.«426505_j87866440941609_1_alg».proof.Proof.LibRows
import proofs.«426505_j87866440941609_1_alg».proof.Proof.LibScatter1
import proofs.«426505_j87866440941609_1_alg».proof.Proof.Consts
import proofs.«426505_j87866440941609_1_alg».proof.Proof.Gen.KernelIdeal

noncomputable section

namespace Cert.Proof.Degree

open Idealize.ShloMosaic Idealize.ShloMosaic.ValueIdx

open scoped BigOperators

/-- The count: for node `n`, the number of list positions whose row number (read signed) is `n`, from zero, at least one. -/
private def cnt (d : IVec ⟨1, ![800000]⟩ 32) (n : Fin 50000) : EReal :=
  max (0 + ∑ _e ∈ Finset.univ.filter (fun e : Fin 800000 => (d (ix1 e)).toInt = (n.val : ℤ)), (1 : EReal)) 1

/-- The row numbers held as a column, read at `(e, 0)`. -/
private theorem col_apply {α : Type} (h : (⟨1, ![800000]⟩ : Shape).BroadcastsInDim ⟨2, ![800000, 1]⟩ ![0])
    (d : (⟨1, ![800000]⟩ : Shape).Idx → α) (e : Fin 800000) :
    broadcastInDim ⟨2, ![800000, 1]⟩ ![0] h d (ix2 e (0 : Fin 1)) = d (ix1 e) :=
  broadcastInDim_apply _ h d _ (ix1 e) (fun a => match a with
    | ⟨0, _⟩ => by show e.val = if (800000 : ℕ) = 1 then 0 else e.val; rw [if_neg (by omega)])

/-- A scalar constant spread over an array reads as its value everywhere. -/
private theorem fill_apply {t : Shape} (h : (⟨0, ![]⟩ : Shape).BroadcastsInDim t ![]) (b : BitVec 32) (j : t.Idx) :
    broadcastInDim t ![] h (constant (F := Ideal) ⟨0, ![]⟩ .f32 b) j = Ideal.ofBits .f32 b :=
  broadcastInDim_apply _ h _ j ix0 (fun a => a.elim0)

/-- The two programs read the target row numbers off the edge list by the same operations. -/
private theorem dst_eq (x1 : IVec Cert.KernelIdeal.S2x800000 32) :
    Cert.KernelIdeal.Stage.dst x1 = Cert.ReferenceIdeal.ReadP.val_main_v3 (F := Ideal) x1 := rfl

/-- The rank-1 program's degree at `(n, 0)` is the count. -/
private theorem kdeg_apply (d : IVec Cert.KernelIdeal.S800000 32) (n : Fin 50000) :
    Cert.KernelIdeal.Stage.deg (F := Ideal) d (ix2 n (0 : Fin 1)) = cnt d n := by
  unfold Cert.KernelIdeal.Stage.deg
  rw [broadcastInDim_apply _ _ _ _ (ix1 n) (fun a => match a with
    | ⟨0, _⟩ => by show n.val = if (50000 : ℕ) = 1 then 0 else n.val; rw [if_neg (by omega)])]
  rw [maximumf_apply]
  show max (Host.scatterAdd (F := Ideal) (listScatterDims 50000 800000 _) _ _ _ (ix1 n)) _ = _
  rw [listScatterAdd_apply, fill_apply, fill_apply, Ideal.ofBits_zero_f32, Cert.Consts.ofBits_one]
  unfold cnt
  refine congrArg (fun s : EReal => max (0 + s) 1) ?_
  refine Finset.sum_congr (Finset.filter_congr fun e _ => by rw [col_apply]) fun e _ => ?_
  rw [fill_apply, Cert.Consts.ofBits_one]

/-- The column program's degree at `(n, 0)` is the count. -/
private theorem rdeg_apply (x1 : IVec Cert.KernelIdeal.S2x800000 32) (n : Fin 50000) :
    Cert.ReferenceIdeal.ReadP.val_main_v19 (F := Ideal) x1 (ix2 n (0 : Fin 1))
      = cnt (Cert.ReferenceIdeal.ReadP.val_main_v3 (F := Ideal) x1) n := by
  rw [Cert.ReferenceIdeal.ReadP.val_main_v19_apply, Ideal.maximumf_def]
  unfold Cert.ReferenceIdeal.ReadP.val_main_v17 Cert.ReferenceIdeal.ReadP.val_main_v18 Cert.ReferenceIdeal.ReadP.val_main_v15
    Cert.ReferenceIdeal.ReadP.val_main_v16 Cert.ReferenceIdeal.ReadP.val_main_v14
    Cert.ReferenceIdeal.ReadP.val_main_cst_1 Cert.ReferenceIdeal.ReadP.val_main_cst_2 Cert.ReferenceIdeal.ReadP.val_main_cst_3
  show max (Host.scatterAdd (F := Ideal) (rowScatterDims 50000 800000 1 _) _ _ _ (ix2 n (0 : Fin 1))) _ = _
  rw [rowScatterAdd_apply, fill_apply, fill_apply, Ideal.ofBits_zero_f32, Cert.Consts.ofBits_one]
  unfold cnt
  refine congrArg (fun s : EReal => max (0 + s) 1) ?_
  refine Finset.sum_congr (Finset.filter_congr fun e _ => by rw [col_apply]) fun e _ => ?_
  rw [fill_apply, Cert.Consts.ofBits_one]

/-- The two programs' degree columns are one array. -/
theorem deg_eq (x1 : IVec Cert.KernelIdeal.S2x800000 32) :
    Cert.KernelIdeal.Stage.deg (F := Ideal) (Cert.KernelIdeal.Stage.dst x1)
      = Cert.ReferenceIdeal.ReadP.val_main_v19 (F := Ideal) x1 := by
  funext i
  obtain ⟨n, c, rfl⟩ : ∃ (n : Fin 50000) (c : Fin 1), i = ix2 n c := ⟨i 0, i 1, eq_ix2 i⟩
  obtain rfl : c = 0 := Subsingleton.elim _ _
  rw [kdeg_apply, rdeg_apply, dst_eq]

/-- Every degree is a real number, at least 1. -/
theorem deg_real (x1 : IVec Cert.KernelIdeal.S2x800000 32) (n : Fin 50000) :
    ∃ r : ℝ, Cert.ReferenceIdeal.ReadP.val_main_v19 (F := Ideal) x1 (ix2 n (0 : Fin 1)) = (r : EReal) ∧ 1 ≤ r := by
  rw [rdeg_apply]
  unfold cnt
  rw [zero_add, Finset.sum_const, nsmul_one]
  refine ⟨max ((Finset.univ.filter (fun e : Fin 800000 =>
    (Cert.ReferenceIdeal.ReadP.val_main_v3 (F := Ideal) x1 (ix1 e)).toInt = (n.val : ℤ))).card : ℝ) 1, ?_, le_max_right _ _⟩
  rw [EReal.coe_strictMono.monotone.map_max]
  rfl

/-- The degree is computed a second time for the second layer, by the same operations. -/
theorem deg2_eq (x1 : IVec Cert.KernelIdeal.S2x800000 32) :
    Cert.ReferenceIdeal.ReadP.val_main_v46 (F := Ideal) x1 = Cert.ReferenceIdeal.ReadP.val_main_v19 (F := Ideal) x1 := rfl

end Cert.Proof.Degree

end
-- ==== Proof.TakeFill.lean ====
/-
  Where every source row number lies in [0, 50000) the gather-with-fill never fills: the wrapped row number is
  the row number itself, the range test holds at every edge, and the select returns the gathered rows.
  The wrapped column read at (e, 0) is the row number at e (the sign test is false there, so the select keeps it);
  both bounds of the range test then hold, a conjunction of ones folded from one stays one, and a select on a true
  bit is its first operand.
-/
import proofs.«426505_j87866440941609_1_alg».proof.Proof.KStage
import proofs.«426505_j87866440941609_1_alg».proof.Proof.Gen.KernelIdeal
import Idealize.ShloMosaic.Lib.ValueIdx
import Idealize.ShloMosaic.Lib.Pipeline.Value
import Idealize.ShloMosaic.Lib.ReduceAll
import Idealize.ShloMosaic.Lib.StableHlo.Predicate

noncomputable section

namespace Cert.KernelIdeal.Stage

open Idealize.ShloMosaic Idealize.ShloMosaic.ValueIdx Cert.KernelIdeal Cert.KernelIdeal.Facts₀ Cert.KernelIdeal.Facts

variable {F : FTy → Type} [FloatOps F]

/-- The source row number at edge `e` is the edge list's entry (0, e). -/
theorem src_apply (ei : IVec S2x800000 32) (e : Fin 800000) : src ei (ix1 e) = ei (ix2 (0 : Fin 2) e) := by
  unfold src
  refine (shapeCast_apply _ shapeCasts_S1x800000_S800000 (ix1 e) (ix2 (0 : Fin 1) e) ?_).trans ?_
  · rw [Shape.rowMajor_val_two, Shape.rowMajor_val_one]
    show (0 : ℕ) * 800000 + e.val = e.val
    omega
  · refine extractStridedSlice_apply _ ei slices_S2x800000_S1x800000_0_0 _ (ix2 (0 : Fin 2) e) ?_
    intro a
    match a with
    | ⟨0, _⟩ => rfl
    | ⟨1, _⟩ => show e.val = 0 + e.val; omega

/-- The target row number at edge `e` is the edge list's entry (1, e). -/
theorem dst_apply (ei : IVec S2x800000 32) (e : Fin 800000) : dst ei (ix1 e) = ei (ix2 (1 : Fin 2) e) := by
  unfold dst
  refine (shapeCast_apply _ shapeCasts_S1x800000_S800000 (ix1 e) (ix2 (0 : Fin 1) e) ?_).trans ?_
  · rw [Shape.rowMajor_val_two, Shape.rowMajor_val_one]
    show (0 : ℕ) * 800000 + e.val = e.val
    omega
  · refine extractStridedSlice_apply _ ei slices_S2x800000_S1x800000_1_0 _ (ix2 (1 : Fin 2) e) ?_
    intro a
    match a with
    | ⟨0, _⟩ => rfl
    | ⟨1, _⟩ => show e.val = 0 + e.val; omega

/-- A left fold by `and` from one over one-bit words that are all one is one. -/
private theorem foldl_andi_one {ι : Type} (f : ι → BitVec 1) (hf : ∀ n, f n = 1#1) :
    ∀ l : List ι, l.foldl (fun r n => IntOp.andi r (f n)) 1#1 = 1#1
  | [] => rfl
  | a :: l => by
    have h1 : IntOp.andi 1#1 1#1 = (1#1 : BitVec 1) := by decide
    rw [List.foldl_cons, hf a, h1]
    exact foldl_andi_one f hf l

/-- A reduction by `and` from one of an array of ones is one everywhere. -/
private theorem reduce_andi_of_all {s t u : Shape} {axes : List (Fin s.rank)} (x : s.Idx → BitVec 1)
    (init : u.Idx → BitVec 1) (h : s.ReducesTo axes t) (hu : 0 < u.numel) (j : t.Idx)
    (hinit : init (Shape.Idx.first hu) = 1#1) (hx : ∀ i, x i = 1#1) : Host.reduce IntOp.andi x init h hu j = 1#1 := by
  rw [Host.reduce_eq_foldl, hinit]
  exact foldl_andi_one x hx _

/-- In range, the wrapped column at (e, 0) is the row number at e: the sign test is false, so the select keeps it. -/
theorem wrapCol_apply (s : IVec S800000 32)
    (hs : ∀ e : Fin 800000, 0 ≤ (s (ix1 e)).toInt ∧ (s (ix1 e)).toInt < 50000) (j : S800000x1.Idx) :
    wrapCol s j = s (ix1 (j 0)) := by
  unfold wrapCol
  refine (broadcastInDim_apply _ bcast_S800000_S800000x1_0 _ j (ix1 (j 0)) ?_).trans ?_
  · intro a
    match a with
    | ⟨0, _⟩ =>
      show (j 0).val = if (800000 : ℕ) = 1 then 0 else (j 0).val
      rw [if_neg (by omega)]
  · have z : (0#32 : BitVec 32).toInt = 0 := by decide
    have h0 : IntOp.cmpi .slt (s (ix1 (j 0))) 0#32 = 0#1 := by
      apply eq_zero_of_ne_one
      rw [IntOp.cmpi_slt, z]
      have := (hs (j 0)).1
      omega
    show Scalar.select (IntOp.cmpi .slt (s (ix1 (j 0))) 0#32) _ (s (ix1 (j 0))) = _
    rw [h0, select_zero]

/-- In range, the range test is true at every edge. -/
theorem inRange_eq_one (s : IVec S800000 32)
    (hs : ∀ e : Fin 800000, 0 ≤ (s (ix1 e)).toInt ∧ (s (ix1 e)).toInt < 50000) (e : Fin 800000) :
    inRange (wrapCol s) (ix1 e) = 1#1 := by
  unfold inRange
  refine reduce_andi_of_all _ _ _ _ _ rfl ?_
  intro i
  have z : (0#32 : BitVec 32).toInt = 0 := by decide
  have t : (49999#32 : BitVec 32).toInt = 49999 := by decide
  have hi := hs (i 0)
  show IntOp.andi (IntOp.cmpi .sge (wrapCol s i) 0#32) (IntOp.cmpi .sle (wrapCol s i) 49999#32) = 1#1
  rw [wrapCol_apply s hs i, IntOp.andi_eq_one, IntOp.cmpi_sge, IntOp.cmpi_sle, z, t]
  omega

/-- In range, the 64-column gather with fill is the plain gather. -/
theorem take64_eq_gather (x : FVec F S50000x64 .f32) (s : IVec S800000 32)
    (hs : ∀ e : Fin 800000, 0 ≤ (s (ix1 e)).toInt ∧ (s (ix1 e)).toInt < 50000) :
    take64 x s = Host.gather gather_S50000x64_S800000x1_S800000x64_1_0_n_n_0_1_164 x (wrapCol s) := by
  funext j
  unfold take64
  have hc : broadcastInDim S800000x64 ![0] bcast_S800000_S800000x64_0 (inRange (wrapCol s)) j = 1#1 := by
    refine (broadcastInDim_apply _ bcast_S800000_S800000x64_0 _ j (ix1 (j 0)) ?_).trans (inRange_eq_one s hs (j 0))
    intro a
    match a with
    | ⟨0, _⟩ =>
      show (j 0).val = if (800000 : ℕ) = 1 then 0 else (j 0).val
      rw [if_neg (by omega)]
  rw [select_apply, hc, select_one]

/-- In range, the 128-column gather with fill is the plain gather. -/
theorem take128_eq_gather (x : FVec F S50000x128 .f32) (s : IVec S800000 32)
    (hs : ∀ e : Fin 800000, 0 ≤ (s (ix1 e)).toInt ∧ (s (ix1 e)).toInt < 50000) :
    take128 x s = Host.gather gather_S50000x128_S800000x1_S800000x128_1_0_n_n_0_1_1128 x (wrapCol s) := by
  funext j
  unfold take128
  have hc : broadcastInDim S800000x128 ![0] bcast_S800000_S800000x128_0 (inRange (wrapCol s)) j = 1#1 := by
    refine (broadcastInDim_apply _ bcast_S800000_S800000x128_0 _ j (ix1 (j 0)) ?_).trans (inRange_eq_one s hs (j 0))
    intro a
    match a with
    | ⟨0, _⟩ =>
      show (j 0).val = if (800000 : ℕ) = 1 then 0 else (j 0).val
      rw [if_neg (by omega)]
  rw [select_apply, hc, select_one]

end Cert.KernelIdeal.Stage

end
-- ==== Proof.PreFacts.lean ====
/-
  What the precondition says, read off its printed predicate at the ideal values: every source row number
  (row 0 of the edge list) lies in [0, 50000), and every entry of the second layer's two weight matrices and of
  its bias is a real number.

  The predicate is a conjunction of eight scalars, each an all-reduction by "and" of an elementwise test. The value 1
  of the whole gives the value 1 of every conjunct, hence of every element of every test. For a float input the test
  at an element x is max x (-x) < +∞ in the extended reals, which fails at both infinities, so x is real. For the edge
  list the test at position e of row 0 (the row sliced out and flattened) is 0 ≤ w and w < 50000, signed, at the word
  w the list holds at (0, e).
-/
import proofs.«426505_j87866440941609_1_alg».proof.Pre_finite_inputs
import proofs.«426505_j87866440941609_1_alg».proof.Proof.Gen.Pre_finite_inputs
import proofs.«426505_j87866440941609_1_alg».proof.Proof.Consts
import Idealize.ShloMosaic.PureOps.Ideal
import Idealize.ShloMosaic.Lib.ValueIdx
import Idealize.ShloMosaic.Lib.ReduceAll
import Idealize.ShloMosaic.Lib.StableHlo.Predicate

noncomputable section

namespace Cert.Proof.PreFacts

open Idealize.ShloMosaic Idealize.ShloMosaic.ValueIdx Cert.Pre_finite_inputs

/-- The scalar shape has one index. -/
local instance : Subsingleton S_.Idx := ⟨fun a b => funext fun d => d.elim0⟩

/-- An elementwise "and" of one-bit words that is 1 at an index has both operands 1 there. -/
private theorem andi_at {s : Shape} {a b : IVec s 1} {i : s.Idx} (h : andi a b i = 1#1) : a i = 1#1 ∧ b i = 1#1 :=
  IntOp.andi_eq_one.1 h

/-- An extended real whose absolute value is below +∞ (the f32 pattern 0x7F800000) is a real number. -/
private theorem real_of_abs_lt_inf (x : EReal)
    (h : Ideal.cmp .olt (max x (-x)) (Ideal.ofBits .f32 0x7F800000#32) = 1#1) : ∃ r : ℝ, x = (r : EReal) := by
  rw [Cert.Consts.ofBits_inf] at h
  have hb : BitVec.ofBool (decide (max x (-x) < (⊤ : EReal))) = 1#1 := h
  have hlt : max x (-x) < (⊤ : EReal) := of_decide_eq_true ((StableHlo.Predicate.ofBool_eq_one_iff _).1 hb)
  have hx : x < ⊤ := lt_of_le_of_lt (le_max_left _ _) hlt
  have hnx : -x < ⊤ := lt_of_le_of_lt (le_max_right _ _) hlt
  have hne_top : x ≠ ⊤ := ne_of_lt hx
  have hne_bot : x ≠ ⊥ := fun e => by rw [e, EReal.neg_bot] at hnx; exact lt_irrefl _ hnx
  exact ⟨x.toReal, (EReal.coe_toReal hne_top hne_bot).symm⟩

/-- A word that compares signed-greater-or-equal to 0 is non-negative read signed. -/
private theorem sge_zero {w : BitVec 32} (h : IntOp.cmpi .sge w 0#32 = 1#1) : 0 ≤ w.toInt := by
  have hb : BitVec.ofBool ((0#32 : BitVec 32).sle w) = 1#1 := h
  have h' : (0#32 : BitVec 32).toInt ≤ w.toInt :=
    BitVec.sle_iff_toInt_le.1 ((StableHlo.Predicate.ofBool_eq_one_iff _).1 hb)
  have z : (0#32 : BitVec 32).toInt = 0 := by decide
  omega

/-- A word that compares signed-less than 50000 is below 50000 read signed. -/
private theorem slt_bound {w : BitVec 32} (h : IntOp.cmpi .slt w 50000#32 = 1#1) : w.toInt < 50000 := by
  have hb : BitVec.ofBool (w.slt 50000#32) = 1#1 := h
  have h' : w.toInt < (50000#32 : BitVec 32).toInt :=
    BitVec.slt_iff_toInt_lt.1 ((StableHlo.Predicate.ofBool_eq_one_iff _).1 hb)
  have z : (50000#32 : BitVec 32).toInt = 50000 := by decide
  omega

variable (x0 : FVec Ideal S50000x64 .f32) (x1 : IVec S2x800000 32) (x2 : FVec Ideal S128x64 .f32) (x3 : FVec Ideal S128 .f32)
  (x4 : FVec Ideal S128x64 .f32) (x5 : FVec Ideal S64x128 .f32) (x6 : FVec Ideal S64 .f32) (x7 : FVec Ideal S64x128 .f32)

/-- Every source row number is in [0, 50000). -/
theorem src_range (h : Cert.Pre_finite_inputs.fn (F := Ideal) x0 x1 x2 x3 x4 x5 x6 x7 = fun _ => 1#1) (e : Fin 800000) :
    0 ≤ (x1 (ix2 (0 : Fin 2) e)).toInt ∧ (x1 (ix2 (0 : Fin 2) e)).toInt < 50000 := by
  have e0 := congrFun h ix0
  dsimp only [Cert.Pre_finite_inputs.fn, fn_part1, fn_part2] at e0
  -- the last conjunct, its all-reduction read at position e, and the two comparisons there
  obtain ⟨-, hI⟩ := andi_at e0
  have hj := Host.reduce_andi_all _ _ _ _ ix0 hI (ix1 e)
  obtain ⟨hge, hlt⟩ := andi_at hj
  -- position e of the flattened row 0 is the edge list at (0, e)
  have hrow : shapeCast S800000 (extractStridedSlice S1x800000 ![0, 0] x1 Facts.slices_S2x800000_S1x800000_0_0)
      Facts.shapeCasts_S1x800000_S800000 (ix1 e) = x1 (ix2 (0 : Fin 2) e) := by
    have hk : Shape.reshapeEquiv Facts.shapeCasts_S1x800000_S800000 (ix1 e) = ix2 (0 : Fin 1) e :=
      Shape.reshapeEquiv_eq_of_rowMajor _ (by
        rw [Shape.rowMajor_val_one, Shape.rowMajor_val_two]
        show 0 * 800000 + e.val = e.val
        omega)
    unfold shapeCast extractStridedSlice
    rw [hk]
    refine congrArg x1 (funext fun a => Fin.ext ?_)
    match a with
    | ⟨0, _⟩ => rfl
    | ⟨1, _⟩ => show 0 + e.val = e.val; omega
  have hge' : IntOp.cmpi .sge (x1 (ix2 (0 : Fin 2) e)) 0#32 = 1#1 := by rw [← hrow]; exact hge
  have hlt' : IntOp.cmpi .slt (x1 (ix2 (0 : Fin 2) e)) 50000#32 = 1#1 := by rw [← hrow]; exact hlt
  exact ⟨sge_zero hge', slt_bound hlt'⟩

/-- Every entry of the second layer's neighbour weights is a real number. -/
theorem wl2_real (h : Cert.Pre_finite_inputs.fn (F := Ideal) x0 x1 x2 x3 x4 x5 x6 x7 = fun _ => 1#1) (i : S64x128.Idx) :
    ∃ r : ℝ, x5 i = (r : EReal) := by
  have e := congrFun h ix0
  dsimp only [Cert.Pre_finite_inputs.fn, fn_part1, fn_part2] at e
  obtain ⟨e7, -⟩ := andi_at e
  obtain ⟨e6, -⟩ := andi_at e7
  obtain ⟨e5, -⟩ := andi_at e6
  obtain ⟨-, h5⟩ := andi_at e5
  exact real_of_abs_lt_inf (x5 i) (Host.reduce_andi_all _ _ _ _ ix0 h5 i)

/-- Every entry of the second layer's bias is a real number. -/
theorem b2_real (h : Cert.Pre_finite_inputs.fn (F := Ideal) x0 x1 x2 x3 x4 x5 x6 x7 = fun _ => 1#1) (i : S64.Idx) :
    ∃ r : ℝ, x6 i = (r : EReal) := by
  have e := congrFun h ix0
  dsimp only [Cert.Pre_finite_inputs.fn, fn_part1, fn_part2] at e
  obtain ⟨e7, -⟩ := andi_at e
  obtain ⟨e6, -⟩ := andi_at e7
  obtain ⟨-, h6⟩ := andi_at e6
  exact real_of_abs_lt_inf (x6 i) (Host.reduce_andi_all _ _ _ _ ix0 h6 i)

/-- Every entry of the second layer's root weights is a real number. -/
theorem wr2_real (h : Cert.Pre_finite_inputs.fn (F := Ideal) x0 x1 x2 x3 x4 x5 x6 x7 = fun _ => 1#1) (i : S64x128.Idx) :
    ∃ r : ℝ, x7 i = (r : EReal) := by
  have e := congrFun h ix0
  dsimp only [Cert.Pre_finite_inputs.fn, fn_part1, fn_part2] at e
  obtain ⟨e7, -⟩ := andi_at e
  obtain ⟨-, h7⟩ := andi_at e7
  exact real_of_abs_lt_inf (x7 i) (Host.reduce_andi_all _ _ _ _ ix0 h7 i)

end Cert.Proof.PreFacts

end
-- ==== Proof.Finite.lean ====
/-
  Every entry of the second layer's pre-activation is a real number. The hidden layer is a tanh, so each of its
  entries is real whatever the first layer's sums were; the second aggregation's entry (n, k) is a finite sum, from
  zero, of hidden-layer entries (the rows gathered at the edges whose target is n), divided by the degree, a real
  that is at least 1; the second layer's weights and bias are real by the precondition; a combine entry of reals is
  real.
-/
import proofs.«426505_j87866440941609_1_alg».proof.Proof.RefRead
import proofs.«426505_j87866440941609_1_alg».proof.Proof.RefIndex
import proofs.«426505_j87866440941609_1_alg».proof.Proof.DenseMath
import proofs.«426505_j87866440941609_1_alg».proof.Proof.Degree
import proofs.«426505_j87866440941609_1_alg».proof.Proof.LibRows

noncomputable section

open scoped BigOperators

namespace Cert.Proof.Finite

open Cert.ReferenceIdeal Cert.ReferenceIdeal.ReadP Idealize.ShloMosaic Idealize.ShloMosaic.ValueIdx Cert.Sage

variable (x0 : FVec Ideal S50000x64 .f32) (x1 : IVec S2x800000 32) (x2 : FVec Ideal S128x64 .f32) (x3 : FVec Ideal S128 .f32)
  (x4 : FVec Ideal S128x64 .f32) (x5 : FVec Ideal S64x128 .f32) (x6 : FVec Ideal S64 .f32) (x7 : FVec Ideal S64x128 .f32)

/-- Every entry of the hidden layer is a real number: it is a tanh. -/
theorem hidden_real (n : Fin 50000) (k : Fin 128) :
    ∃ r : ℝ, val_main_v30 (F := Ideal) x0 x1 x2 x3 x4 (ix2 n k) = (r : EReal) := by
  rw [Cert.ReferenceIdeal.Index.hidden_apply]
  exact tanh_real _

/-- Every gathered hidden row entry is a real number: it is some entry of the hidden layer. -/
theorem gathered_real (e : Fin 800000) (k : Fin 128) :
    ∃ r : ℝ, val_main_v37 (F := Ideal) x0 x1 x2 x3 x4 (ix2 e k) = (r : EReal) := by
  have hd : val_main_v37 (F := Ideal) x0 x1 x2 x3 x4
      = Host.gather (rowGatherDims 50000 800000 128 Gen.gather_S50000x128_S800000x1_S800000x128_1_0_n_n_0_1_1128_wf)
          (val_main_v30 (F := Ideal) x0 x1 x2 x3 x4) (val_main_v36 (F := Ideal) x1) := rfl
  rw [hd, rowGather_apply (by decide)]
  exact hidden_real x0 x1 x2 x3 x4 _ k

/-- Every entry of the summed gathered rows is a real number: zero plus a finite sum of reals. -/
theorem summed_real (n : Fin 50000) (k : Fin 128) :
    ∃ r : ℝ, val_main_v40 (F := Ideal) x0 x1 x2 x3 x4 (ix2 n k) = (r : EReal) := by
  have hd : val_main_v40 (F := Ideal) x0 x1 x2 x3 x4
      = Host.scatterAdd (F := Ideal) (rowScatterDims 50000 800000 128 Gen.scatter_S50000x128_S800000x1_S800000x128_1_0_0_1_wf)
          (val_main_v38 (F := Ideal)) (val_main_v39 (F := Ideal) x1) (val_main_v37 (F := Ideal) x0 x1 x2 x3 x4) := rfl
  rw [hd, rowScatterAdd_apply]
  have h0 : val_main_v38 (F := Ideal) (ix2 n k) = ((0 : ℝ) : EReal) := by
    rw [val_main_v38_apply, val_main_cst_6_apply]
    show Ideal.ofBits .f32 0x00000000#32 = _
    rw [Ideal.ofBits_zero_f32]; rfl
  obtain ⟨s, hs⟩ := sum_real (Finset.univ.filter (fun e : Fin 800000 => (val_main_v39 (F := Ideal) x1 (ix2 e (0 : Fin 1))).toInt = (n.val : ℤ)))
    (fun e => val_main_v37 (F := Ideal) x0 x1 x2 x3 x4 (ix2 e k)) (fun e _ => gathered_real x0 x1 x2 x3 x4 e k)
  exact ⟨0 + s, by rw [h0, hs, EReal.coe_add]⟩

/-- Every entry of the second aggregation is a real number. -/
theorem agg2_real (n : Fin 50000) (k : Fin 128) :
    ∃ r : ℝ, val_main_v48 (F := Ideal) x0 x1 x2 x3 x4 (ix2 n k) = (r : EReal) := by
  rw [val_main_v48_apply]
  show ∃ r : ℝ, Ideal.div _ _ = (r : EReal)
  refine div_real _ _ (summed_real x0 x1 x2 x3 x4 n k) ?_
  rw [val_main_v47_apply, Cert.Proof.Degree.deg2_eq]
  have hi : idx_main_v47 (ix2 n k) = ix2 n (0 : Fin 1) := by
    funext a; refine Fin.ext ?_
    match a with
    | ⟨0, _⟩ => rfl
    | ⟨1, _⟩ => rfl
  rw [hi]
  exact Cert.Proof.Degree.deg_real x1 n

/-- Every entry of the second layer's pre-activation is a real number, when its weights and bias are. -/
theorem pre_real (h5 : ∀ i, ∃ r : ℝ, x5 i = (r : EReal)) (h6 : ∀ i, ∃ r : ℝ, x6 i = (r : EReal))
    (h7 : ∀ i, ∃ r : ℝ, x7 i = (r : EReal)) (n : Fin 50000) (j : Fin 64) :
    ∃ r : ℝ, val_main_v56 (F := Ideal) x0 x1 x2 x3 x4 x5 x6 x7 (ix2 n j) = (r : EReal) := by
  rw [Cert.ReferenceIdeal.Index.pre_apply]
  exact combR_real _ _ _ _ _ (fun k => agg2_real x0 x1 x2 x3 x4 n k) (fun k => hidden_real x0 x1 x2 x3 x4 n k)
    (fun k => h5 _) (fun k => h7 _) (h6 _)

end Cert.Proof.Finite

end
-- ==== Proof.Bridge.lean ====
/-
  The bridge: at the ideal values and under the precondition, what the kernel program leaves in its result array
  is the reference's last stage of the same arguments.

  Both programs gather the source rows, sum them into their targets' rows and divide by the degree; the kernel's
  gather fills where a row number is out of range, and under the precondition none is, so the two first
  aggregations are one array. The hidden layers then agree entry by entry: the two differ only in where the bias is
  added to the two products' sums. So the second aggregations are one array, and the pre-activations agree entry by
  entry for the same reason. The pre-activation's entries are real numbers, and on a row of reals the two ways of
  writing the log-softmax (subtract the maximum and the log-sum together, or one after the other) agree.
-/
import proofs.«426505_j87866440941609_1_alg».proof.Proof.KChain
import proofs.«426505_j87866440941609_1_alg».proof.Proof.KRegion0
import proofs.«426505_j87866440941609_1_alg».proof.Proof.KRegion1
import proofs.«426505_j87866440941609_1_alg».proof.Proof.RefRead
import proofs.«426505_j87866440941609_1_alg».proof.Proof.RefIndex
import proofs.«426505_j87866440941609_1_alg».proof.Proof.DenseMath
import proofs.«426505_j87866440941609_1_alg».proof.Proof.Degree
import proofs.«426505_j87866440941609_1_alg».proof.Proof.TakeFill
import proofs.«426505_j87866440941609_1_alg».proof.Proof.PreFacts
import proofs.«426505_j87866440941609_1_alg».proof.Proof.Finite

noncomputable section

namespace Cert.Proof.Bridge

open Idealize.ShloMosaic Idealize.ShloMosaic.TcCoe Idealize.ShloMosaic.ValueIdx Idealize.SL.Sem Cert.Sage
open Cert.KernelIdeal.Gen (W4 W7 V3 V6 dat0 dat1)
open Cert.ReferenceIdeal.ReadP

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- The precondition at the kernel's argument arrays. -/
abbrev Pre : Prop :=
  Cert.Pre_finite_inputs.fn (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) = fun _ => 1#1

/-- Under the precondition every source row number is in range. -/
theorem src_ok (hpre : Pre m c) (e : Fin 800000) :
    0 ≤ (Cert.KernelIdeal.Stage.src (m ((c : Thread Cert.KernelIdeal.nD Cert.KernelIdeal.τ).loc Cert.KernelIdeal.main_arg1)) (ix1 e)).toInt
      ∧ (Cert.KernelIdeal.Stage.src (m ((c : Thread Cert.KernelIdeal.nD Cert.KernelIdeal.τ).loc Cert.KernelIdeal.main_arg1)) (ix1 e)).toInt < 50000 := by
  rw [Cert.KernelIdeal.Stage.src_apply]
  exact Cert.Proof.PreFacts.src_range _ _ _ _ _ _ _ _ hpre e

/-- The first aggregations are one array. -/
theorem agg1_eq (hpre : Pre m c) :
    V3 m ρ c Cert.KernelIdeal.main_v16 = val_main_v21 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) := by
  rw [Cert.KernelIdeal.Chain.V3_agg, Cert.KernelIdeal.Stage.take64_eq_gather _ _ (src_ok m c hpre), Cert.Proof.Degree.deg_eq]
  rfl

/-- The hidden layers are one array. -/
theorem hidden_eq (hpre : Pre m c) :
    W4 m ρ c (Proc.devRef .tc Cert.KernelIdeal.main_v17) = val_main_v30 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) := by
  rw [Cert.KernelIdeal.Chain.W4_hidden]
  funext i
  obtain ⟨n, k, rfl⟩ : ∃ (n : Fin 50000) (k : Fin 128), i = ix2 n k := ⟨i 0, i 1, eq_ix2 i⟩
  rw [Cert.KernelIdeal.Region.region0_value, Cert.ReferenceIdeal.Index.hidden_apply, combK_eq_combR,
    agg1_eq m ρ c hpre, Cert.KernelIdeal.Chain.V3_arg0, Cert.KernelIdeal.Chain.V3_arg2, Cert.KernelIdeal.Chain.V3_arg3,
    Cert.KernelIdeal.Chain.V3_arg4]

/-- The second aggregations are one array. -/
theorem agg2_eq (hpre : Pre m c) :
    V6 m ρ c Cert.KernelIdeal.main_v23 = val_main_v48 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) := by
  rw [Cert.KernelIdeal.Chain.V6_agg, hidden_eq m ρ c hpre, Cert.KernelIdeal.Stage.take128_eq_gather _ _ (src_ok m c hpre),
    Cert.Proof.Degree.deg_eq]
  rfl

/-- The results are one array. -/
theorem result_eq (hpre : Pre m c) :
    W7 m ρ c (Proc.devRef .tc Cert.KernelIdeal.main_v24) = val_main_v57 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) := by
  rw [Cert.KernelIdeal.Chain.W7_result]
  funext i
  obtain ⟨n, j, rfl⟩ : ∃ (n : Fin 50000) (j : Fin 64), i = ix2 n j := ⟨i 0, i 1, eq_ix2 i⟩
  rw [Cert.KernelIdeal.Region.region1_value, Cert.ReferenceIdeal.Index.out_apply]
  have hz : (fun j' : Fin 64 => combK (fun k : Fin 128 => (V6 m ρ c Cert.KernelIdeal.main_v23 : Cert.KernelIdeal.S50000x128.Idx → EReal) (ix2 n k))
        (fun k : Fin 128 => (V6 m ρ c Cert.KernelIdeal.main_v17 : Cert.KernelIdeal.S50000x128.Idx → EReal) (ix2 n k))
        (fun k : Fin 128 => (V6 m ρ c Cert.KernelIdeal.main_arg5 : Cert.KernelIdeal.S64x128.Idx → EReal) (ix2 j' k))
        (fun k : Fin 128 => (V6 m ρ c Cert.KernelIdeal.main_arg7 : Cert.KernelIdeal.S64x128.Idx → EReal) (ix2 j' k))
        ((V6 m ρ c Cert.KernelIdeal.main_arg6 : Cert.KernelIdeal.S64.Idx → EReal) (ix1 j')))
      = fun j' : Fin 64 => val_main_v56 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (ix2 n j') := by
    funext j'
    rw [Cert.ReferenceIdeal.Index.pre_apply, combK_eq_combR, agg2_eq m ρ c hpre, Cert.KernelIdeal.Chain.V6_hidden,
      hidden_eq m ρ c hpre, Cert.KernelIdeal.Chain.V6_arg5, Cert.KernelIdeal.Chain.V6_arg6, Cert.KernelIdeal.Chain.V6_arg7]
  rw [hz]
  exact lsmK_eq_lsmR (by decide) _ (fun j' => Cert.Proof.Finite.pre_real _ _ _ _ _ _ _ _
    (Cert.Proof.PreFacts.wl2_real _ _ _ _ _ _ _ _ hpre) (Cert.Proof.PreFacts.b2_real _ _ _ _ _ _ _ _ hpre)
    (Cert.Proof.PreFacts.wr2_real _ _ _ _ _ _ _ _ hpre) n j') j

end Cert.Proof.Bridge

end
-- ==== Proof.lean ====
/-
  A two-layer message-passing network over a graph of 50000 nodes and 800000 edges: per layer, each node's
  neighbour rows are gathered along the edges, summed into the node's row and divided by its degree (at least 1);
  the node's new row is a dense combine of that mean and its own row; the first layer ends in tanh, the second in a
  row-wise log-softmax. One program does the two dense combines in Pallas kernels, blocked by 5000 rows; the other
  is plain jnp.

  The claim is stated under a precondition: the float inputs are finite and the source row numbers lie in
  [0, 50000). Within it the two programs agree at the ideal values (Proof/Bridge.lean): the gathers coincide
  because no row number is out of range; the dense combines differ only in the order of three additions, which is
  immaterial on the extended reals; and the two ways of writing the log-softmax agree because the second layer's
  pre-activation is a real number at every entry (the hidden layer is a tanh, the degree a count).

  The three frames are the two kernel programs' generated frames and the reference's run with its result dropped;
  the idealization rewrote nothing, so `preserves` is trivial.
-/
import proofs.«426505_j87866440941609_1_alg».proof.Defs
import proofs.«426505_j87866440941609_1_alg».proof.Proof.Gen.Kernel
import proofs.«426505_j87866440941609_1_alg».proof.Proof.Gen.Kernel.Skeleton
import proofs.«426505_j87866440941609_1_alg».proof.Proof.Gen.Kernel.Launch
import proofs.«426505_j87866440941609_1_alg».proof.Proof.Gen.Kernel.Points
import proofs.«426505_j87866440941609_1_alg».proof.Proof.Gen.Kernel.Frame
import proofs.«426505_j87866440941609_1_alg».proof.Proof.Gen.KernelIdeal
import proofs.«426505_j87866440941609_1_alg».proof.Proof.Gen.KernelIdeal.Skeleton
import proofs.«426505_j87866440941609_1_alg».proof.Proof.Gen.KernelIdeal.Launch
import proofs.«426505_j87866440941609_1_alg».proof.Proof.Gen.KernelIdeal.Points
import proofs.«426505_j87866440941609_1_alg».proof.Proof.Gen.KernelIdeal.Frame
import proofs.«426505_j87866440941609_1_alg».proof.Proof.Gen.ReferenceIdeal
import proofs.«426505_j87866440941609_1_alg».proof.Proof.Gen.Pre_finite_inputs
import proofs.«426505_j87866440941609_1_alg».proof.Proof.KernelRun
import proofs.«426505_j87866440941609_1_alg».proof.Proof.RefEval
import proofs.«426505_j87866440941609_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result forgotten. -/
theorem frame_referenceIdeal : Cert.frame_ReferenceIdeal := fun m ρ _ =>
  (θ_run Cert.ReferenceIdeal.defs _ _).mono (fun _ h c => (h c).2) (Cert.ReferenceIdeal.Eval.run (F := Ideal) m ρ)

/-- The two idealized programs, run from memories that agree on the arguments, end with equal results: the
    kernel's run leaves its result array at the last boundary's contents, the reference's at its last stage of the
    arguments, and under the precondition the two are one array. -/
theorem algebraic : Cert.algebraic_KernelIdeal_ReferenceIdeal := by
  intro m ρ m' ρ' hpre hagree
  refine ⟨fun c => Cert.KernelIdeal.Gen.W7 m ρ c (Proc.devRef .tc Cert.KernelIdeal.main_v24),
    Cert.KernelIdeal.Gen.run_result (F := Ideal) m ρ, ?_⟩
  refine (θ_run Cert.ReferenceIdeal.defs _ _).mono (fun _ h c => ⟨(h c).1.trans ?_, (h c).2⟩)
    (Cert.ReferenceIdeal.Eval.run (F := Ideal) m' ρ')
  rw [(hagree c).1, (hagree c).2.1, (hagree c).2.2.1, (hagree c).2.2.2.1, (hagree c).2.2.2.2.1,
    (hagree c).2.2.2.2.2.1, (hagree c).2.2.2.2.2.2.1, (hagree c).2.2.2.2.2.2.2]
  exact (Cert.Proof.Bridge.result_eq m ρ c (hpre c)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
